-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x64 : Shape := ⟨2, ![4000, 64]⟩
abbrev S4000x1 : Shape := ⟨2, ![4000, 1]⟩
abbrev S1700000x64 : Shape := ⟨2, ![1700000, 64]⟩
abbrev S1x64 : Shape := ⟨2, ![1, 64]⟩
abbrev S128x64 : Shape := ⟨2, ![128, 64]⟩
abbrev S4000x128 : Shape := ⟨2, ![4000, 128]⟩
abbrev S128 : Shape := ⟨1, ![128]⟩
abbrev S128x1 : Shape := ⟨2, ![128, 1]⟩
abbrev S1x32 : Shape := ⟨2, ![1, 32]⟩
abbrev S128x32 : Shape := ⟨2, ![128, 32]⟩

abbrev nBuf : Space → Nat
  | .hbm => 97
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x1, .i32⟩
  | .hbm, ⟨34, _⟩ => ⟨S100000x64, .bf16⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000x64, .bf16⟩
  | .hbm, ⟨44, _⟩ => ⟨S1700000x64, .f32⟩
  | .hbm, ⟨45, _⟩ => ⟨S_, .f32⟩
  | .hbm, ⟨46, _⟩ => ⟨S100000x64, .f32⟩
  | .hbm, ⟨47, _⟩ => ⟨S1700000x1, .i32⟩
  | .hbm, ⟨48, _⟩ => ⟨S100000x64, .f32⟩
  | .hbm, ⟨49, _⟩ => ⟨S1x64, .f32⟩
  | .hbm, ⟨50, _⟩ => ⟨S100000x64, .bf16⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .bf16⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .bf16⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .bf16⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S1x64, .f32⟩
  | .hbm, ⟨82, _⟩ => ⟨S128x64, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S128, .f32⟩
  | .hbm, ⟨87, _⟩ => ⟨S100000x1, .i32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128x1, .f32⟩
  | .hbm, ⟨93, _⟩ => ⟨S128x64, .f32⟩
  | .hbm, ⟨94, _⟩ => ⟨S128x64, .f32⟩
  | .hbm, ⟨95, _⟩ => ⟨S1x32, .f32⟩
  | .hbm, ⟨96, _⟩ => ⟨S128x32, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S64x64, .f32⟩
  | .local _ .vmem, ⟨21, _⟩ => ⟨S4000x64, .bf16⟩
  | .local _ .vmem, ⟨22, _⟩ => ⟨S4000x64, .bf16⟩
  | .local _ .vmem, ⟨23, _⟩ => ⟨S4000x64, .f32⟩
  | .local _ .vmem, ⟨24, _⟩ => ⟨S4000x64, .f32⟩
  | .local _ .vmem, ⟨25, _⟩ => ⟨S4000x1, .f32⟩
  | .local _ .vmem, ⟨26, _⟩ => ⟨S4000x1, .f32⟩
  | .local _ .vmem, ⟨27, _⟩ => ⟨S1x64, .f32⟩
  | .local _ .vmem, ⟨28, _⟩ => ⟨S4000x1, .i32⟩
  | .local _ .vmem, ⟨29, _⟩ => ⟨S4000x1, .i32⟩
  | .local _ .vmem, ⟨30, _⟩ => ⟨S128x64, .f32⟩
  | .local _ .vmem, ⟨31, _⟩ => ⟨S128x64, .f32⟩
  | .local _ .vmem, ⟨32, _⟩ => ⟨S128x64, .f32⟩
  | .local _ .vmem, ⟨33, _⟩ => ⟨S64x32, .f32⟩
  | .local _ .vmem, ⟨34, _⟩ => ⟨S1x32, .f32⟩
  | .local _ .vmem, ⟨35, _⟩ => ⟨S128x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc3_sem4_0 : DmaSem sig := 30
abbrev cc4_sem0_0 : DmaSem sig := 31
abbrev cc4_sem1_0 : DmaSem sig := 32
abbrev cc4_sem2_0 : DmaSem sig := 33
abbrev cc4_sem3_0 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v30 : BitVec 1 := Scalar.cmpi .eq arg0 c24_i32
  let v31 : BitVec 32 := Scalar.extui v30
  let c0_i32_13 : BitVec 32 := 0#32
  let v32 : BitVec 1 := Scalar.cmpi .ne v31 c0_i32_13
  v32

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S128x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  iota_S4000x128_d1_w32 : S4000x128.Iotas .tc 32 [1]
  broadcasts_S4000x1_S4000x128 : S4000x1.Broadcasts S4000x128
  natLt_1_32 : 1 < 32
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  scatter_S100000_S1700000x1_S1700000_n_0_0_1_wf : ScatterDims.WF S100000 S1700000x1 S1700000 [] [0] [0] 1
  dot_S4000x64_S64x64_S4000x64_1_0_0_1_n_n_wf : DotDims.WF S4000x64 S64x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x128_S4000x64_S128x64_0_0_1_1_n_n_wf : DotDims.WF S4000x128 S4000x64 S128x64 [0] [0] [1] [1] [] []
  scatter_S128_S100000x1_S100000_n_0_0_1_wf : ScatterDims.WF S128 S100000x1 S100000 [] [0] [0] 1
  dot_S128x64_S64x32_S128x32_1_0_0_1_n_n_wf : DotDims.WF S128x64 S64x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .bf16 = 32 ∨ (Rect.block (s := S100000x64) S4000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S100000x1.size a
  hwx3_3 : ∀ i : grid3.Coords, EltTy.bits .i32 = 32 ∨ (Rect.block (s := S100000x1) S4000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S128x64.size a ≤ S128x64.size a
  hwx4_0 : ∀ i : grid4.Coords, EltTy.bits .f32 = 32 ∨ (Rect.block (s := S128x64) S128x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S128x32.size a ≤ S128x32.size a
  hwx4_3 : ∀ i : grid4.Coords, EltTy.bits .f32 = 32 ∨ (Rect.block (s := S128x32) S128x32.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x128_S4000x64_S128x64_0_0_1_1_n_n : DotDims S4000x128 S4000x64 S128x64 where
  lhsContracting := [0]
  rhsContracting := [0]
  lhsNonContracting := [1]
  rhsNonContracting := [1]
  lhsBatch := []
  rhsBatch := []
  wf := dot_S4000x128_S4000x64_S128x64_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v56) S128x64.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v65) S128x64.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S128x32.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩
abbrev S128x32 : Shape := ⟨2, ![128, 32]⟩
abbrev S1x32 : Shape := ⟨2, ![1, 32]⟩

abbrev nBuf : Space → Nat
  | .hbm => 212
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S100000, .i32⟩
  | 7 => ⟨S1700000, .i32⟩
  | 8 => ⟨S1700000, .i32⟩
  | 9 => ⟨S_, .f32⟩
  | 10 => ⟨S1700000, .f32⟩
  | 11 => ⟨S_, .f32⟩
  | 12 => ⟨S100000, .f32⟩
  | 13 => ⟨S1700000x1, .i32⟩
  | 14 => ⟨S100000, .f32⟩
  | 15 => ⟨S_, .f32⟩
  | 16 => ⟨S100000, .f32⟩
  | 17 => ⟨S100000, .i1⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x64, .f32⟩
  | 51 => ⟨S1700000x1, .f32⟩
  | 52 => ⟨S1700000x64, .f32⟩
  | 53 => ⟨S1700000x64, .f32⟩
  | 54 => ⟨S_, .f32⟩
  | 55 => ⟨S100000x64, .f32⟩
  | 56 => ⟨S1700000x1, .i32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .f32⟩
  | 65 => ⟨S128x64, .f32⟩
  | 66 => ⟨S100000x1, .i32⟩
  | 67 => ⟨S128x64, .f32⟩
  | 68 => ⟨S_, .f32⟩
  | 69 => ⟨S100000, .f32⟩
  | 70 => ⟨S_, .f32⟩
  | 71 => ⟨S128, .f32⟩
  | 72 => ⟨S100000x1, .i32⟩
  | 73 => ⟨S128, .f32⟩
  | 74 => ⟨S_, .f32⟩
  | 75 => ⟨S128, .f32⟩
  | 76 => ⟨S128, .f32⟩
  | 77 => ⟨S128x1, .f32⟩
  | 78 => ⟨S128x64, .f32⟩
  | 79 => ⟨S128x64, .f32⟩
  | 80 => ⟨S128x32, .f32⟩
  | 81 => ⟨S1x32, .f32⟩
  | 82 => ⟨S128x32, .f32⟩
  | 83 => ⟨S128x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_26 : Ref sig .tc := ⟨.hbm, 160, rfl⟩
abbrev main_v111 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_call5_cst : Ref sig .tc := ⟨.hbm, 189, rfl⟩
abbrev main_call5_v0 : Ref sig .tc := ⟨.hbm, 190, rfl⟩
abbrev main_v135 : Ref sig .tc := ⟨.hbm, 191, rfl⟩
abbrev main_cst_31 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_32 : Ref sig .tc := ⟨.hbm, 196, rfl⟩
abbrev main_v139 : Ref sig .tc := ⟨.hbm, 197, rfl⟩
abbrev main_cst_33 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_34 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x32_S128x32_1_0_0_1_n_n_wf : DotDims.WF S128x64 S64x32 S128x32 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

class Facts : Prop extends Facts₀ where

variable [Facts]
-- ==== Proof.K.R0.lean ====
/-
  REGION 0 of @main (custom_call 0, the matmul-and-scale kernel on a grid of 25 points), at a parameter V: the TensorCore's buffer contents when the region is entered.

  Three input windows (a row block of the left operand, the whole 64x64 right operand whose block index never
  moves, a row block of the per-row scale) and one output window (the row block of the bf16 result). At every point
  the body loads the three staged blocks whole, computes the payload k0_pay1 of them and stores it over the whole
  output staging buffer. So after the body each input buffer still holds its block and the output buffer holds the
  payload of the three blocks; the invariant between points is the scoped buffers the pipeline does not stage.
-/
import proofs.«415797_j26783416058161_2_alg».proof.Proof.Gen.Kernel.Launch
import proofs.«415797_j26783416058161_2_alg».proof.Proof.Gen.Kernel.Skeleton
import proofs.«415797_j26783416058161_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t: the window's array at the entry contents, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its row block at every point (it is fetched at every point; the
    statement needs only that the body leaves the block in place and that the array is the entry contents). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole 64x64 array at every point: it is fetched at the first point
    only, and where it is not fetched its block index has not moved, so the block kept from the point before is
    this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The scale's staging buffer holds its row block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_a : Rect S4000x64 := Rect.unit (s := S4000x64) ![0, 0] S4000x64.size inb_S4000x64_S4000x64_0_0
abbrev r0_b : Rect S64x64 := Rect.unit (s := S64x64) ![0, 0] S64x64.size inb_S64x64_S64x64_0_0
abbrev r0_c : Rect S4000x1 := Rect.unit (s := S4000x1) ![0, 0] S4000x1.size inb_S4000x1_S4000x1_0_0

/-! ## What the body leaves in the output window's buffer -/

/-- The output staging buffer after the body, from the three input blocks: its one store, of the payload of the
    three whole loads, over the whole buffer. -/
def out0_3 (x0 : Vec F S4000x64 .f32) (x1 : Vec F S64x64 .f32) (x2 : Vec F S4000x1 .f32) : Vec F S4000x64 .bf16 :=
  View.canon [⟨r0_a, k0_pay1 (View.ld x0 r0_a) (View.ld x1 r0_b) (View.ld x2 r0_c)⟩]

/-- The one store is over the whole buffer, so it covers it. -/
theorem cover0_3 (p0 : Vec F S4000x64 .bf16) (y : S4000x64.Idx) :
    ∃ pc ∈ ([⟨r0_a, p0⟩] : List (View.Piece (Elt F) S4000x64 .bf16)), y ∈ pc.1.set :=
  View.cover_of_tiled [⟨r0_a, p0⟩] S4000x64.size (by rfl) y

/-! ## The body's triple -/

set_option maxHeartbeats 1000000 in
/-- The body on whole staging memrefs, the inputs' at contents x0 x1 x2 and the output's at anything, runs to a
    continuation that holds the inputs' as they were and the output's at out0_3 of them: three whole loads, a dead
    load of the output buffer, one whole store of the payload. -/
theorem sound_kernel0 (c : Dev nD) (E : Set ℕ) (i : grid0.Coords)
    (arg1 : Memref sig .tc .vmem S4000x64 .f32) (harg1 : arg1.IsWhole) (arg2 : Memref sig .tc .vmem S64x64 .f32) (harg2 : arg2.IsWhole)
    (arg3 : Memref sig .tc .vmem S4000x1 .f32) (harg3 : arg3.IsWhole) (arg4 : Memref sig .tc .vmem S4000x64 .bf16) (harg4 : arg4.IsWhole)
    (x0 : Vec F S4000x64 .f32) (x1 : Vec F S64x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays at the entry contents; after the body at point t each input's
    buffer at its block and the output's at out0_3 of the three blocks; the invariant the scoped buffers the pipeline
    does not stage; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.scopedRest (Ix := Unit) (Name := ℕ) (U := UR sig nD τ) (Lvl := ℕ) (Val := Elt F) spec0 c
  q _ := fullShare
  owed _ := 0

theorem A_eq0 (c : Dev nD) (w : Fin cfg0.W) : (dat0 V c).A w = V c (Pipeline.arrRef spec0 w) := by
  dsimp only [dat0]

theorem Phi0_eq (c : Dev nD) (t : Fin (cfg0.N + 1)) :
    (dat0 V c).Φ t = Pipeline.scopedRest (Ix := Unit) (Name := ℕ) (U := UR sig nD τ) (Lvl := ℕ) (Val := Elt F) spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging memrefs hold their blocks, so the body's triple applies; the
    invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.R1.lean ====
/-
  REGION 1 of @main (custom_call 1, the kernel function `cc1__fused_conv_kernel`, pipeline 1), the half that
  does not depend on the float model: at any `F`, and at a PARAMETER `V` — the TensorCore's buffer contents when
  the region is entered.

  The region is a grid of 25 points over five windows: a [4000,64] f32 block, a [4000,1] f32 column block, a
  [1,64] f32 row and a [64,64] f32 matrix (the last two with a block index that never moves, hence fetched at the
  first point only) as inputs, and a [4000,64] bf16 block as the output, written back at every point. At a point
  the body reads the four inputs whole (the column twice), and stores one payload over the whole output buffer.

  Here: each window's block at a point read off `V` (`iblk1`); every input buffer holds its block whenever the
  body runs, fetched there or not (`before1_W_of`); what the body leaves in the output buffer as a function of
  the input blocks (`out1_4`, the canonical contents of its single covering store); the body's triple
  (`sound_kernel1`); the pipeline's proof data (`dat1`) with the scoped rest as the invariant; and the body
  obligation at every point (`body_obligation1`).
-/
import proofs.«415797_j26783416058161_2_alg».proof.Proof.Gen.Kernel.Launch
import proofs.«415797_j26783416058161_2_alg».proof.Proof.Gen.Kernel.Skeleton
import proofs.«415797_j26783416058161_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

-- membership in a rectangle of extent 4000: the structural look recurses once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof
    data whose array is `V`'s (`hA`) and whose body leaves the block in place (`hafter`): where the window is
    not fetched its block index has not moved, so the block of the point before is this point's. The windows are
    uncut and never idle. Window 0, the [4000,64] block: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- window 1, the [4000,1] column block: -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- window 2, the [1,64] row, fetched at the first point only: -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- window 3, the [64,64] matrix, fetched at the first point only. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S4000x64 := Rect.unit (s := S4000x64) ![0, 0] S4000x64.size inb_S4000x64_S4000x64_0_0
abbrev r1_1 : Rect S4000x1 := Rect.unit (s := S4000x1) ![0, 0] S4000x1.size inb_S4000x1_S4000x1_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

/-! ## What the body leaves in the output window's buffer -/

/-- Window 4's staging buffer after the body, from the input windows' blocks: its one store, of the payload over
    the four inputs read whole (the column read twice), as the canonical contents of that piece. -/
def out1_4 (xa : Vec F S4000x64 .f32) (xb : Vec F S4000x1 .f32) (xc : Vec F S1x64 .f32) (xd : Vec F S64x64 .f32) : Vec F S4000x64 .bf16 :=
  View.canon [⟨r1_0, k1_pay1 (View.ld xa r1_0) (View.ld xb r1_1) (View.ld xc r1_2) (View.ld xd r1_3) (View.ld xb r1_1)⟩]

/-- The store's rectangle is the whole buffer (checked by evaluation), so it covers it. -/
theorem cover1_4 (pa : Vec F S4000x64 .bf16) (y : S4000x64.Idx) :
    ∃ pc ∈ ([⟨r1_0, pa⟩] : List (View.Piece (Elt F) S4000x64 .bf16)), y ∈ pc.1.set :=
  View.cover_of_tiled [⟨r1_0, pa⟩] S4000x64.size (by rfl) y

/-! ## The body's triple -/

set_option maxHeartbeats 1000000 in
/-- The kernel body on whole staging memrefs, the inputs' at read contents and the output's at anything, runs to
    the continuation holding the inputs' as they were and the output's at `out1_4` of the inputs': the printed
    function is its skeleton, whose five loads read the inputs through their whole rectangles and whose store
    overwrites the output whole. -/
theorem sound_kernel1 (c : Dev nD) (E : Set ℕ) (i : grid1.Coords)
    (arga : Memref sig .tc .vmem S4000x64 .f32) (harga : arga.IsWhole) (argb : Memref sig .tc .vmem S4000x1 .f32) (hargb : argb.IsWhole)
    (argc : Memref sig .tc .vmem S1x64 .f32) (hargc : argc.IsWhole) (argd : Memref sig .tc .vmem S64x64 .f32) (hargd : argd.IsWhole)
    (arge : Memref sig .tc .vmem S4000x64 .bf16) (harge : arge.IsWhole)
    (xa : Vec F S4000x64 .f32) (xb : Vec F S4000x1 .f32) (xc : Vec F S1x64 .f32) (xd : Vec F S64x64 .f32) (K : PUnit → sProp 𝕄) :
    iprop(owns (c : Thread nD τ) arga fullShare xa ∗ owns (c : Thread nD τ) argb fullShare xb
        ∗ owns (c : Thread nD τ) argc fullShare xc ∗ owns (c : Thread nD τ) argd fullShare xd
        ∗ (∃ d, owns (c : Thread nD τ) arge fullShare d)
        ∗ (iprop(owns (c : Thread nD τ) arga fullShare xa ∗ owns (c : Thread nD τ) argb fullShare xb
            ∗ owns (c : Thread nD τ) argc fullShare xc ∗ owns (c : Thread nD τ) argd fullShare xd
            ∗ owns (c : Thread nD τ) arge fullShare (out1_4 xa xb xc xd)) -∗ K ⟨⟩))
      ⊢ wp frame (wpE (defs₀ (F := F)) Variants.none c none) E
          (cc1__fused_conv_kernel i arga harga argb hargb argc hargc argd hargd arge harge) K := by
  simp only [cc1__fused_conv_kernel_eq_skeleton]; unfold cc1__fused_conv_kernel_skel
  unfold owns
  iintro ⟨⟨%fa, %hfa, Ha⟩, ⟨%fb, %hfb, Hb⟩, ⟨%fc, %hfc, Hc⟩, ⟨%fd, %hfd, Hd⟩, ⟨%de, %fe, -, He⟩, Hk⟩
  subst hfa; subst hfb; subst hfc; subst hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact He
  ipureintro
  exact View.read_writes_eq_canon _ _ _ (cover1_4 _)

/-! ## The pipeline's proof data -/

/-- The proof data of pipeline 1 on core `c`: the arrays as the region finds them (`V`); after the body at
    point `t` each input's buffer at its block and the output's at `out1_4` of the input blocks; the invariant
    the scoped buffers the pipeline does not stage, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.scopedRest (Ix := Unit) (Name := ℕ) (U := UR sig nD τ) (Lvl := ℕ) (Val := Elt F) spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant is the scoped rest at every point. -/
theorem Phi1_eq (c : Dev nD) (t : Fin (cfg1.N + 1)) :
    (dat1 V c).Φ t = Pipeline.scopedRest (Ix := Unit) (Name := ℕ) (U := UR sig nD τ) (Lvl := ℕ) (Val := Elt F) spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debts, and the five current staging
    buffers at what they then hold, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%da, Ha⟩, ⟨%db, Hb⟩, ⟨%dc, Hc⟩, ⟨%dd, Hd⟩, ⟨%de, He⟩⟩
  iapply (sound_kernel1 c Set.univ _ _ _ _ _ _ _ _ _ _ _ (iblk1 V c 0 t) (iblk1 V c 1 t) (iblk1 V c 2 t) (iblk1 V c 3 t) _)
  isplitl [Ha]; · iexact Ha
  isplitl [Hb]; · iexact Hb
  isplitl [Hc]; · iexact Hc
  isplitl [Hd]; · iexact Hd
  isplitl [He]; · iexists _; iexact He
  iintro ⟨Ha, Hb, Hc, Hd, He⟩
  isplitl [HΦ]; · iexact HΦ
  isplitl [Ho]; · iexact Ho
  isplitl [Ha]; · iexact Ha
  isplitl [Hb]; · iexact Hb
  isplitl [Hc]; · iexact Hc
  isplitl [Hd]; · iexact Hd
  iexact He

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.R2.lean ====
/-
  REGION 2 of @main (custom_call 2, the kernel function `cc2__fused_conv_kernel`, pipeline 2), the half that
  does not depend on the float model: at any `F`, and at a PARAMETER `V` — the TensorCore's buffer contents when
  the region is entered.

  The region is a grid of 25 points over five windows: a [4000,64] f32 block, a [4000,1] f32 column block, a
  [1,64] f32 row and a [64,64] f32 matrix (the last two with a block index that never moves, hence fetched at the
  first point only) as inputs, and a [4000,64] bf16 block as the output, written back at every point. At a point
  the body reads the four inputs whole (the column twice), and stores one payload over the whole output buffer.

  Here: each window's block at a point read off `V` (`iblk2`); every input buffer holds its block whenever the
  body runs, fetched there or not (`before2_W_of`); what the body leaves in the output buffer as a function of
  the input blocks (`out2_4`, the canonical contents of its single covering store); the body's triple
  (`sound_kernel2`); the pipeline's proof data (`dat2`) with the scoped rest as the invariant; and the body
  obligation at every point (`body_obligation2`).
-/
import proofs.«415797_j26783416058161_2_alg».proof.Proof.Gen.Kernel.Launch
import proofs.«415797_j26783416058161_2_alg».proof.Proof.Gen.Kernel.Skeleton
import proofs.«415797_j26783416058161_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

-- membership in a rectangle of extent 4000: the structural look recurses once per coordinate of the long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof
    data whose array is `V`'s (`hA`) and whose body leaves the block in place (`hafter`): where the window is
    not fetched its block index has not moved, so the block of the point before is this point's. The windows are
    uncut and never idle. Window 0, the [4000,64] block: -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- window 1, the [4000,1] column block: -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- window 2, the [1,64] row, fetched at the first point only: -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- window 3, the [64,64] matrix, fetched at the first point only. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S4000x64 := Rect.unit (s := S4000x64) ![0, 0] S4000x64.size inb_S4000x64_S4000x64_0_0
abbrev r2_1 : Rect S4000x1 := Rect.unit (s := S4000x1) ![0, 0] S4000x1.size inb_S4000x1_S4000x1_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in the output window's buffer -/

/-- Window 4's staging buffer after the body, from the input windows' blocks: its one store, of the payload over
    the four inputs read whole (the column read twice), as the canonical contents of that piece. -/
def out2_4 (xa : Vec F S4000x64 .f32) (xb : Vec F S4000x1 .f32) (xc : Vec F S1x64 .f32) (xd : Vec F S64x64 .f32) : Vec F S4000x64 .bf16 :=
  View.canon [⟨r2_0, k2_pay1 (View.ld xa r2_0) (View.ld xb r2_1) (View.ld xc r2_2) (View.ld xd r2_3) (View.ld xb r2_1)⟩]

/-- The store's rectangle is the whole buffer (checked by evaluation), so it covers it. -/
theorem cover2_4 (pa : Vec F S4000x64 .bf16) (y : S4000x64.Idx) :
    ∃ pc ∈ ([⟨r2_0, pa⟩] : List (View.Piece (Elt F) S4000x64 .bf16)), y ∈ pc.1.set :=
  View.cover_of_tiled [⟨r2_0, pa⟩] S4000x64.size (by rfl) y

/-! ## The body's triple -/

set_option maxHeartbeats 1000000 in
/-- The kernel body on whole staging memrefs, the inputs' at read contents and the output's at anything, runs to
    the continuation holding the inputs' as they were and the output's at `out2_4` of the inputs': the printed
    function is its skeleton, whose five loads read the inputs through their whole rectangles and whose store
    overwrites the output whole. -/
theorem sound_kernel2 (c : Dev nD) (E : Set ℕ) (i : grid2.Coords)
    (arga : Memref sig .tc .vmem S4000x64 .f32) (harga : arga.IsWhole) (argb : Memref sig .tc .vmem S4000x1 .f32) (hargb : argb.IsWhole)
    (argc : Memref sig .tc .vmem S1x64 .f32) (hargc : argc.IsWhole) (argd : Memref sig .tc .vmem S64x64 .f32) (hargd : argd.IsWhole)
    (arge : Memref sig .tc .vmem S4000x64 .bf16) (harge : arge.IsWhole)
    (xa : Vec F S4000x64 .f32) (xb : Vec F S4000x1 .f32) (xc : Vec F S1x64 .f32) (xd : Vec F S64x64 .f32) (K : PUnit → sProp 𝕄) :
    iprop(owns (c : Thread nD τ) arga fullShare xa ∗ owns (c : Thread nD τ) argb fullShare xb
        ∗ owns (c : Thread nD τ) argc fullShare xc ∗ owns (c : Thread nD τ) argd fullShare xd
        ∗ (∃ d, owns (c : Thread nD τ) arge fullShare d)
        ∗ (iprop(owns (c : Thread nD τ) arga fullShare xa ∗ owns (c : Thread nD τ) argb fullShare xb
            ∗ owns (c : Thread nD τ) argc fullShare xc ∗ owns (c : Thread nD τ) argd fullShare xd
            ∗ owns (c : Thread nD τ) arge fullShare (out2_4 xa xb xc xd)) -∗ K ⟨⟩))
      ⊢ wp frame (wpE (defs₀ (F := F)) Variants.none c none) E
          (cc2__fused_conv_kernel i arga harga argb hargb argc hargc argd hargd arge harge) K := by
  simp only [cc2__fused_conv_kernel_eq_skeleton]; unfold cc2__fused_conv_kernel_skel
  unfold owns
  iintro ⟨⟨%fa, %hfa, Ha⟩, ⟨%fb, %hfb, Hb⟩, ⟨%fc, %hfc, Hc⟩, ⟨%fd, %hfd, Hd⟩, ⟨%de, %fe, -, He⟩, Hk⟩
  subst hfa; subst hfb; subst hfc; subst hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact He
  ipureintro
  exact View.read_writes_eq_canon _ _ _ (cover2_4 _)

/-! ## The pipeline's proof data -/

/-- The proof data of pipeline 2 on core `c`: the arrays as the region finds them (`V`); after the body at
    point `t` each input's buffer at its block and the output's at `out2_4` of the input blocks; the invariant
    the scoped buffers the pipeline does not stage, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.scopedRest (Ix := Unit) (Name := ℕ) (U := UR sig nD τ) (Lvl := ℕ) (Val := Elt F) spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant is the scoped rest at every point. -/
theorem Phi2_eq (c : Dev nD) (t : Fin (cfg2.N + 1)) :
    (dat2 V c).Φ t = Pipeline.scopedRest (Ix := Unit) (Name := ℕ) (U := UR sig nD τ) (Lvl := ℕ) (Val := Elt F) spec2 c := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`: the invariant, the core's debts, and the five current staging
    buffers at what they then hold, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%da, Ha⟩, ⟨%db, Hb⟩, ⟨%dc, Hc⟩, ⟨%dd, Hd⟩, ⟨%de, He⟩⟩
  iapply (sound_kernel2 c Set.univ _ _ _ _ _ _ _ _ _ _ _ (iblk2 V c 0 t) (iblk2 V c 1 t) (iblk2 V c 2 t) (iblk2 V c 3 t) _)
  isplitl [Ha]; · iexact Ha
  isplitl [Hb]; · iexact Hb
  isplitl [Hc]; · iexact Hc
  isplitl [Hd]; · iexact Hd
  isplitl [He]; · iexists _; iexact He
  iintro ⟨Ha, Hb, Hc, Hd, He⟩
  isplitl [HΦ]; · iexact HΦ
  isplitl [Ho]; · iexact Ho
  isplitl [Ha]; · iexact Ha
  isplitl [Hb]; · iexact Hb
  isplitl [Hc]; · iexact Hc
  isplitl [Hd]; · iexact Hd
  iexact He

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.K.R3.lean ====
/-
  REGION 3 of the printed program (custom_call 3, the pooling kernel over a grid of 25 points), at a PARAMETER `V`:
  the TensorCore's buffer contents when the region is entered. The kernel keeps a running sum in a VMEM scratch:
  at the first point the scratch is reset to the zero block, at every point the point's contribution (a one-hot
  matrix of the segment ids, transposed, times the rectified rows) is added to it, and at the last point the scratch is
  copied to the output window's buffer. This module gives each window's block at a point, the scratch after each
  point (`accAt3`, by recursion on the point), the body's triple in each of the three control cases, the proof data and
  the body obligation.
-/
import proofs.«415797_j26783416058161_2_alg».proof.Proof.Gen.Kernel.Launch
import proofs.«415797_j26783416058161_2_alg».proof.Proof.Gen.Kernel.Skeleton
import proofs.«415797_j26783416058161_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's two conditions, in closed form over the grid -/

/-- The first conditional's test (is this the first point?), as the body computes it from the grid coordinate. -/
abbrev cond3_1 (i : grid3.Coords) : Prop :=
  (Scalar.cmpi .ne (Scalar.extui (Scalar.cmpi .eq (BitVec.ofNat 32 (i 0).val) 0#32)) 0#32) = 1#1

/-- It holds at point 0 only. -/
theorem cond1_iff : ∀ t : Fin cfg3.N, cond3_1 (grid3.coords t) ↔ t.val = 0 :=
  (by decide +kernel : ∀ t : Fin grid3.N, cond3_1 (grid3.coords t) ↔ t.val = 0)

/-- The second conditional's test (is this the last point?) holds at point 24 only. -/
theorem cond2_iff : ∀ t : Fin cfg3.N, k3_cond2 (grid3.coords t) = 1#1 ↔ t.val = 24 :=
  (by decide +kernel : ∀ t : Fin grid3.N, k3_cond2 (grid3.coords t) = 1#1 ↔ t.val = 24)

/-- The zero offsets of a whole-buffer access, however spelt. -/
theorem hz3 : (![0, 0] : Fin 2 → Nat) = fun _ => 0 := funext fun a => by fin_cases a <;> rfl

/-! ## The body's triple, case by case

The body on whole memrefs: the four inputs' at read contents `x0 … x3`, the scratch's and the output's as the case
needs them. Every access is of a whole buffer (the unit rectangle at zero offsets), so a load reads the contents
and a store leaves its payload; the scratch read back after a store of the same run reads that store's payload. -/

/-- One store through the whole-buffer rectangle covers the buffer. -/
theorem cover3_one (w : Vec F S128x64 .f32) (L : List (View.Piece (Elt F) S128x64 .f32)) (y : S128x64.Idx) :
    ∃ pc ∈ ((⟨Rect.unit ![0, 0] S128x64.size inb_S128x64_S128x64_0_0, w⟩ : View.Piece (Elt F) S128x64 .f32) :: L), y ∈ pc.1.set :=
  ⟨_, List.mem_cons.mpr (Or.inl rfl), View.mem_set_unit_zero hz3 inb_S128x64_S128x64_0_0 y⟩

set_option maxHeartbeats 1000000 in
/-- THE FIRST POINT: the scratch, found at anything, is reset to the zero block and left at the update of the zero
    block by the point's blocks; the output's buffer is not touched. -/
theorem sound_kernel3_first (c : Dev nD) (E : Set ℕ) (i : grid3.Coords)
    (arg1 : Memref sig .tc .vmem S4000x64 .f32) (harg1 : arg1.IsWhole) (arg2 : Memref sig .tc .vmem S4000x1 .f32) (harg2 : arg2.IsWhole)
    (arg3 : Memref sig .tc .vmem S1x64 .f32) (harg3 : arg3.IsWhole) (arg4 : Memref sig .tc .vmem S4000x1 .i32) (harg4 : arg4.IsWhole)
    (arg5 : Memref sig .tc .vmem S128x64 .f32) (harg5 : arg5.IsWhole) (arg6 : Memref sig .tc .vmem S128x64 .f32) (harg6 : arg6.IsWhole)
    (hc1 : cond3_1 i) (hc2 : ¬k3_cond2 i = 1#1)
    (x0 : Vec F S4000x64 .f32) (x1 : Vec F S4000x1 .f32) (x2 : Vec F S1x64 .f32) (x3 : Vec F S4000x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k3_pay2 x0 x1 x2 x3 (k3_pay1 (F := F)))) -∗ K ⟨⟩))
      ⊢ wp frame (wpE (defs₀ (F := F)) Variants.none c none) E (cc3__final_pool_kernel i arg1 harg1 arg2 harg2 arg3 harg3 arg4 harg4 arg5 harg5 arg6 harg6) K := by
  simp only [cc3__final_pool_kernel_eq_skeleton]; unfold cc3__final_pool_kernel_skel
  unfold owns
  iintro ⟨⟨%f1, %hf1, H1⟩, ⟨%f2, %hf2, H2⟩, ⟨%f3, %hf3, H3⟩, ⟨%f4, %hf4, H4⟩, ⟨%d6, %f6, -, H6⟩, Hk⟩
  subst hf1 hf2 hf3 hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (cover3_one _ _)]
  rw [View.canon_cons_unit_zero (S := S128x64) hz3]
  simp only [View.readAt_eq_ld, View.ld_unit_zero (S := S4000x64) hz3, View.ld_unit_zero (S := S4000x1) hz3,
    View.ld_unit_zero (S := S1x64) hz3, View.readCov_unit_zero (S := S128x64) _ hz3]

set_option maxHeartbeats 1000000 in
/-- A POINT NEITHER FIRST NOR LAST: the scratch, found at `a`, is left at the update of `a` by the point's blocks;
    the output's buffer is not touched. -/
theorem sound_kernel3_mid (c : Dev nD) (E : Set ℕ) (i : grid3.Coords)
    (arg1 : Memref sig .tc .vmem S4000x64 .f32) (harg1 : arg1.IsWhole) (arg2 : Memref sig .tc .vmem S4000x1 .f32) (harg2 : arg2.IsWhole)
    (arg3 : Memref sig .tc .vmem S1x64 .f32) (harg3 : arg3.IsWhole) (arg4 : Memref sig .tc .vmem S4000x1 .i32) (harg4 : arg4.IsWhole)
    (arg5 : Memref sig .tc .vmem S128x64 .f32) (harg5 : arg5.IsWhole) (arg6 : Memref sig .tc .vmem S128x64 .f32) (harg6 : arg6.IsWhole)
    (hc1 : ¬cond3_1 i) (hc2 : ¬k3_cond2 i = 1#1)
    (x0 : Vec F S4000x64 .f32) (x1 : Vec F S4000x1 .f32) (x2 : Vec F S1x64 .f32) (x3 : Vec F S4000x1 .i32) (a : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k3_pay2 x0 x1 x2 x3 a)) -∗ K ⟨⟩))
      ⊢ wp frame (wpE (defs₀ (F := F)) Variants.none c none) E (cc3__final_pool_kernel i arg1 harg1 arg2 harg2 arg3 harg3 arg4 harg4 arg5 harg5 arg6 harg6) K := by
  simp only [cc3__final_pool_kernel_eq_skeleton]; unfold cc3__final_pool_kernel_skel
  unfold owns
  iintro ⟨⟨%f1, %hf1, H1⟩, ⟨%f2, %hf2, H2⟩, ⟨%f3, %hf3, H3⟩, ⟨%f4, %hf4, H4⟩, ⟨%f6, %hf6, H6⟩, Hk⟩
  subst hf1 hf2 hf3 hf4 hf6
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (cover3_one _ _)]
  rw [View.canon_unit_zero (S := S128x64) hz3]
  simp only [View.readAt_eq_ld, View.ld_unit_zero (S := S4000x64) hz3, View.ld_unit_zero (S := S4000x1) hz3,
    View.ld_unit_zero (S := S1x64) hz3, View.ld_unit_zero (S := S128x64) hz3]

set_option maxHeartbeats 1000000 in
/-- THE LAST POINT: the scratch, found at `a`, is left at the update of `a` by the point's blocks, and the output's
    buffer, found at anything, at a copy of that. -/
theorem sound_kernel3_last (c : Dev nD) (E : Set ℕ) (i : grid3.Coords)
    (arg1 : Memref sig .tc .vmem S4000x64 .f32) (harg1 : arg1.IsWhole) (arg2 : Memref sig .tc .vmem S4000x1 .f32) (harg2 : arg2.IsWhole)
    (arg3 : Memref sig .tc .vmem S1x64 .f32) (harg3 : arg3.IsWhole) (arg4 : Memref sig .tc .vmem S4000x1 .i32) (harg4 : arg4.IsWhole)
    (arg5 : Memref sig .tc .vmem S128x64 .f32) (harg5 : arg5.IsWhole) (arg6 : Memref sig .tc .vmem S128x64 .f32) (harg6 : arg6.IsWhole)
    (hc1 : ¬cond3_1 i) (hc2 : k3_cond2 i = 1#1)
    (x0 : Vec F S4000x64 .f32) (x1 : Vec F S4000x1 .f32) (x2 : Vec F S1x64 .f32) (x3 : Vec F S4000x1 .i32) (a : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare a ∗ (∃ d, owns (c : Thread nD τ) arg5 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k3_pay2 x0 x1 x2 x3 a)
            ∗ owns (c : Thread nD τ) arg5 fullShare (k3_pay2 x0 x1 x2 x3 a)) -∗ K ⟨⟩))
      ⊢ wp frame (wpE (defs₀ (F := F)) Variants.none c none) E (cc3__final_pool_kernel i arg1 harg1 arg2 harg2 arg3 harg3 arg4 harg4 arg5 harg5 arg6 harg6) K := by
  simp only [cc3__final_pool_kernel_eq_skeleton]; unfold cc3__final_pool_kernel_skel
  unfold owns
  iintro ⟨⟨%f1, %hf1, H1⟩, ⟨%f2, %hf2, H2⟩, ⟨%f3, %hf3, H3⟩, ⟨%f4, %hf4, H4⟩, ⟨%f6, %hf6, H6⟩, ⟨%d5, %f5, -, H5⟩, Hk⟩
  subst hf1 hf2 hf3 hf4 hf6
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_words
    rw [View.read_writes_eq_canon _ _ _ (cover3_one _ _)]
    rw [View.canon_unit_zero (S := S128x64) hz3]
    simp only [View.readAt_eq_ld, View.ld_unit_zero (S := S4000x64) hz3, View.ld_unit_zero (S := S4000x1) hz3,
      View.ld_unit_zero (S := S1x64) hz3, View.ld_unit_zero (S := S128x64) hz3]
  iexists _; isplitr
  swap; · iexact H5
  ipureintro
  sl_unfold_words
  rw [View.read_writes_eq_canon _ _ _ (cover3_one _ _)]
  rw [View.canon_unit_zero (S := S128x64) hz3]
  simp only [View.readAt_eq_ld, View.ld_unit_zero (S := S4000x64) hz3, View.ld_unit_zero (S := S4000x1) hz3,
    View.ld_unit_zero (S := S1x64) hz3, View.ld_unit_zero (S := S128x64) hz3, View.readCov_unit_zero (S := S128x64) _ hz3]

/-! ## The inputs' buffers at every point

An input window's current buffer holds its block at every point, fetched there or not (the bias row is fetched at
the first point only: its block index never moves), for any proof data whose array is `V`'s and whose body leaves
the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The scratch after each point -/

/-- THE RUNNING SUM. The scratch after the body at point `n`: the update, by point `n`'s four input blocks, of the
    scratch after point `n - 1` — at point 0 of the zero block the body has just reset it to. -/
def accAt3 (c : Dev nD) : (n : ℕ) → n < cfg3.N → Vec F S128x64 .f32
  | 0, hn => k3_pay2 (iblk3 V c 0 ⟨0, hn⟩) (iblk3 V c 1 ⟨0, hn⟩) (iblk3 V c 2 ⟨0, hn⟩) (iblk3 V c 3 ⟨0, hn⟩) (k3_pay1 (F := F))
  | n + 1, hn => k3_pay2 (iblk3 V c 0 ⟨n + 1, hn⟩) (iblk3 V c 1 ⟨n + 1, hn⟩) (iblk3 V c 2 ⟨n + 1, hn⟩) (iblk3 V c 3 ⟨n + 1, hn⟩)
      (accAt3 c n (Nat.lt_of_succ_lt hn))

/-- At the first point: the update of the zero block. -/
theorem accAt3_first (c : Dev nD) (t : Fin cfg3.N) (h0 : t.val = 0) :
    accAt3 V c t.val t.isLt = k3_pay2 (iblk3 V c 0 t) (iblk3 V c 1 t) (iblk3 V c 2 t) (iblk3 V c 3 t) (k3_pay1 (F := F)) := by
  obtain ⟨n, hn⟩ := t
  cases n with
  | zero => rfl
  | succ n => exact absurd h0 (Nat.succ_ne_zero n)

/-- At a later point: the update of what the point before left. -/
theorem accAt3_next (c : Dev nD) (t : Fin cfg3.N) (h0 : t.val ≠ 0) :
    accAt3 V c t.val t.isLt = k3_pay2 (iblk3 V c 0 t) (iblk3 V c 1 t) (iblk3 V c 2 t) (iblk3 V c 3 t)
      (accAt3 V c (t.val - 1) (Nat.lt_of_le_of_lt (Nat.sub_le _ _) t.isLt)) := by
  obtain ⟨n, hn⟩ := t
  cases n with
  | zero => exact absurd rfl h0
  | succ n => rfl

/-! ## The invariant: the scratch between points -/

/-- The scratch's buffer before point `t` (after point `t - 1`): held whole at the running sum of the point before;
    before the first point, at anything. -/
def scr3 (c : Dev nD) (t : Fin (cfg3.N + 1)) : sProp 𝕄 :=
  match t with
  | ⟨0, _⟩ => iprop(∃ X, owns (c : Thread nD τ) (Memref.whole cc3_scratch0 : Memref sig .tc .vmem S128x64 .f32) fullShare X)
  | ⟨n + 1, h⟩ => owns (c : Thread nD τ) (Memref.whole cc3_scratch0 : Memref sig .tc .vmem S128x64 .f32) fullShare (accAt3 V c n (Nat.lt_of_succ_lt_succ h))

theorem scr3_zero (c : Dev nD) (t : Fin (cfg3.N + 1)) (h : t.val = 0) :
    scr3 V c t = iprop(∃ X, owns (c : Thread nD τ) (Memref.whole cc3_scratch0 : Memref sig .tc .vmem S128x64 .f32) fullShare X) := by
  obtain ⟨n, hn⟩ := t
  cases n with
  | zero => rfl
  | succ n => exact absurd h (Nat.succ_ne_zero n)

theorem scr3_pos (c : Dev nD) (t : Fin (cfg3.N + 1)) (h : t.val ≠ 0) :
    scr3 V c t = owns (c : Thread nD τ) (Memref.whole cc3_scratch0 : Memref sig .tc .vmem S128x64 .f32) fullShare
      (accAt3 V c (t.val - 1) (by have := t.isLt; omega)) := by
  obtain ⟨n, hn⟩ := t
  cases n with
  | zero => exact absurd rfl h
  | succ n => rfl

theorem scr3_succ (c : Dev nD) (t : Fin cfg3.N) :
    scr3 V c t.succ = owns (c : Thread nD τ) (Memref.whole cc3_scratch0 : Memref sig .tc .vmem S128x64 .f32) fullShare (accAt3 V c t.val t.isLt) := by
  obtain ⟨n, hn⟩ := t
  rfl

/-! ## The pipeline's proof data -/

/-- The proof data of pipeline 3 on core `c`: the arrays as the region finds them; after the body at point `t` each
    input's buffer at its block and the output's at the running sum after `t` (read only at the last point, the one
    point that is live for the output window and writes it back); the invariant the scratch between points beside
    the scoped buffers the region does not touch; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => accAt3 V c t.val t.isLt
  Φ t := iprop(scr3 V c t ∗ Pipeline.scopedRestBut (Ix := Unit) (Name := ℕ) (U := UR sig nD τ) (Lvl := ℕ) (Val := Elt F) spec3 c [cc3_scratch0])
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = accAt3 V c t.val t.isLt := by dsimp only [dat3]

theorem Phi3_eq (c : Dev nD) (t : Fin (cfg3.N + 1)) :
    (dat3 V c).Φ t = iprop(scr3 V c t ∗ Pipeline.scopedRestBut (Ix := Unit) (Name := ℕ) (U := UR sig nD τ) (Lvl := ℕ) (Val := Elt F) spec3 c [cc3_scratch0]) := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The invariant at the region's two ends -/

/-- Entering: the scoped rest split at the scratch, which is held at something. -/
theorem Phi3_in (c : Dev nD) : (Pipeline.scopedRest (Ix := Unit) (Name := ℕ) (U := UR sig nD τ) (Lvl := ℕ) (Val := Elt F) spec3 c : sProp 𝕄) ⊢ (dat3 V c).Φ 0 := by
  rw [Phi3_eq, scr3_zero V c 0 rfl, scopedRest3_split c]
  simp only [owns_whole]
  iintro H; iexact H

/-- Leaving: the scratch, held at the last running sum, is held at something; the scoped rest is whole again. -/
theorem Phi3_out (c : Dev nD) : (dat3 V c).Φ (Fin.last cfg3.N) ⊢ (Pipeline.scopedRest (Ix := Unit) (Name := ℕ) (U := UR sig nD τ) (Lvl := ℕ) (Val := Elt F) spec3 c : sProp 𝕄) := by
  have hN : (Fin.last cfg3.N).val ≠ 0 := by rw [Fin.val_last]; show grid3.N ≠ 0; rw [N_3]; decide
  rw [Phi3_eq, scr3_pos V c _ hN, scopedRest3_split c, owns_whole]
  iintro ⟨Hs, Hr⟩
  isplitl [Hs]
  · iexists _; iexact Hs
  iexact Hr

/-! ## The body obligation, case by case -/

/-- What the body is called with at point `t`: the invariant, what the core owes, the five windows' current buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it returns at a point idle for the output window that does not write it back: that buffer as found. -/
def bodyPostIdle3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ (∃ d, owns (c : Thread nD τ) (st3_4 t) fullShare ((dat3 V c).before 4 t d)))

/-- What it returns at the last point: the output's buffer at the last running sum. -/
def bodyPostLast3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 1000000 in
/-- The first point: the scratch is held at anything; the body resets and updates it. -/
theorem sound_body3_first (c : Dev nD) (t : Fin cfg3.N) (h0 : t.val = 0) :
    bodyPre3 V c t ⊢ wp frame (wpE (defs₀ (F := F)) Variants.none c none) Set.univ (bodyAt3 t) (fun _ => bodyPostIdle3 V c t) := by
  unfold bodyPre3 bodyPostIdle3 bodyAt3
  simp only [before3_0, before3_1, before3_2, before3_3]
  rw [show (dat3 V c).owesAt () t.succ = (dat3 V c).owesAt () t.castSucc from rfl,
    after3_0, after3_1, after3_2, after3_3, Phi3_eq, Phi3_eq, scr3_zero V c t.castSucc h0, scr3_succ, accAt3_first V c t h0]
  iintro ⟨⟨Hs, Hr⟩, Ho, ⟨%d0, H0⟩, ⟨%d1, H1⟩, ⟨%d2, H2⟩, ⟨%d3, H3⟩, H4⟩
  iapply (sound_kernel3_first c Set.univ (grid3.coords t) _ _ _ _ _ _ _ _ _ _ _ _ ((cond1_iff t).mpr h0) (fun h => by have := (cond2_iff t).mp h; omega)
      (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  iexact H4

set_option maxHeartbeats 1000000 in
/-- A point neither first nor last: the scratch is held at the running sum of the point before; the body updates it. -/
theorem sound_body3_mid (c : Dev nD) (t : Fin cfg3.N) (h0 : t.val ≠ 0) (h24 : t.val ≠ 24) :
    bodyPre3 V c t ⊢ wp frame (wpE (defs₀ (F := F)) Variants.none c none) Set.univ (bodyAt3 t) (fun _ => bodyPostIdle3 V c t) := by
  unfold bodyPre3 bodyPostIdle3 bodyAt3
  simp only [before3_0, before3_1, before3_2, before3_3]
  rw [show (dat3 V c).owesAt () t.succ = (dat3 V c).owesAt () t.castSucc from rfl,
    after3_0, after3_1, after3_2, after3_3, Phi3_eq, Phi3_eq, scr3_pos V c t.castSucc h0, scr3_succ, accAt3_next V c t h0]
  iintro ⟨⟨Hs, Hr⟩, Ho, ⟨%d0, H0⟩, ⟨%d1, H1⟩, ⟨%d2, H2⟩, ⟨%d3, H3⟩, H4⟩
  iapply (sound_kernel3_mid c Set.univ (grid3.coords t) _ _ _ _ _ _ _ _ _ _ _ _ (fun h => h0 ((cond1_iff t).mp h)) (fun h => h24 ((cond2_iff t).mp h))
      (iblk3 V c 0 t) (iblk3 V c 1 t) (iblk3 V c 2 t) (iblk3 V c 3 t) (accAt3 V c (t.val - 1) (Nat.lt_of_le_of_lt (Nat.sub_le _ _) t.isLt)) _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  iexact H4

set_option maxHeartbeats 1000000 in
/-- The last point: the body updates the scratch and copies it to the output's buffer. -/
theorem sound_body3_last (c : Dev nD) (t : Fin cfg3.N) (h24 : t.val = 24) :
    bodyPre3 V c t ⊢ wp frame (wpE (defs₀ (F := F)) Variants.none c none) Set.univ (bodyAt3 t) (fun _ => bodyPostLast3 V c t) := by
  have h0 : t.val ≠ 0 := by omega
  unfold bodyPre3 bodyPostLast3 bodyAt3
  simp only [before3_0, before3_1, before3_2, before3_3]
  rw [show (dat3 V c).owesAt () t.succ = (dat3 V c).owesAt () t.castSucc from rfl,
    after3_0, after3_1, after3_2, after3_3, after3_4, Phi3_eq, Phi3_eq, scr3_pos V c t.castSucc h0, scr3_succ, accAt3_next V c t h0]
  iintro ⟨⟨Hs, Hr⟩, Ho, ⟨%d0, H0⟩, ⟨%d1, H1⟩, ⟨%d2, H2⟩, ⟨%d3, H3⟩, ⟨%d4, H4⟩⟩
  iapply (sound_kernel3_last c Set.univ (grid3.coords t) _ _ _ _ _ _ _ _ _ _ _ _ (fun h => h0 ((cond1_iff t).mp h)) ((cond2_iff t).mpr h24)
      (iblk3 V c 0 t) (iblk3 V c 1 t) (iblk3 V c 2 t) (iblk3 V c 3 t) (accAt3 V c (t.val - 1) (Nat.lt_of_le_of_lt (Nat.sub_le _ _) t.isLt)) _)
  isplitl [H0]; · iexact H0
  isplitl [H1]; · iexact H1
  isplitl [H2]; · iexact H2
  isplitl [H3]; · iexact H3
  isplitl [Hs]; · iexact Hs
  isplitl [H4]; · iexists _; iexact H4
  iintro ⟨H0, H1, H2, H3, Hs, H4⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  iexact H4

set_option maxHeartbeats 1000000 in
/-- The library's body obligation, at every point: the output window is idle and not written back before the last
    point, live and written back at it. -/
theorem body_obligation3 (c : Dev nD) : BodyObligation (dat3 (F := F) V c) (defs₀ (F := F)) Variants.none () Set.univ := fun t => by
  have hN : t.val < 25 := lt_of_lt_of_eq t.isLt (show cfg3.N = 25 from N_3)
  rw [bigSep_W3, bigSep_W3]
  by_cases h24 : t.val = 24
  · have hi : cfg3.idle (4 : Fin 5) (cfg3.grid.coords t) = false := by
      show (!(k3_cond2 (grid3.coords t) == 1#1)) = false
      rw [(cond2_iff t).mpr h24]; rfl
    rw [hi]
    exact sound_body3_last V c t h24
  · have hi : cfg3.idle (4 : Fin 5) (cfg3.grid.coords t) = true := by
      show (!(k3_cond2 (grid3.coords t) == 1#1)) = true
      rw [Bool.not_eq_true', beq_eq_false_iff_ne]
      exact fun h => h24 ((cond2_iff t).mp h)
    have hf : (cfg3.win (4 : Fin 5)).flush t = false := by
      rw [Bool.eq_false_iff]; intro h
      have := (flush3_4 t).mp h
      omega
    rw [hi, hf]
    by_cases h0 : t.val = 0
    · exact sound_body3_first V c t h0
    · exact sound_body3_mid V c t h0 h24

end Cert.Kernel.Gen

end
-- ==== Proof.K.R4.lean ====
/-
  REGION 4 of @main (custom_call 4, `cc4__matmul_bias_kernel`, pipeline 4), class-A half, generic in the float
  model, at a PARAMETER `V`: the TensorCore's buffer contents when the region is entered.

  The grid has one point. Three input windows (a [128,64] matrix, a [64,32] matrix, a [1,32] row), each one whole
  block fetched at the point, and one output window ([128,32]) written back at the point. The body loads the three
  inputs, forms the payload `k4_pay1` (the product of the two matrices rounded to bf16, accumulated in f32, plus the
  row broadcast down the rows), and stores it over the whole output block.
-/
import proofs.«415797_j26783416058161_2_alg».proof.Proof.Gen.Kernel.Launch
import proofs.«415797_j26783416058161_2_alg».proof.Proof.Gen.Kernel.Skeleton
import proofs.«415797_j26783416058161_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data whose array is
    the entry contents and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole [128,64] block: the first input's load. -/
abbrev r4_0 : Rect S128x64 := Rect.unit (s := S128x64) ![0, 0] S128x64.size inb_S128x64_S128x64_0_0
/-- The whole [64,32] block: the second input's load. -/
abbrev r4_1 : Rect S64x32 := Rect.unit (s := S64x32) ![0, 0] S64x32.size inb_S64x32_S64x32_0_0
/-- The whole [1,32] block: the third input's load. -/
abbrev r4_2 : Rect S1x32 := Rect.unit (s := S1x32) ![0, 0] S1x32.size inb_S1x32_S1x32_0_0
/-- The whole [128,32] block: the output's store. -/
abbrev r4_3 : Rect S128x32 := Rect.unit (s := S128x32) ![0, 0] S128x32.size inb_S128x32_S128x32_0_0

/-! ## What the body leaves in the output window's buffer -/

/-- The output's staging buffer after the body, from the input windows' blocks: its one store as a piece over the
    payload at the three loaded blocks. -/
def out4_3 (x0 : Vec F S128x64 .f32) (x1 : Vec F S64x32 .f32) (x2 : Vec F S1x32 .f32) : Vec F S128x32 .f32 :=
  View.canon [⟨r4_3, k4_pay1 (View.ld x0 r4_0) (View.ld x1 r4_1) (View.ld x2 r4_2)⟩]

/-- The store tiles the buffer, so it covers it. -/
theorem cover4_3 (p0 : Vec F S128x32 .f32) (y : S128x32.Idx) :
    ∃ pc ∈ ([⟨r4_3, p0⟩] : List (View.Piece (Elt F) S128x32 .f32)), y ∈ pc.1.set :=
  View.cover_of_tiled [⟨r4_3, p0⟩] S128x32.size (by rfl) y

/-! ## The body's triple -/

set_option maxHeartbeats 1000000 in
/-- The kernel body on whole staging memrefs, the inputs' at read contents and the output's at anything, runs to the
    continuation holding the inputs' as they were and the output's at `out4_3` of the inputs'. -/
theorem sound_kernel4 (c : Dev nD) (E : Set ℕ) (i : grid4.Coords)
    (arg0 : Memref sig .tc .vmem S128x64 .f32) (harg0 : arg0.IsWhole) (arg1 : Memref sig .tc .vmem S64x32 .f32) (harg1 : arg1.IsWhole)
    (arg2 : Memref sig .tc .vmem S1x32 .f32) (harg2 : arg2.IsWhole) (arg3 : Memref sig .tc .vmem S128x32 .f32) (harg3 : arg3.IsWhole)
    (x0 : Vec F S128x64 .f32) (x1 : Vec F S64x32 .f32) (x2 : Vec F S1x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1 x2)) -∗ K ⟨⟩))
      ⊢ wp frame (wpE (defs₀ (F := F)) Variants.none c none) E (cc4__matmul_bias_kernel i arg0 harg0 arg1 harg1 arg2 harg2 arg3 harg3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body each input's
    buffer at its block and the output's at `out4_3` of the input blocks; the invariant the scoped buffers the
    pipeline does not stage, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.scopedRest (Ix := Unit) (Name := ℕ) (U := UR sig nD τ) (Lvl := ℕ) (Val := Elt F) spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant is the scoped rest at every point. -/
theorem Phi4_eq (c : Dev nD) (t : Fin (cfg4.N + 1)) :
    (dat4 V c).Φ t = Pipeline.scopedRest (Ix := Unit) (Name := ℕ) (U := UR sig nD τ) (Lvl := ℕ) (Val := Elt F) spec4 c := rfl

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.K.Fold.lean ====
/-
  The contents of the TensorCore's unscoped buffers at every boundary between two items of the program's entry
  function, as a fold from the launch memory: a host stretch applies its operations; a kernel region replaces the one
  array it writes by what its pipeline's write-backs leave (the proof data's array after the last grid point).
  From the fold: the contents each region leaves, indexed the way the conditional frame reads them, and every
  pipeline's proof data at its region's entry contents.
-/
import proofs.«415797_j26783416058161_2_alg».proof.Proof.Gen.Kernel.Regions
import proofs.«415797_j26783416058161_2_alg».proof.Proof.K.R0
import proofs.«415797_j26783416058161_2_alg».proof.Proof.K.R1
import proofs.«415797_j26783416058161_2_alg».proof.Proof.K.R2
import proofs.«415797_j26783416058161_2_alg».proof.Proof.K.R3
import proofs.«415797_j26783416058161_2_alg».proof.Proof.K.R4

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Before region 0: the launch memory after the three leading host stretches. -/
abbrev W3 (c : Dev nD) : Valuation τ sig (Elt F) := V3 m c
/-- The same read at the TensorCore's references (what a region's proof data take). -/
abbrev U3 : (c : Dev nD) → (b : Ref sig .tc) → Buf (Elt F) ((c : Thread nD τ).loc b) := fun c b => W3 m c b

/-- What region 0 leaves in its output array: the write-backs of its output window folded over the grid. -/
def o4 (c : Dev nD) : Buf (Elt F) ((c : Thread nD τ).loc main_v17) := (dat0 (U3 m) c).arrAt 3 cfg0.N
/-- After region 0: its output array replaced, every other buffer as entered. -/
def W4 (c : Dev nD) : Valuation τ sig (Elt F) := Function.update (W3 m c) main_v17 (o4 m c)
abbrev U4 : (c : Dev nD) → (b : Ref sig .tc) → Buf (Elt F) ((c : Thread nD τ).loc b) := fun c b => W4 m c b
theorem W4_out (c : Dev nD) : W4 m c main_v17 = o4 m c := by unfold W4; exact Function.update_self _ _ _
theorem W4_ne (c : Dev nD) (b : Ref sig .tc) (h : b ≠ main_v17) : W4 m c b = W3 m c b := by
  unfold W4; exact Function.update_of_ne (StableHlo.devRef_ne_of_ne h) _ _
/-- Before region 1: the host stretch `hostOps1` applied. -/
def W5 (c : Dev nD) : Valuation τ sig (Elt F) := StableHlo.after hostOps1 (W4 m c)
abbrev U5 : (c : Dev nD) → (b : Ref sig .tc) → Buf (Elt F) ((c : Thread nD τ).loc b) := fun c b => W5 m c b

/-- What region 1 leaves in its output array: the write-backs of its output window folded over the grid. -/
def o6 (c : Dev nD) : Buf (Elt F) ((c : Thread nD τ).loc main_v30) := (dat1 (U5 m) c).arrAt 4 cfg1.N
/-- After region 1: its output array replaced, every other buffer as entered. -/
def W6 (c : Dev nD) : Valuation τ sig (Elt F) := Function.update (W5 m c) main_v30 (o6 m c)
abbrev U6 : (c : Dev nD) → (b : Ref sig .tc) → Buf (Elt F) ((c : Thread nD τ).loc b) := fun c b => W6 m c b
theorem W6_out (c : Dev nD) : W6 m c main_v30 = o6 m c := by unfold W6; exact Function.update_self _ _ _
theorem W6_ne (c : Dev nD) (b : Ref sig .tc) (h : b ≠ main_v30) : W6 m c b = W5 m c b := by
  unfold W6; exact Function.update_of_ne (StableHlo.devRef_ne_of_ne h) _ _
/-- Before region 2: the host stretch `hostOps2` applied. -/
def W7 (c : Dev nD) : Valuation τ sig (Elt F) := StableHlo.after hostOps2 (W6 m c)
abbrev U7 : (c : Dev nD) → (b : Ref sig .tc) → Buf (Elt F) ((c : Thread nD τ).loc b) := fun c b => W7 m c b

/-- What region 2 leaves in its output array: the write-backs of its output window folded over the grid. -/
def o8 (c : Dev nD) : Buf (Elt F) ((c : Thread nD τ).loc main_v43) := (dat2 (U7 m) c).arrAt 4 cfg2.N
/-- After region 2: its output array replaced, every other buffer as entered. -/
def W8 (c : Dev nD) : Valuation τ sig (Elt F) := Function.update (W7 m c) main_v43 (o8 m c)
abbrev U8 : (c : Dev nD) → (b : Ref sig .tc) → Buf (Elt F) ((c : Thread nD τ).loc b) := fun c b => W8 m c b
theorem W8_out (c : Dev nD) : W8 m c main_v43 = o8 m c := by unfold W8; exact Function.update_self _ _ _
theorem W8_ne (c : Dev nD) (b : Ref sig .tc) (h : b ≠ main_v43) : W8 m c b = W7 m c b := by
  unfold W8; exact Function.update_of_ne (StableHlo.devRef_ne_of_ne h) _ _
/-- Before region 3: the host stretch `hostOps3` applied. -/
def W9 (c : Dev nD) : Valuation τ sig (Elt F) := StableHlo.after hostOps3 (W8 m c)
abbrev U9 : (c : Dev nD) → (b : Ref sig .tc) → Buf (Elt F) ((c : Thread nD τ).loc b) := fun c b => W9 m c b

/-- What region 3 leaves in its output array: the write-backs of its output window folded over the grid. -/
def o10 (c : Dev nD) : Buf (Elt F) ((c : Thread nD τ).loc main_v56) := (dat3 (U9 m) c).arrAt 4 cfg3.N
/-- After region 3: its output array replaced, every other buffer as entered. -/
def W10 (c : Dev nD) : Valuation τ sig (Elt F) := Function.update (W9 m c) main_v56 (o10 m c)
abbrev U10 : (c : Dev nD) → (b : Ref sig .tc) → Buf (Elt F) ((c : Thread nD τ).loc b) := fun c b => W10 m c b
theorem W10_out (c : Dev nD) : W10 m c main_v56 = o10 m c := by unfold W10; exact Function.update_self _ _ _
theorem W10_ne (c : Dev nD) (b : Ref sig .tc) (h : b ≠ main_v56) : W10 m c b = W9 m c b := by
  unfold W10; exact Function.update_of_ne (StableHlo.devRef_ne_of_ne h) _ _
/-- Before region 4: the host stretch `hostOps4` applied. -/
def W11 (c : Dev nD) : Valuation τ sig (Elt F) := StableHlo.after hostOps4 (W10 m c)
abbrev U11 : (c : Dev nD) → (b : Ref sig .tc) → Buf (Elt F) ((c : Thread nD τ).loc b) := fun c b => W11 m c b

/-- What region 4 leaves in its output array: the write-backs of its output window folded over the grid. -/
def o12 (c : Dev nD) : Buf (Elt F) ((c : Thread nD τ).loc main_v67) := (dat4 (U11 m) c).arrAt 3 cfg4.N
/-- After region 4: its output array replaced, every other buffer as entered. -/
def W12 (c : Dev nD) : Valuation τ sig (Elt F) := Function.update (W11 m c) main_v67 (o12 m c)
abbrev U12 : (c : Dev nD) → (b : Ref sig .tc) → Buf (Elt F) ((c : Thread nD τ).loc b) := fun c b => W12 m c b
theorem W12_out (c : Dev nD) : W12 m c main_v67 = o12 m c := by unfold W12; exact Function.update_self _ _ _
theorem W12_ne (c : Dev nD) (b : Ref sig .tc) (h : b ≠ main_v67) : W12 m c b = W11 m c b := by
  unfold W12; exact Function.update_of_ne (StableHlo.devRef_ne_of_ne h) _ _

/-- The contents the regions leave, as the conditional frame indexes them: item `J`'s contents are the fold's. -/
def outs : Outs (F := F) := fun J r c =>
  match J with
  | 4 => W4 m c r
  | 6 => W6 m c r
  | 8 => W8 m c r
  | 10 => W10 m c r
  | 12 => W12 m c r
  | _ => m ((c : Thread nD τ).loc r)

/-! The conditional frame's valuations, at these contents, are the fold. -/
theorem V4_eq (c : Dev nD) : V4 m (outs m) c = W4 m c := by
  show Function.update (V3 m c) main_v17 (W4 m c main_v17) = W4 m c
  rw [W4_out]; rfl
theorem V5_eq (c : Dev nD) : V5 m (outs m) c = W5 m c := by
  show StableHlo.after hostOps1 (V4 m (outs m) c) = W5 m c
  rw [V4_eq]; rfl
theorem V6_eq (c : Dev nD) : V6 m (outs m) c = W6 m c := by
  show Function.update (V5 m (outs m) c) main_v30 (W6 m c main_v30) = W6 m c
  rw [W6_out, V5_eq]; rfl
theorem V7_eq (c : Dev nD) : V7 m (outs m) c = W7 m c := by
  show StableHlo.after hostOps2 (V6 m (outs m) c) = W7 m c
  rw [V6_eq]; rfl
theorem V8_eq (c : Dev nD) : V8 m (outs m) c = W8 m c := by
  show Function.update (V7 m (outs m) c) main_v43 (W8 m c main_v43) = W8 m c
  rw [W8_out, V7_eq]; rfl
theorem V9_eq (c : Dev nD) : V9 m (outs m) c = W9 m c := by
  show StableHlo.after hostOps3 (V8 m (outs m) c) = W9 m c
  rw [V8_eq]; rfl
theorem V10_eq (c : Dev nD) : V10 m (outs m) c = W10 m c := by
  show Function.update (V9 m (outs m) c) main_v56 (W10 m c main_v56) = W10 m c
  rw [W10_out, V9_eq]; rfl
theorem V11_eq (c : Dev nD) : V11 m (outs m) c = W11 m c := by
  show StableHlo.after hostOps4 (V10 m (outs m) c) = W11 m c
  rw [V10_eq]; rfl
theorem V12_eq (c : Dev nD) : V12 m (outs m) c = W12 m c := by
  show Function.update (V11 m (outs m) c) main_v67 (W12 m c main_v67) = W12 m c
  rw [W12_out, V11_eq]; rfl

/-- Every pipeline's proof data, each at its region's entry contents: a literal match on the pipeline's number. -/
def pdats : (p : Fin 5) → (c : Dev nD) → Dat τ (Elt F) Unit ℕ (UR sig nD τ) ℕ (cfgs p) c
  | ⟨0, _⟩ => fun c => dat0 (U3 m) c
  | ⟨1, _⟩ => fun c => dat1 (U5 m) c
  | ⟨2, _⟩ => fun c => dat2 (U7 m) c
  | ⟨3, _⟩ => fun c => dat3 (U9 m) c
  | ⟨4, _⟩ => fun c => dat4 (U11 m) c
  | ⟨_ + 5, h⟩ => absurd h (Nat.not_lt.2 (Nat.le_add_left _ _))

end Cert.Kernel.Gen

end
-- ==== Proof.K.Regs.lean ====
/-
  Every kernel region of the program as a segment of its entry function: entered from the thread state "every unscoped
  buffer at the fold's contents before the region, the generator register at some state, nothing owed", left at the
  same with the fold's contents after it. A region's arrays are split out of the unscoped buffers on entry and put back
  on exit, its output array at what the pipeline's write-backs leave and every other buffer as entered; the scoped
  buffers the pipeline does not stage make the pipeline's invariant (for the pooling region with its accumulator held at
  the running partial sum); no kernel has a semaphore of its own and no core owes another anything.
-/
import proofs.«415797_j26783416058161_2_alg».proof.Proof.K.Fold
import Idealize.ShloMosaic.Lib.Pipeline.RegionsLoop

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its debts, none. -/
abbrev R (c : Dev nD) : sProp 𝕄 := iprop((∃ r, prngReg c r) ∗ ∃ W, owes (c : Thread nD τ) (0 : CellTallies nD τ sig Unit) W)

set_option maxHeartbeats 4000000 in
set_option backward.isDefEq.respectTransparency.types false in
/-- Region 0: entered from the fold's contents before it, left at the contents after it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X _ := BI.emp
  Y _ := BI.emp
  Z c := iprop(Pipeline.unscopedRest (Ix := Unit) (Name := ℕ) (U := UR sig nD τ) (Lvl := ℕ) spec0 c (U3 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N)
      (fun w => by
        fin_cases w
        · exact ((pdats m 0 c).arrAt_in 0 rfl _).trans (W4_ne m c main_arg0 (by decide)).symm
        · exact ((pdats m 0 c).arrAt_in 1 rfl _).trans (W4_ne m c main_arg3 (by decide)).symm
        · exact ((pdats m 0 c).arrAt_in 2 rfl _).trans (W4_ne m c main_v15 (by decide)).symm
        · exact (W4_out m c).symm)
      (fun b hb => W4_ne m c b fun h => hb (h ▸ Finset.mem_image.mpr ⟨3, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option maxHeartbeats 4000000 in
set_option backward.isDefEq.respectTransparency.types false in
/-- Region 1: entered from the fold's contents before it, left at the contents after it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X _ := BI.emp
  Y _ := BI.emp
  Z c := iprop(Pipeline.unscopedRest (Ix := Unit) (Name := ℕ) (U := UR sig nD τ) (Lvl := ℕ) spec1 c (U5 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N)
      (fun w => by
        fin_cases w
        · exact ((pdats m 1 c).arrAt_in 0 rfl _).trans (W6_ne m c main_v28 (by decide)).symm
        · exact ((pdats m 1 c).arrAt_in 1 rfl _).trans (W6_ne m c main_v15 (by decide)).symm
        · exact ((pdats m 1 c).arrAt_in 2 rfl _).trans (W6_ne m c main_v29 (by decide)).symm
        · exact ((pdats m 1 c).arrAt_in 3 rfl _).trans (W6_ne m c main_arg5 (by decide)).symm
        · exact (W6_out m c).symm)
      (fun b hb => W6_ne m c b fun h => hb (h ▸ Finset.mem_image.mpr ⟨4, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option maxHeartbeats 4000000 in
set_option backward.isDefEq.respectTransparency.types false in
/-- Region 2: entered from the fold's contents before it, left at the contents after it. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X _ := BI.emp
  Y _ := BI.emp
  Z c := iprop(Pipeline.unscopedRest (Ix := Unit) (Name := ℕ) (U := UR sig nD τ) (Lvl := ℕ) spec2 c (U7 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 2 c).Φ 0 = Pipeline.scopedRest (Ix := Unit) (Name := ℕ) (U := UR sig nD τ) (Lvl := ℕ) (Val := Elt F) spec2 c from rfl]
    iintro ⟨-, -, Hr⟩; iexact Hr
  hout c := by
    rw [Pipeline.ownSems0_none, show (pdats m 2 c).Φ (Fin.last _) = Pipeline.scopedRest (Ix := Unit) (Name := ℕ) (U := UR sig nD τ) (Lvl := ℕ) (Val := Elt F) spec2 c from rfl]
    iintro Hr
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U7 m c) (U8 m c) ((pdats m 2 c).arrAt · cfg2.N)
      (fun w => by
        fin_cases w
        · exact ((pdats m 2 c).arrAt_in 0 rfl _).trans (W8_ne m c main_v41 (by decide)).symm
        · exact ((pdats m 2 c).arrAt_in 1 rfl _).trans (W8_ne m c main_v15 (by decide)).symm
        · exact ((pdats m 2 c).arrAt_in 2 rfl _).trans (W8_ne m c main_v42 (by decide)).symm
        · exact ((pdats m 2 c).arrAt_in 3 rfl _).trans (W8_ne m c main_arg7 (by decide)).symm
        · exact (W8_out m c).symm)
      (fun b hb => W8_ne m c b fun h => hb (h ▸ Finset.mem_image.mpr ⟨4, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option maxHeartbeats 4000000 in
set_option backward.isDefEq.respectTransparency.types false in
/-- Region 3: entered from the fold's contents before it, left at the contents after it. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X _ := BI.emp
  Y _ := BI.emp
  Z c := iprop(Pipeline.unscopedRest (Ix := Unit) (Name := ℕ) (U := UR sig nD τ) (Lvl := ℕ) spec3 c (U9 m c) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 3 c).Φ 0 = (dat3 (U9 m) c).Φ 0 from rfl]
    iintro ⟨-, -, Hr⟩
    iapply (Phi3_in (U9 m) c)
    iexact Hr
  hout c := by
    rw [Pipeline.ownSems0_none, show (pdats m 3 c).Φ (Fin.last _) = (dat3 (U9 m) c).Φ (Fin.last cfg3.N) from rfl]
    iintro HP
    ihave Hr := (Phi3_out (U9 m) c) $$ HP
    isplitr; · iempintro
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U9 m c) (U10 m c) ((pdats m 3 c).arrAt · cfg3.N)
      (fun w => by
        fin_cases w
        · exact ((pdats m 3 c).arrAt_in 0 rfl _).trans (W10_ne m c main_v54 (by decide)).symm
        · exact ((pdats m 3 c).arrAt_in 1 rfl _).trans (W10_ne m c main_v15 (by decide)).symm
        · exact ((pdats m 3 c).arrAt_in 2 rfl _).trans (W10_ne m c main_v55 (by decide)).symm
        · exact ((pdats m 3 c).arrAt_in 3 rfl _).trans (W10_ne m c main_v16 (by decide)).symm
        · exact (W10_out m c).symm)
      (fun b hb => W10_ne m c b fun h => hb (h ▸ Finset.mem_image.mpr ⟨4, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option maxHeartbeats 4000000 in
set_option backward.isDefEq.respectTransparency.types false in
/-- Region 4: entered from the fold's contents before it, left at the contents after it. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X _ := BI.emp
  Y _ := BI.emp
  Z c := iprop(Pipeline.unscopedRest (Ix := Unit) (Name := ℕ) (U := UR sig nD τ) (Lvl := ℕ) spec4 c (U11 m c) ∗ ∃ r, prngReg c r)
  hentry c := by
    rw [Pipeline.ownSems0_none]
    have hsplit := Pipeline.arrays_of_unscopedBufs (p := 4) (pcfgs (F := F)) adm (pdats m) launch4.win launch4.arr_whole c
      ((pdats m 4 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 4 c).Φ 0 = Pipeline.scopedRest (Ix := Unit) (Name := ℕ) (U := UR sig nD τ) (Lvl := ℕ) (Val := Elt F) spec4 c from rfl]
    iintro ⟨-, -, Hr⟩; iexact Hr
  hout c := by
    rw [Pipeline.ownSems0_none, show (pdats m 4 c).Φ (Fin.last _) = Pipeline.scopedRest (Ix := Unit) (Name := ℕ) (U := UR sig nD τ) (Lvl := ℕ) (Val := Elt F) spec4 c from rfl]
    iintro Hr
    isplitr; · iempintro
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U11 m c) (U12 m c) ((pdats m 4 c).arrAt · cfg4.N)
      (fun w => by
        fin_cases w
        · exact ((pdats m 4 c).arrAt_in 0 rfl _).trans (W12_ne m c main_v65 (by decide)).symm
        · exact ((pdats m 4 c).arrAt_in 1 rfl _).trans (W12_ne m c main_arg9 (by decide)).symm
        · exact ((pdats m 4 c).arrAt_in 2 rfl _).trans (W12_ne m c main_v66 (by decide)).symm
        · exact (W12_out m c).symm)
      (fun b hb => W12_ne m c b fun h => hb (h ▸ Finset.mem_image.mpr ⟨3, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Gen

end
-- ==== Proof.K.Frame.lean ====
/-
  The frame of the whole program, at any float instance: from any launch memory with zero counters every weakly fair
  execution of the entry function terminates, nothing faulting, and every argument array ends as launched. It is the
  conditional frame over the five region segments, at the contents the fold names: the launch deals each core its generator
  register and an empty debt, which is all that rides beside the buffers; the chain's thread states are the fold's.
-/
import proofs.«415797_j26783416058161_2_alg».proof.Proof.K.Regs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's own resource: the pipelines' cells and launch tokens, nothing else. -/
theorem launch_own : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb _ 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core makes what rides beside its buffers: the register at its launch state, an empty debt. -/
theorem launch_rides : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond (m := m) (Ix := Unit) (U := UR sig nD τ) (Lvl := ℕ) emb₁ () 𝒱₀ L lv (fun _ _ => rfl) ρ (outs m) (pdats m)
    (0 : Dev nD → CellTallies nD τ sig Unit) (fun _ => (BI.emp : sProp 𝕄)) (initOf (Pipeline.cells cfgs cellOf_inj) (Pipeline.launchToks cfgs cellOf_inj))
    launch_own (fun _ c => R c) (launch_rides ρ)
    (fun c => by iintro ⟨-, HO⟩; iexact HO)
    (reg0 m) (fun c => .rfl) (fun c => by rw [V4_eq]; exact .rfl)
    (reg1 m) (fun c => by rw [V5_eq]; exact .rfl) (fun c => by rw [V6_eq]; exact .rfl)
    (reg2 m) (fun c => by rw [V7_eq]; exact .rfl) (fun c => by rw [V8_eq]; exact .rfl)
    (reg3 m) (fun c => by rw [V9_eq]; exact .rfl) (fun c => by rw [V10_eq]; exact .rfl)
    (reg4 m) (fun c => by rw [V11_eq]; exact .rfl) (fun c => by rw [V12_eq]; exact .rfl)

end Cert.Kernel.Gen

end
-- ==== Proof.KI.R0.lean ====
/-
  REGION 0 of @main (custom_call 0, the matmul-and-scale kernel on a grid of 25 points), at a parameter V: the TensorCore's buffer contents when the region is entered.

  Three input windows (a row block of the left operand, the whole 64x64 right operand whose block index never
  moves, a row block of the per-row scale) and one output window (the row block of the bf16 result). At every point
  the body loads the three staged blocks whole, computes the payload k0_pay1 of them and stores it over the whole
  output staging buffer. So after the body each input buffer still holds its block and the output buffer holds the
  payload of the three blocks; the invariant between points is the scoped buffers the pipeline does not stage.
-/
import proofs.«415797_j26783416058161_2_alg».proof.Proof.Gen.KernelIdeal.Launch
import proofs.«415797_j26783416058161_2_alg».proof.Proof.Gen.KernelIdeal.Skeleton
import proofs.«415797_j26783416058161_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t: the window's array at the entry contents, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its row block at every point (it is fetched at every point; the
    statement needs only that the body leaves the block in place and that the array is the entry contents). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole 64x64 array at every point: it is fetched at the first point
    only, and where it is not fetched its block index has not moved, so the block kept from the point before is
    this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The scale's staging buffer holds its row block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_a : Rect S4000x64 := Rect.unit (s := S4000x64) ![0, 0] S4000x64.size inb_S4000x64_S4000x64_0_0
abbrev r0_b : Rect S64x64 := Rect.unit (s := S64x64) ![0, 0] S64x64.size inb_S64x64_S64x64_0_0
abbrev r0_c : Rect S4000x1 := Rect.unit (s := S4000x1) ![0, 0] S4000x1.size inb_S4000x1_S4000x1_0_0

/-! ## What the body leaves in the output window's buffer -/

/-- The output staging buffer after the body, from the three input blocks: its one store, of the payload of the
    three whole loads, over the whole buffer. -/
def out0_3 (x0 : Vec F S4000x64 .f32) (x1 : Vec F S64x64 .f32) (x2 : Vec F S4000x1 .f32) : Vec F S4000x64 .bf16 :=
  View.canon [⟨r0_a, k0_pay1 (View.ld x0 r0_a) (View.ld x1 r0_b) (View.ld x2 r0_c)⟩]

/-- The one store is over the whole buffer, so it covers it. -/
theorem cover0_3 (p0 : Vec F S4000x64 .bf16) (y : S4000x64.Idx) :
    ∃ pc ∈ ([⟨r0_a, p0⟩] : List (View.Piece (Elt F) S4000x64 .bf16)), y ∈ pc.1.set :=
  View.cover_of_tiled [⟨r0_a, p0⟩] S4000x64.size (by rfl) y

/-! ## The body's triple -/

set_option maxHeartbeats 1000000 in
/-- The body on whole staging memrefs, the inputs' at contents x0 x1 x2 and the output's at anything, runs to a
    continuation that holds the inputs' as they were and the output's at out0_3 of them: three whole loads, a dead
    load of the output buffer, one whole store of the payload. -/
theorem sound_kernel0 (c : Dev nD) (E : Set ℕ) (i : grid0.Coords)
    (arg1 : Memref sig .tc .vmem S4000x64 .f32) (harg1 : arg1.IsWhole) (arg2 : Memref sig .tc .vmem S64x64 .f32) (harg2 : arg2.IsWhole)
    (arg3 : Memref sig .tc .vmem S4000x1 .f32) (harg3 : arg3.IsWhole) (arg4 : Memref sig .tc .vmem S4000x64 .bf16) (harg4 : arg4.IsWhole)
    (x0 : Vec F S4000x64 .f32) (x1 : Vec F S64x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays at the entry contents; after the body at point t each input's
    buffer at its block and the output's at out0_3 of the three blocks; the invariant the scoped buffers the pipeline
    does not stage; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.scopedRest (Ix := Unit) (Name := ℕ) (U := UR sig nD τ) (Lvl := ℕ) (Val := Elt F) spec0 c
  q _ := fullShare
  owed _ := 0

theorem A_eq0 (c : Dev nD) (w : Fin cfg0.W) : (dat0 V c).A w = V c (Pipeline.arrRef spec0 w) := by
  dsimp only [dat0]

theorem Phi0_eq (c : Dev nD) (t : Fin (cfg0.N + 1)) :
    (dat0 V c).Φ t = Pipeline.scopedRest (Ix := Unit) (Name := ℕ) (U := UR sig nD τ) (Lvl := ℕ) (Val := Elt F) spec0 c := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging memrefs hold their blocks, so the body's triple applies; the
    invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.R1.lean ====
/-
  REGION 1 of @main (custom_call 1, the kernel function `cc1__fused_conv_kernel`, pipeline 1), the half that
  does not depend on the float model: at any `F`, and at a PARAMETER `V` — the TensorCore's buffer contents when
  the region is entered.

  The region is a grid of 25 points over five windows: a [4000,64] f32 block, a [4000,1] f32 column block, a
  [1,64] f32 row and a [64,64] f32 matrix (the last two with a block index that never moves, hence fetched at the
  first point only) as inputs, and a [4000,64] bf16 block as the output, written back at every point. At a point
  the body reads the four inputs whole (the column twice), and stores one payload over the whole output buffer.

  Here: each window's block at a point read off `V` (`iblk1`); every input buffer holds its block whenever the
  body runs, fetched there or not (`before1_W_of`); what the body leaves in the output buffer as a function of
  the input blocks (`out1_4`, the canonical contents of its single covering store); the body's triple
  (`sound_kernel1`); the pipeline's proof data (`dat1`) with the scoped rest as the invariant; and the body
  obligation at every point (`body_obligation1`).
-/
import proofs.«415797_j26783416058161_2_alg».proof.Proof.Gen.KernelIdeal.Launch
import proofs.«415797_j26783416058161_2_alg».proof.Proof.Gen.KernelIdeal.Skeleton
import proofs.«415797_j26783416058161_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

-- membership in a rectangle of extent 4000: the structural look recurses once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof
    data whose array is `V`'s (`hA`) and whose body leaves the block in place (`hafter`): where the window is
    not fetched its block index has not moved, so the block of the point before is this point's. The windows are
    uncut and never idle. Window 0, the [4000,64] block: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- window 1, the [4000,1] column block: -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- window 2, the [1,64] row, fetched at the first point only: -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- window 3, the [64,64] matrix, fetched at the first point only. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S4000x64 := Rect.unit (s := S4000x64) ![0, 0] S4000x64.size inb_S4000x64_S4000x64_0_0
abbrev r1_1 : Rect S4000x1 := Rect.unit (s := S4000x1) ![0, 0] S4000x1.size inb_S4000x1_S4000x1_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0

/-! ## What the body leaves in the output window's buffer -/

/-- Window 4's staging buffer after the body, from the input windows' blocks: its one store, of the payload over
    the four inputs read whole (the column read twice), as the canonical contents of that piece. -/
def out1_4 (xa : Vec F S4000x64 .f32) (xb : Vec F S4000x1 .f32) (xc : Vec F S1x64 .f32) (xd : Vec F S64x64 .f32) : Vec F S4000x64 .bf16 :=
  View.canon [⟨r1_0, k1_pay1 (View.ld xa r1_0) (View.ld xb r1_1) (View.ld xc r1_2) (View.ld xd r1_3) (View.ld xb r1_1)⟩]

/-- The store's rectangle is the whole buffer (checked by evaluation), so it covers it. -/
theorem cover1_4 (pa : Vec F S4000x64 .bf16) (y : S4000x64.Idx) :
    ∃ pc ∈ ([⟨r1_0, pa⟩] : List (View.Piece (Elt F) S4000x64 .bf16)), y ∈ pc.1.set :=
  View.cover_of_tiled [⟨r1_0, pa⟩] S4000x64.size (by rfl) y

/-! ## The body's triple -/

set_option maxHeartbeats 1000000 in
/-- The kernel body on whole staging memrefs, the inputs' at read contents and the output's at anything, runs to
    the continuation holding the inputs' as they were and the output's at `out1_4` of the inputs': the printed
    function is its skeleton, whose five loads read the inputs through their whole rectangles and whose store
    overwrites the output whole. -/
theorem sound_kernel1 (c : Dev nD) (E : Set ℕ) (i : grid1.Coords)
    (arga : Memref sig .tc .vmem S4000x64 .f32) (harga : arga.IsWhole) (argb : Memref sig .tc .vmem S4000x1 .f32) (hargb : argb.IsWhole)
    (argc : Memref sig .tc .vmem S1x64 .f32) (hargc : argc.IsWhole) (argd : Memref sig .tc .vmem S64x64 .f32) (hargd : argd.IsWhole)
    (arge : Memref sig .tc .vmem S4000x64 .bf16) (harge : arge.IsWhole)
    (xa : Vec F S4000x64 .f32) (xb : Vec F S4000x1 .f32) (xc : Vec F S1x64 .f32) (xd : Vec F S64x64 .f32) (K : PUnit → sProp 𝕄) :
    iprop(owns (c : Thread nD τ) arga fullShare xa ∗ owns (c : Thread nD τ) argb fullShare xb
        ∗ owns (c : Thread nD τ) argc fullShare xc ∗ owns (c : Thread nD τ) argd fullShare xd
        ∗ (∃ d, owns (c : Thread nD τ) arge fullShare d)
        ∗ (iprop(owns (c : Thread nD τ) arga fullShare xa ∗ owns (c : Thread nD τ) argb fullShare xb
            ∗ owns (c : Thread nD τ) argc fullShare xc ∗ owns (c : Thread nD τ) argd fullShare xd
            ∗ owns (c : Thread nD τ) arge fullShare (out1_4 xa xb xc xd)) -∗ K ⟨⟩))
      ⊢ wp frame (wpE (defs₀ (F := F)) Variants.none c none) E
          (cc1__fused_conv_kernel i arga harga argb hargb argc hargc argd hargd arge harge) K := by
  simp only [cc1__fused_conv_kernel_eq_skeleton]; unfold cc1__fused_conv_kernel_skel
  unfold owns
  iintro ⟨⟨%fa, %hfa, Ha⟩, ⟨%fb, %hfb, Hb⟩, ⟨%fc, %hfc, Hc⟩, ⟨%fd, %hfd, Hd⟩, ⟨%de, %fe, -, He⟩, Hk⟩
  subst hfa; subst hfb; subst hfc; subst hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact He
  ipureintro
  exact View.read_writes_eq_canon _ _ _ (cover1_4 _)

/-! ## The pipeline's proof data -/

/-- The proof data of pipeline 1 on core `c`: the arrays as the region finds them (`V`); after the body at
    point `t` each input's buffer at its block and the output's at `out1_4` of the input blocks; the invariant
    the scoped buffers the pipeline does not stage, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.scopedRest (Ix := Unit) (Name := ℕ) (U := UR sig nD τ) (Lvl := ℕ) (Val := Elt F) spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant is the scoped rest at every point. -/
theorem Phi1_eq (c : Dev nD) (t : Fin (cfg1.N + 1)) :
    (dat1 V c).Φ t = Pipeline.scopedRest (Ix := Unit) (Name := ℕ) (U := UR sig nD τ) (Lvl := ℕ) (Val := Elt F) spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debts, and the five current staging
    buffers at what they then hold, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%da, Ha⟩, ⟨%db, Hb⟩, ⟨%dc, Hc⟩, ⟨%dd, Hd⟩, ⟨%de, He⟩⟩
  iapply (sound_kernel1 c Set.univ _ _ _ _ _ _ _ _ _ _ _ (iblk1 V c 0 t) (iblk1 V c 1 t) (iblk1 V c 2 t) (iblk1 V c 3 t) _)
  isplitl [Ha]; · iexact Ha
  isplitl [Hb]; · iexact Hb
  isplitl [Hc]; · iexact Hc
  isplitl [Hd]; · iexact Hd
  isplitl [He]; · iexists _; iexact He
  iintro ⟨Ha, Hb, Hc, Hd, He⟩
  isplitl [HΦ]; · iexact HΦ
  isplitl [Ho]; · iexact Ho
  isplitl [Ha]; · iexact Ha
  isplitl [Hb]; · iexact Hb
  isplitl [Hc]; · iexact Hc
  isplitl [Hd]; · iexact Hd
  iexact He

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.R2.lean ====
/-
  REGION 2 of @main (custom_call 2, the kernel function `cc2__fused_conv_kernel`, pipeline 2), the half that
  does not depend on the float model: at any `F`, and at a PARAMETER `V` — the TensorCore's buffer contents when
  the region is entered.

  The region is a grid of 25 points over five windows: a [4000,64] f32 block, a [4000,1] f32 column block, a
  [1,64] f32 row and a [64,64] f32 matrix (the last two with a block index that never moves, hence fetched at the
  first point only) as inputs, and a [4000,64] bf16 block as the output, written back at every point. At a point
  the body reads the four inputs whole (the column twice), and stores one payload over the whole output buffer.

  Here: each window's block at a point read off `V` (`iblk2`); every input buffer holds its block whenever the
  body runs, fetched there or not (`before2_W_of`); what the body leaves in the output buffer as a function of
  the input blocks (`out2_4`, the canonical contents of its single covering store); the body's triple
  (`sound_kernel2`); the pipeline's proof data (`dat2`) with the scoped rest as the invariant; and the body
  obligation at every point (`body_obligation2`).
-/
import proofs.«415797_j26783416058161_2_alg».proof.Proof.Gen.KernelIdeal.Launch
import proofs.«415797_j26783416058161_2_alg».proof.Proof.Gen.KernelIdeal.Skeleton
import proofs.«415797_j26783416058161_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

-- membership in a rectangle of extent 4000: the structural look recurses once per coordinate of the long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof
    data whose array is `V`'s (`hA`) and whose body leaves the block in place (`hafter`): where the window is
    not fetched its block index has not moved, so the block of the point before is this point's. The windows are
    uncut and never idle. Window 0, the [4000,64] block: -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- window 1, the [4000,1] column block: -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- window 2, the [1,64] row, fetched at the first point only: -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- window 3, the [64,64] matrix, fetched at the first point only. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S4000x64 := Rect.unit (s := S4000x64) ![0, 0] S4000x64.size inb_S4000x64_S4000x64_0_0
abbrev r2_1 : Rect S4000x1 := Rect.unit (s := S4000x1) ![0, 0] S4000x1.size inb_S4000x1_S4000x1_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in the output window's buffer -/

/-- Window 4's staging buffer after the body, from the input windows' blocks: its one store, of the payload over
    the four inputs read whole (the column read twice), as the canonical contents of that piece. -/
def out2_4 (xa : Vec F S4000x64 .f32) (xb : Vec F S4000x1 .f32) (xc : Vec F S1x64 .f32) (xd : Vec F S64x64 .f32) : Vec F S4000x64 .bf16 :=
  View.canon [⟨r2_0, k2_pay1 (View.ld xa r2_0) (View.ld xb r2_1) (View.ld xc r2_2) (View.ld xd r2_3) (View.ld xb r2_1)⟩]

/-- The store's rectangle is the whole buffer (checked by evaluation), so it covers it. -/
theorem cover2_4 (pa : Vec F S4000x64 .bf16) (y : S4000x64.Idx) :
    ∃ pc ∈ ([⟨r2_0, pa⟩] : List (View.Piece (Elt F) S4000x64 .bf16)), y ∈ pc.1.set :=
  View.cover_of_tiled [⟨r2_0, pa⟩] S4000x64.size (by rfl) y

/-! ## The body's triple -/

set_option maxHeartbeats 1000000 in
/-- The kernel body on whole staging memrefs, the inputs' at read contents and the output's at anything, runs to
    the continuation holding the inputs' as they were and the output's at `out2_4` of the inputs': the printed
    function is its skeleton, whose five loads read the inputs through their whole rectangles and whose store
    overwrites the output whole. -/
theorem sound_kernel2 (c : Dev nD) (E : Set ℕ) (i : grid2.Coords)
    (arga : Memref sig .tc .vmem S4000x64 .f32) (harga : arga.IsWhole) (argb : Memref sig .tc .vmem S4000x1 .f32) (hargb : argb.IsWhole)
    (argc : Memref sig .tc .vmem S1x64 .f32) (hargc : argc.IsWhole) (argd : Memref sig .tc .vmem S64x64 .f32) (hargd : argd.IsWhole)
    (arge : Memref sig .tc .vmem S4000x64 .bf16) (harge : arge.IsWhole)
    (xa : Vec F S4000x64 .f32) (xb : Vec F S4000x1 .f32) (xc : Vec F S1x64 .f32) (xd : Vec F S64x64 .f32) (K : PUnit → sProp 𝕄) :
    iprop(owns (c : Thread nD τ) arga fullShare xa ∗ owns (c : Thread nD τ) argb fullShare xb
        ∗ owns (c : Thread nD τ) argc fullShare xc ∗ owns (c : Thread nD τ) argd fullShare xd
        ∗ (∃ d, owns (c : Thread nD τ) arge fullShare d)
        ∗ (iprop(owns (c : Thread nD τ) arga fullShare xa ∗ owns (c : Thread nD τ) argb fullShare xb
            ∗ owns (c : Thread nD τ) argc fullShare xc ∗ owns (c : Thread nD τ) argd fullShare xd
            ∗ owns (c : Thread nD τ) arge fullShare (out2_4 xa xb xc xd)) -∗ K ⟨⟩))
      ⊢ wp frame (wpE (defs₀ (F := F)) Variants.none c none) E
          (cc2__fused_conv_kernel i arga harga argb hargb argc hargc argd hargd arge harge) K := by
  simp only [cc2__fused_conv_kernel_eq_skeleton]; unfold cc2__fused_conv_kernel_skel
  unfold owns
  iintro ⟨⟨%fa, %hfa, Ha⟩, ⟨%fb, %hfb, Hb⟩, ⟨%fc, %hfc, Hc⟩, ⟨%fd, %hfd, Hd⟩, ⟨%de, %fe, -, He⟩, Hk⟩
  subst hfa; subst hfb; subst hfc; subst hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact He
  ipureintro
  exact View.read_writes_eq_canon _ _ _ (cover2_4 _)

/-! ## The pipeline's proof data -/

/-- The proof data of pipeline 2 on core `c`: the arrays as the region finds them (`V`); after the body at
    point `t` each input's buffer at its block and the output's at `out2_4` of the input blocks; the invariant
    the scoped buffers the pipeline does not stage, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.scopedRest (Ix := Unit) (Name := ℕ) (U := UR sig nD τ) (Lvl := ℕ) (Val := Elt F) spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant is the scoped rest at every point. -/
theorem Phi2_eq (c : Dev nD) (t : Fin (cfg2.N + 1)) :
    (dat2 V c).Φ t = Pipeline.scopedRest (Ix := Unit) (Name := ℕ) (U := UR sig nD τ) (Lvl := ℕ) (Val := Elt F) spec2 c := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`: the invariant, the core's debts, and the five current staging
    buffers at what they then hold, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%da, Ha⟩, ⟨%db, Hb⟩, ⟨%dc, Hc⟩, ⟨%dd, Hd⟩, ⟨%de, He⟩⟩
  iapply (sound_kernel2 c Set.univ _ _ _ _ _ _ _ _ _ _ _ (iblk2 V c 0 t) (iblk2 V c 1 t) (iblk2 V c 2 t) (iblk2 V c 3 t) _)
  isplitl [Ha]; · iexact Ha
  isplitl [Hb]; · iexact Hb
  isplitl [Hc]; · iexact Hc
  isplitl [Hd]; · iexact Hd
  isplitl [He]; · iexists _; iexact He
  iintro ⟨Ha, Hb, Hc, Hd, He⟩
  isplitl [HΦ]; · iexact HΦ
  isplitl [Ho]; · iexact Ho
  isplitl [Ha]; · iexact Ha
  isplitl [Hb]; · iexact Hb
  isplitl [Hc]; · iexact Hc
  isplitl [Hd]; · iexact Hd
  iexact He

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.R3.lean ====
/-
  REGION 3 of the printed program (custom_call 3, the pooling kernel over a grid of 25 points), at a PARAMETER `V`:
  the TensorCore's buffer contents when the region is entered. The kernel keeps a running sum in a VMEM scratch:
  at the first point the scratch is reset to the zero block, at every point the point's contribution (a one-hot
  matrix of the segment ids, transposed, times the rectified rows) is added to it, and at the last point the scratch is
  copied to the output window's buffer. This module gives each window's block at a point, the scratch after each
  point (`accAt3`, by recursion on the point), the body's triple in each of the three control cases, the proof data and
  the body obligation.
-/
import proofs.«415797_j26783416058161_2_alg».proof.Proof.Gen.KernelIdeal.Launch
import proofs.«415797_j26783416058161_2_alg».proof.Proof.Gen.KernelIdeal.Skeleton
import proofs.«415797_j26783416058161_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's two conditions, in closed form over the grid -/

/-- The first conditional's test (is this the first point?), as the body computes it from the grid coordinate. -/
abbrev cond3_1 (i : grid3.Coords) : Prop :=
  (Scalar.cmpi .ne (Scalar.extui (Scalar.cmpi .eq (BitVec.ofNat 32 (i 0).val) 0#32)) 0#32) = 1#1

/-- It holds at point 0 only. -/
theorem cond1_iff : ∀ t : Fin cfg3.N, cond3_1 (grid3.coords t) ↔ t.val = 0 :=
  (by decide +kernel : ∀ t : Fin grid3.N, cond3_1 (grid3.coords t) ↔ t.val = 0)

/-- The second conditional's test (is this the last point?) holds at point 24 only. -/
theorem cond2_iff : ∀ t : Fin cfg3.N, k3_cond2 (grid3.coords t) = 1#1 ↔ t.val = 24 :=
  (by decide +kernel : ∀ t : Fin grid3.N, k3_cond2 (grid3.coords t) = 1#1 ↔ t.val = 24)

/-- The zero offsets of a whole-buffer access, however spelt. -/
theorem hz3 : (![0, 0] : Fin 2 → Nat) = fun _ => 0 := funext fun a => by fin_cases a <;> rfl

/-! ## The body's triple, case by case

The body on whole memrefs: the four inputs' at read contents `x0 … x3`, the scratch's and the output's as the case
needs them. Every access is of a whole buffer (the unit rectangle at zero offsets), so a load reads the contents
and a store leaves its payload; the scratch read back after a store of the same run reads that store's payload. -/

/-- One store through the whole-buffer rectangle covers the buffer. -/
theorem cover3_one (w : Vec F S128x64 .f32) (L : List (View.Piece (Elt F) S128x64 .f32)) (y : S128x64.Idx) :
    ∃ pc ∈ ((⟨Rect.unit ![0, 0] S128x64.size inb_S128x64_S128x64_0_0, w⟩ : View.Piece (Elt F) S128x64 .f32) :: L), y ∈ pc.1.set :=
  ⟨_, List.mem_cons.mpr (Or.inl rfl), View.mem_set_unit_zero hz3 inb_S128x64_S128x64_0_0 y⟩

set_option maxHeartbeats 1000000 in
/-- THE FIRST POINT: the scratch, found at anything, is reset to the zero block and left at the update of the zero
    block by the point's blocks; the output's buffer is not touched. -/
theorem sound_kernel3_first (c : Dev nD) (E : Set ℕ) (i : grid3.Coords)
    (arg1 : Memref sig .tc .vmem S4000x64 .f32) (harg1 : arg1.IsWhole) (arg2 : Memref sig .tc .vmem S4000x1 .f32) (harg2 : arg2.IsWhole)
    (arg3 : Memref sig .tc .vmem S1x64 .f32) (harg3 : arg3.IsWhole) (arg4 : Memref sig .tc .vmem S4000x1 .i32) (harg4 : arg4.IsWhole)
    (arg5 : Memref sig .tc .vmem S128x64 .f32) (harg5 : arg5.IsWhole) (arg6 : Memref sig .tc .vmem S128x64 .f32) (harg6 : arg6.IsWhole)
    (hc1 : cond3_1 i) (hc2 : ¬k3_cond2 i = 1#1)
    (x0 : Vec F S4000x64 .f32) (x1 : Vec F S4000x1 .f32) (x2 : Vec F S1x64 .f32) (x3 : Vec F S4000x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k3_pay2 x0 x1 x2 x3 (k3_pay1 (F := F)))) -∗ K ⟨⟩))
      ⊢ wp frame (wpE (defs₀ (F := F)) Variants.none c none) E (cc3__final_pool_kernel i arg1 harg1 arg2 harg2 arg3 harg3 arg4 harg4 arg5 harg5 arg6 harg6) K := by
  simp only [cc3__final_pool_kernel_eq_skeleton]; unfold cc3__final_pool_kernel_skel
  unfold owns
  iintro ⟨⟨%f1, %hf1, H1⟩, ⟨%f2, %hf2, H2⟩, ⟨%f3, %hf3, H3⟩, ⟨%f4, %hf4, H4⟩, ⟨%d6, %f6, -, H6⟩, Hk⟩
  subst hf1 hf2 hf3 hf4
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (cover3_one _ _)]
  rw [View.canon_cons_unit_zero (S := S128x64) hz3]
  simp only [View.readAt_eq_ld, View.ld_unit_zero (S := S4000x64) hz3, View.ld_unit_zero (S := S4000x1) hz3,
    View.ld_unit_zero (S := S1x64) hz3, View.readCov_unit_zero (S := S128x64) _ hz3]

set_option maxHeartbeats 1000000 in
/-- A POINT NEITHER FIRST NOR LAST: the scratch, found at `a`, is left at the update of `a` by the point's blocks;
    the output's buffer is not touched. -/
theorem sound_kernel3_mid (c : Dev nD) (E : Set ℕ) (i : grid3.Coords)
    (arg1 : Memref sig .tc .vmem S4000x64 .f32) (harg1 : arg1.IsWhole) (arg2 : Memref sig .tc .vmem S4000x1 .f32) (harg2 : arg2.IsWhole)
    (arg3 : Memref sig .tc .vmem S1x64 .f32) (harg3 : arg3.IsWhole) (arg4 : Memref sig .tc .vmem S4000x1 .i32) (harg4 : arg4.IsWhole)
    (arg5 : Memref sig .tc .vmem S128x64 .f32) (harg5 : arg5.IsWhole) (arg6 : Memref sig .tc .vmem S128x64 .f32) (harg6 : arg6.IsWhole)
    (hc1 : ¬cond3_1 i) (hc2 : ¬k3_cond2 i = 1#1)
    (x0 : Vec F S4000x64 .f32) (x1 : Vec F S4000x1 .f32) (x2 : Vec F S1x64 .f32) (x3 : Vec F S4000x1 .i32) (a : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare a
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k3_pay2 x0 x1 x2 x3 a)) -∗ K ⟨⟩))
      ⊢ wp frame (wpE (defs₀ (F := F)) Variants.none c none) E (cc3__final_pool_kernel i arg1 harg1 arg2 harg2 arg3 harg3 arg4 harg4 arg5 harg5 arg6 harg6) K := by
  simp only [cc3__final_pool_kernel_eq_skeleton]; unfold cc3__final_pool_kernel_skel
  unfold owns
  iintro ⟨⟨%f1, %hf1, H1⟩, ⟨%f2, %hf2, H2⟩, ⟨%f3, %hf3, H3⟩, ⟨%f4, %hf4, H4⟩, ⟨%f6, %hf6, H6⟩, Hk⟩
  subst hf1 hf2 hf3 hf4 hf6
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_words
  rw [View.read_writes_eq_canon _ _ _ (cover3_one _ _)]
  rw [View.canon_unit_zero (S := S128x64) hz3]
  simp only [View.readAt_eq_ld, View.ld_unit_zero (S := S4000x64) hz3, View.ld_unit_zero (S := S4000x1) hz3,
    View.ld_unit_zero (S := S1x64) hz3, View.ld_unit_zero (S := S128x64) hz3]

set_option maxHeartbeats 1000000 in
/-- THE LAST POINT: the scratch, found at `a`, is left at the update of `a` by the point's blocks, and the output's
    buffer, found at anything, at a copy of that. -/
theorem sound_kernel3_last (c : Dev nD) (E : Set ℕ) (i : grid3.Coords)
    (arg1 : Memref sig .tc .vmem S4000x64 .f32) (harg1 : arg1.IsWhole) (arg2 : Memref sig .tc .vmem S4000x1 .f32) (harg2 : arg2.IsWhole)
    (arg3 : Memref sig .tc .vmem S1x64 .f32) (harg3 : arg3.IsWhole) (arg4 : Memref sig .tc .vmem S4000x1 .i32) (harg4 : arg4.IsWhole)
    (arg5 : Memref sig .tc .vmem S128x64 .f32) (harg5 : arg5.IsWhole) (arg6 : Memref sig .tc .vmem S128x64 .f32) (harg6 : arg6.IsWhole)
    (hc1 : ¬cond3_1 i) (hc2 : k3_cond2 i = 1#1)
    (x0 : Vec F S4000x64 .f32) (x1 : Vec F S4000x1 .f32) (x2 : Vec F S1x64 .f32) (x3 : Vec F S4000x1 .i32) (a : Vec F S128x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare a ∗ (∃ d, owns (c : Thread nD τ) arg5 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (k3_pay2 x0 x1 x2 x3 a)
            ∗ owns (c : Thread nD τ) arg5 fullShare (k3_pay2 x0 x1 x2 x3 a)) -∗ K ⟨⟩))
      ⊢ wp frame (wpE (defs₀ (F := F)) Variants.none c none) E (cc3__final_pool_kernel i arg1 harg1 arg2 harg2 arg3 harg3 arg4 harg4 arg5 harg5 arg6 harg6) K := by
  simp only [cc3__final_pool_kernel_eq_skeleton]; unfold cc3__final_pool_kernel_skel
  unfold owns
  iintro ⟨⟨%f1, %hf1, H1⟩, ⟨%f2, %hf2, H2⟩, ⟨%f3, %hf3, H3⟩, ⟨%f4, %hf4, H4⟩, ⟨%f6, %hf6, H6⟩, ⟨%d5, %f5, -, H5⟩, Hk⟩
  subst hf1 hf2 hf3 hf4 hf6
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_words
    rw [View.read_writes_eq_canon _ _ _ (cover3_one _ _)]
    rw [View.canon_unit_zero (S := S128x64) hz3]
    simp only [View.readAt_eq_ld, View.ld_unit_zero (S := S4000x64) hz3, View.ld_unit_zero (S := S4000x1) hz3,
      View.ld_unit_zero (S := S1x64) hz3, View.ld_unit_zero (S := S128x64) hz3]
  iexists _; isplitr
  swap; · iexact H5
  ipureintro
  sl_unfold_words
  rw [View.read_writes_eq_canon _ _ _ (cover3_one _ _)]
  rw [View.canon_unit_zero (S := S128x64) hz3]
  simp only [View.readAt_eq_ld, View.ld_unit_zero (S := S4000x64) hz3, View.ld_unit_zero (S := S4000x1) hz3,
    View.ld_unit_zero (S := S1x64) hz3, View.ld_unit_zero (S := S128x64) hz3, View.readCov_unit_zero (S := S128x64) _ hz3]

/-! ## The inputs' buffers at every point

An input window's current buffer holds its block at every point, fetched there or not (the bias row is fetched at
the first point only: its block index never moves), for any proof data whose array is `V`'s and whose body leaves
the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The scratch after each point -/

/-- THE RUNNING SUM. The scratch after the body at point `n`: the update, by point `n`'s four input blocks, of the
    scratch after point `n - 1` — at point 0 of the zero block the body has just reset it to. -/
def accAt3 (c : Dev nD) : (n : ℕ) → n < cfg3.N → Vec F S128x64 .f32
  | 0, hn => k3_pay2 (iblk3 V c 0 ⟨0, hn⟩) (iblk3 V c 1 ⟨0, hn⟩) (iblk3 V c 2 ⟨0, hn⟩) (iblk3 V c 3 ⟨0, hn⟩) (k3_pay1 (F := F))
  | n + 1, hn => k3_pay2 (iblk3 V c 0 ⟨n + 1, hn⟩) (iblk3 V c 1 ⟨n + 1, hn⟩) (iblk3 V c 2 ⟨n + 1, hn⟩) (iblk3 V c 3 ⟨n + 1, hn⟩)
      (accAt3 c n (Nat.lt_of_succ_lt hn))

/-- At the first point: the update of the zero block. -/
theorem accAt3_first (c : Dev nD) (t : Fin cfg3.N) (h0 : t.val = 0) :
    accAt3 V c t.val t.isLt = k3_pay2 (iblk3 V c 0 t) (iblk3 V c 1 t) (iblk3 V c 2 t) (iblk3 V c 3 t) (k3_pay1 (F := F)) := by
  obtain ⟨n, hn⟩ := t
  cases n with
  | zero => rfl
  | succ n => exact absurd h0 (Nat.succ_ne_zero n)

/-- At a later point: the update of what the point before left. -/
theorem accAt3_next (c : Dev nD) (t : Fin cfg3.N) (h0 : t.val ≠ 0) :
    accAt3 V c t.val t.isLt = k3_pay2 (iblk3 V c 0 t) (iblk3 V c 1 t) (iblk3 V c 2 t) (iblk3 V c 3 t)
      (accAt3 V c (t.val - 1) (Nat.lt_of_le_of_lt (Nat.sub_le _ _) t.isLt)) := by
  obtain ⟨n, hn⟩ := t
  cases n with
  | zero => exact absurd rfl h0
  | succ n => rfl

/-! ## The invariant: the scratch between points -/

/-- The scratch's buffer before point `t` (after point `t - 1`): held whole at the running sum of the point before;
    before the first point, at anything. -/
def scr3 (c : Dev nD) (t : Fin (cfg3.N + 1)) : sProp 𝕄 :=
  match t with
  | ⟨0, _⟩ => iprop(∃ X, owns (c : Thread nD τ) (Memref.whole cc3_scratch0 : Memref sig .tc .vmem S128x64 .f32) fullShare X)
  | ⟨n + 1, h⟩ => owns (c : Thread nD τ) (Memref.whole cc3_scratch0 : Memref sig .tc .vmem S128x64 .f32) fullShare (accAt3 V c n (Nat.lt_of_succ_lt_succ h))

theorem scr3_zero (c : Dev nD) (t : Fin (cfg3.N + 1)) (h : t.val = 0) :
    scr3 V c t = iprop(∃ X, owns (c : Thread nD τ) (Memref.whole cc3_scratch0 : Memref sig .tc .vmem S128x64 .f32) fullShare X) := by
  obtain ⟨n, hn⟩ := t
  cases n with
  | zero => rfl
  | succ n => exact absurd h (Nat.succ_ne_zero n)

theorem scr3_pos (c : Dev nD) (t : Fin (cfg3.N + 1)) (h : t.val ≠ 0) :
    scr3 V c t = owns (c : Thread nD τ) (Memref.whole cc3_scratch0 : Memref sig .tc .vmem S128x64 .f32) fullShare
      (accAt3 V c (t.val - 1) (by have := t.isLt; omega)) := by
  obtain ⟨n, hn⟩ := t
  cases n with
  | zero => exact absurd rfl h
  | succ n => rfl

theorem scr3_succ (c : Dev nD) (t : Fin cfg3.N) :
    scr3 V c t.succ = owns (c : Thread nD τ) (Memref.whole cc3_scratch0 : Memref sig .tc .vmem S128x64 .f32) fullShare (accAt3 V c t.val t.isLt) := by
  obtain ⟨n, hn⟩ := t
  rfl

/-! ## The pipeline's proof data -/

/-- The proof data of pipeline 3 on core `c`: the arrays as the region finds them; after the body at point `t` each
    input's buffer at its block and the output's at the running sum after `t` (read only at the last point, the one
    point that is live for the output window and writes it back); the invariant the scratch between points beside
    the scoped buffers the region does not touch; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => accAt3 V c t.val t.isLt
  Φ t := iprop(scr3 V c t ∗ Pipeline.scopedRestBut (Ix := Unit) (Name := ℕ) (U := UR sig nD τ) (Lvl := ℕ) (Val := Elt F) spec3 c [cc3_scratch0])
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = accAt3 V c t.val t.isLt := by dsimp only [dat3]

theorem Phi3_eq (c : Dev nD) (t : Fin (cfg3.N + 1)) :
    (dat3 V c).Φ t = iprop(scr3 V c t ∗ Pipeline.scopedRestBut (Ix := Unit) (Name := ℕ) (U := UR sig nD τ) (Lvl := ℕ) (Val := Elt F) spec3 c [cc3_scratch0]) := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The invariant at the region's two ends -/

/-- Entering: the scoped rest split at the scratch, which is held at something. -/
theorem Phi3_in (c : Dev nD) : (Pipeline.scopedRest (Ix := Unit) (Name := ℕ) (U := UR sig nD τ) (Lvl := ℕ) (Val := Elt F) spec3 c : sProp 𝕄) ⊢ (dat3 V c).Φ 0 := by
  rw [Phi3_eq, scr3_zero V c 0 rfl, scopedRest3_split c]
  simp only [owns_whole]
  iintro H; iexact H

/-- Leaving: the scratch, held at the last running sum, is held at something; the scoped rest is whole again. -/
theorem Phi3_out (c : Dev nD) : (dat3 V c).Φ (Fin.last cfg3.N) ⊢ (Pipeline.scopedRest (Ix := Unit) (Name := ℕ) (U := UR sig nD τ) (Lvl := ℕ) (Val := Elt F) spec3 c : sProp 𝕄) := by
  have hN : (Fin.last cfg3.N).val ≠ 0 := by rw [Fin.val_last]; show grid3.N ≠ 0; rw [N_3]; decide
  rw [Phi3_eq, scr3_pos V c _ hN, scopedRest3_split c, owns_whole]
  iintro ⟨Hs, Hr⟩
  isplitl [Hs]
  · iexists _; iexact Hs
  iexact Hr

/-! ## The body obligation, case by case -/

/-- What the body is called with at point `t`: the invariant, what the core owes, the five windows' current buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it returns at a point idle for the output window that does not write it back: that buffer as found. -/
def bodyPostIdle3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ (∃ d, owns (c : Thread nD τ) (st3_4 t) fullShare ((dat3 V c).before 4 t d)))

/-- What it returns at the last point: the output's buffer at the last running sum. -/
def bodyPostLast3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 1000000 in
/-- The first point: the scratch is held at anything; the body resets and updates it. -/
theorem sound_body3_first (c : Dev nD) (t : Fin cfg3.N) (h0 : t.val = 0) :
    bodyPre3 V c t ⊢ wp frame (wpE (defs₀ (F := F)) Variants.none c none) Set.univ (bodyAt3 t) (fun _ => bodyPostIdle3 V c t) := by
  unfold bodyPre3 bodyPostIdle3 bodyAt3
  simp only [before3_0, before3_1, before3_2, before3_3]
  rw [show (dat3 V c).owesAt () t.succ = (dat3 V c).owesAt () t.castSucc from rfl,
    after3_0, after3_1, after3_2, after3_3, Phi3_eq, Phi3_eq, scr3_zero V c t.castSucc h0, scr3_succ, accAt3_first V c t h0]
  iintro ⟨⟨Hs, Hr⟩, Ho, ⟨%d0, H0⟩, ⟨%d1, H1⟩, ⟨%d2, H2⟩, ⟨%d3, H3⟩, H4⟩
  iapply (sound_kernel3_first c Set.univ (grid3.coords t) _ _ _ _ _ _ _ _ _ _ _ _ ((cond1_iff t).mpr h0) (fun h => by have := (cond2_iff t).mp h; omega)
      (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  iexact H4

set_option maxHeartbeats 1000000 in
/-- A point neither first nor last: the scratch is held at the running sum of the point before; the body updates it. -/
theorem sound_body3_mid (c : Dev nD) (t : Fin cfg3.N) (h0 : t.val ≠ 0) (h24 : t.val ≠ 24) :
    bodyPre3 V c t ⊢ wp frame (wpE (defs₀ (F := F)) Variants.none c none) Set.univ (bodyAt3 t) (fun _ => bodyPostIdle3 V c t) := by
  unfold bodyPre3 bodyPostIdle3 bodyAt3
  simp only [before3_0, before3_1, before3_2, before3_3]
  rw [show (dat3 V c).owesAt () t.succ = (dat3 V c).owesAt () t.castSucc from rfl,
    after3_0, after3_1, after3_2, after3_3, Phi3_eq, Phi3_eq, scr3_pos V c t.castSucc h0, scr3_succ, accAt3_next V c t h0]
  iintro ⟨⟨Hs, Hr⟩, Ho, ⟨%d0, H0⟩, ⟨%d1, H1⟩, ⟨%d2, H2⟩, ⟨%d3, H3⟩, H4⟩
  iapply (sound_kernel3_mid c Set.univ (grid3.coords t) _ _ _ _ _ _ _ _ _ _ _ _ (fun h => h0 ((cond1_iff t).mp h)) (fun h => h24 ((cond2_iff t).mp h))
      (iblk3 V c 0 t) (iblk3 V c 1 t) (iblk3 V c 2 t) (iblk3 V c 3 t) (accAt3 V c (t.val - 1) (Nat.lt_of_le_of_lt (Nat.sub_le _ _) t.isLt)) _)
  isplitl [H0]; · iexact H0
  isplitl [H1]; · iexact H1
  isplitl [H2]; · iexact H2
  isplitl [H3]; · iexact H3
  isplitl [Hs]; · iexact Hs
  iintro ⟨H0, H1, H2, H3, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  iexact H4

set_option maxHeartbeats 1000000 in
/-- The last point: the body updates the scratch and copies it to the output's buffer. -/
theorem sound_body3_last (c : Dev nD) (t : Fin cfg3.N) (h24 : t.val = 24) :
    bodyPre3 V c t ⊢ wp frame (wpE (defs₀ (F := F)) Variants.none c none) Set.univ (bodyAt3 t) (fun _ => bodyPostLast3 V c t) := by
  have h0 : t.val ≠ 0 := by omega
  unfold bodyPre3 bodyPostLast3 bodyAt3
  simp only [before3_0, before3_1, before3_2, before3_3]
  rw [show (dat3 V c).owesAt () t.succ = (dat3 V c).owesAt () t.castSucc from rfl,
    after3_0, after3_1, after3_2, after3_3, after3_4, Phi3_eq, Phi3_eq, scr3_pos V c t.castSucc h0, scr3_succ, accAt3_next V c t h0]
  iintro ⟨⟨Hs, Hr⟩, Ho, ⟨%d0, H0⟩, ⟨%d1, H1⟩, ⟨%d2, H2⟩, ⟨%d3, H3⟩, ⟨%d4, H4⟩⟩
  iapply (sound_kernel3_last c Set.univ (grid3.coords t) _ _ _ _ _ _ _ _ _ _ _ _ (fun h => h0 ((cond1_iff t).mp h)) ((cond2_iff t).mpr h24)
      (iblk3 V c 0 t) (iblk3 V c 1 t) (iblk3 V c 2 t) (iblk3 V c 3 t) (accAt3 V c (t.val - 1) (Nat.lt_of_le_of_lt (Nat.sub_le _ _) t.isLt)) _)
  isplitl [H0]; · iexact H0
  isplitl [H1]; · iexact H1
  isplitl [H2]; · iexact H2
  isplitl [H3]; · iexact H3
  isplitl [Hs]; · iexact Hs
  isplitl [H4]; · iexists _; iexact H4
  iintro ⟨H0, H1, H2, H3, Hs, H4⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  iexact H4

set_option maxHeartbeats 1000000 in
/-- The library's body obligation, at every point: the output window is idle and not written back before the last
    point, live and written back at it. -/
theorem body_obligation3 (c : Dev nD) : BodyObligation (dat3 (F := F) V c) (defs₀ (F := F)) Variants.none () Set.univ := fun t => by
  have hN : t.val < 25 := lt_of_lt_of_eq t.isLt (show cfg3.N = 25 from N_3)
  rw [bigSep_W3, bigSep_W3]
  by_cases h24 : t.val = 24
  · have hi : cfg3.idle (4 : Fin 5) (cfg3.grid.coords t) = false := by
      show (!(k3_cond2 (grid3.coords t) == 1#1)) = false
      rw [(cond2_iff t).mpr h24]; rfl
    rw [hi]
    exact sound_body3_last V c t h24
  · have hi : cfg3.idle (4 : Fin 5) (cfg3.grid.coords t) = true := by
      show (!(k3_cond2 (grid3.coords t) == 1#1)) = true
      rw [Bool.not_eq_true', beq_eq_false_iff_ne]
      exact fun h => h24 ((cond2_iff t).mp h)
    have hf : (cfg3.win (4 : Fin 5)).flush t = false := by
      rw [Bool.eq_false_iff]; intro h
      have := (flush3_4 t).mp h
      omega
    rw [hi, hf]
    by_cases h0 : t.val = 0
    · exact sound_body3_first V c t h0
    · exact sound_body3_mid V c t h0 h24

end Cert.KernelIdeal.Gen

end
-- ==== Proof.KI.R4.lean ====
/-
  REGION 4 of @main (custom_call 4, `cc4__matmul_bias_kernel`, pipeline 4), class-A half, generic in the float
  model, at a PARAMETER `V`: the TensorCore's buffer contents when the region is entered.

  The grid has one point. Three input windows (a [128,64] matrix, a [64,32] matrix, a [1,32] row), each one whole
  block fetched at the point, and one output window ([128,32]) written back at the point. The body loads the three
  inputs, forms the payload `k4_pay1` (the product of the two matrices rounded to bf16, accumulated in f32, plus the
  row broadcast down the rows), and stores it over the whole output block.
-/
import proofs.«415797_j26783416058161_2_alg».proof.Proof.Gen.KernelIdeal.Launch
import proofs.«415797_j26783416058161_2_alg».proof.Proof.Gen.KernelIdeal.Skeleton
import proofs.«415797_j26783416058161_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data whose array is
    the entry contents and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole [128,64] block: the first input's load. -/
abbrev r4_0 : Rect S128x64 := Rect.unit (s := S128x64) ![0, 0] S128x64.size inb_S128x64_S128x64_0_0
/-- The whole [64,32] block: the second input's load. -/
abbrev r4_1 : Rect S64x32 := Rect.unit (s := S64x32) ![0, 0] S64x32.size inb_S64x32_S64x32_0_0
/-- The whole [1,32] block: the third input's load. -/
abbrev r4_2 : Rect S1x32 := Rect.unit (s := S1x32) ![0, 0] S1x32.size inb_S1x32_S1x32_0_0
/-- The whole [128,32] block: the output's store. -/
abbrev r4_3 : Rect S128x32 := Rect.unit (s := S128x32) ![0, 0] S128x32.size inb_S128x32_S128x32_0_0

/-! ## What the body leaves in the output window's buffer -/

/-- The output's staging buffer after the body, from the input windows' blocks: its one store as a piece over the
    payload at the three loaded blocks. -/
def out4_3 (x0 : Vec F S128x64 .f32) (x1 : Vec F S64x32 .f32) (x2 : Vec F S1x32 .f32) : Vec F S128x32 .f32 :=
  View.canon [⟨r4_3, k4_pay1 (View.ld x0 r4_0) (View.ld x1 r4_1) (View.ld x2 r4_2)⟩]

/-- The store tiles the buffer, so it covers it. -/
theorem cover4_3 (p0 : Vec F S128x32 .f32) (y : S128x32.Idx) :
    ∃ pc ∈ ([⟨r4_3, p0⟩] : List (View.Piece (Elt F) S128x32 .f32)), y ∈ pc.1.set :=
  View.cover_of_tiled [⟨r4_3, p0⟩] S128x32.size (by rfl) y

/-! ## The body's triple -/

set_option maxHeartbeats 1000000 in
/-- The kernel body on whole staging memrefs, the inputs' at read contents and the output's at anything, runs to the
    continuation holding the inputs' as they were and the output's at `out4_3` of the inputs'. -/
theorem sound_kernel4 (c : Dev nD) (E : Set ℕ) (i : grid4.Coords)
    (arg0 : Memref sig .tc .vmem S128x64 .f32) (harg0 : arg0.IsWhole) (arg1 : Memref sig .tc .vmem S64x32 .f32) (harg1 : arg1.IsWhole)
    (arg2 : Memref sig .tc .vmem S1x32 .f32) (harg2 : arg2.IsWhole) (arg3 : Memref sig .tc .vmem S128x32 .f32) (harg3 : arg3.IsWhole)
    (x0 : Vec F S128x64 .f32) (x1 : Vec F S64x32 .f32) (x2 : Vec F S1x32 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out4_3 x0 x1 x2)) -∗ K ⟨⟩))
      ⊢ wp frame (wpE (defs₀ (F := F)) Variants.none c none) E (cc4__matmul_bias_kernel i arg0 harg0 arg1 harg1 arg2 harg2 arg3 harg3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them; after the body each input's
    buffer at its block and the output's at `out4_3` of the input blocks; the invariant the scoped buffers the
    pipeline does not stage, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.scopedRest (Ix := Unit) (Name := ℕ) (U := UR sig nD τ) (Lvl := ℕ) (Val := Elt F) spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant is the scoped rest at every point. -/
theorem Phi4_eq (c : Dev nD) (t : Fin (cfg4.N + 1)) :
    (dat4 V c).Φ t = Pipeline.scopedRest (Ix := Unit) (Name := ℕ) (U := UR sig nD τ) (Lvl := ℕ) (Val := Elt F) spec4 c := rfl

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.Fold.lean ====
/-
  The contents of the TensorCore's unscoped buffers at every boundary between two items of the program's entry
  function, as a fold from the launch memory: a host stretch applies its operations; a kernel region replaces the one
  array it writes by what its pipeline's write-backs leave (the proof data's array after the last grid point).
  From the fold: the contents each region leaves, indexed the way the conditional frame reads them, and every
  pipeline's proof data at its region's entry contents.
-/
import proofs.«415797_j26783416058161_2_alg».proof.Proof.Gen.KernelIdeal.Regions
import proofs.«415797_j26783416058161_2_alg».proof.Proof.KI.R0
import proofs.«415797_j26783416058161_2_alg».proof.Proof.KI.R1
import proofs.«415797_j26783416058161_2_alg».proof.Proof.KI.R2
import proofs.«415797_j26783416058161_2_alg».proof.Proof.KI.R3
import proofs.«415797_j26783416058161_2_alg».proof.Proof.KI.R4

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Before region 0: the launch memory after the three leading host stretches. -/
abbrev W3 (c : Dev nD) : Valuation τ sig (Elt F) := V3 m c
/-- The same read at the TensorCore's references (what a region's proof data take). -/
abbrev U3 : (c : Dev nD) → (b : Ref sig .tc) → Buf (Elt F) ((c : Thread nD τ).loc b) := fun c b => W3 m c b

/-- What region 0 leaves in its output array: the write-backs of its output window folded over the grid. -/
def o4 (c : Dev nD) : Buf (Elt F) ((c : Thread nD τ).loc main_v17) := (dat0 (U3 m) c).arrAt 3 cfg0.N
/-- After region 0: its output array replaced, every other buffer as entered. -/
def W4 (c : Dev nD) : Valuation τ sig (Elt F) := Function.update (W3 m c) main_v17 (o4 m c)
abbrev U4 : (c : Dev nD) → (b : Ref sig .tc) → Buf (Elt F) ((c : Thread nD τ).loc b) := fun c b => W4 m c b
theorem W4_out (c : Dev nD) : W4 m c main_v17 = o4 m c := by unfold W4; exact Function.update_self _ _ _
theorem W4_ne (c : Dev nD) (b : Ref sig .tc) (h : b ≠ main_v17) : W4 m c b = W3 m c b := by
  unfold W4; exact Function.update_of_ne (StableHlo.devRef_ne_of_ne h) _ _
/-- Before region 1: the host stretch `hostOps1` applied. -/
def W5 (c : Dev nD) : Valuation τ sig (Elt F) := StableHlo.after hostOps1 (W4 m c)
abbrev U5 : (c : Dev nD) → (b : Ref sig .tc) → Buf (Elt F) ((c : Thread nD τ).loc b) := fun c b => W5 m c b

/-- What region 1 leaves in its output array: the write-backs of its output window folded over the grid. -/
def o6 (c : Dev nD) : Buf (Elt F) ((c : Thread nD τ).loc main_v30) := (dat1 (U5 m) c).arrAt 4 cfg1.N
/-- After region 1: its output array replaced, every other buffer as entered. -/
def W6 (c : Dev nD) : Valuation τ sig (Elt F) := Function.update (W5 m c) main_v30 (o6 m c)
abbrev U6 : (c : Dev nD) → (b : Ref sig .tc) → Buf (Elt F) ((c : Thread nD τ).loc b) := fun c b => W6 m c b
theorem W6_out (c : Dev nD) : W6 m c main_v30 = o6 m c := by unfold W6; exact Function.update_self _ _ _
theorem W6_ne (c : Dev nD) (b : Ref sig .tc) (h : b ≠ main_v30) : W6 m c b = W5 m c b := by
  unfold W6; exact Function.update_of_ne (StableHlo.devRef_ne_of_ne h) _ _
/-- Before region 2: the host stretch `hostOps2` applied. -/
def W7 (c : Dev nD) : Valuation τ sig (Elt F) := StableHlo.after hostOps2 (W6 m c)
abbrev U7 : (c : Dev nD) → (b : Ref sig .tc) → Buf (Elt F) ((c : Thread nD τ).loc b) := fun c b => W7 m c b

/-- What region 2 leaves in its output array: the write-backs of its output window folded over the grid. -/
def o8 (c : Dev nD) : Buf (Elt F) ((c : Thread nD τ).loc main_v43) := (dat2 (U7 m) c).arrAt 4 cfg2.N
/-- After region 2: its output array replaced, every other buffer as entered. -/
def W8 (c : Dev nD) : Valuation τ sig (Elt F) := Function.update (W7 m c) main_v43 (o8 m c)
abbrev U8 : (c : Dev nD) → (b : Ref sig .tc) → Buf (Elt F) ((c : Thread nD τ).loc b) := fun c b => W8 m c b
theorem W8_out (c : Dev nD) : W8 m c main_v43 = o8 m c := by unfold W8; exact Function.update_self _ _ _
theorem W8_ne (c : Dev nD) (b : Ref sig .tc) (h : b ≠ main_v43) : W8 m c b = W7 m c b := by
  unfold W8; exact Function.update_of_ne (StableHlo.devRef_ne_of_ne h) _ _
/-- Before region 3: the host stretch `hostOps3` applied. -/
def W9 (c : Dev nD) : Valuation τ sig (Elt F) := StableHlo.after hostOps3 (W8 m c)
abbrev U9 : (c : Dev nD) → (b : Ref sig .tc) → Buf (Elt F) ((c : Thread nD τ).loc b) := fun c b => W9 m c b

/-- What region 3 leaves in its output array: the write-backs of its output window folded over the grid. -/
def o10 (c : Dev nD) : Buf (Elt F) ((c : Thread nD τ).loc main_v56) := (dat3 (U9 m) c).arrAt 4 cfg3.N
/-- After region 3: its output array replaced, every other buffer as entered. -/
def W10 (c : Dev nD) : Valuation τ sig (Elt F) := Function.update (W9 m c) main_v56 (o10 m c)
abbrev U10 : (c : Dev nD) → (b : Ref sig .tc) → Buf (Elt F) ((c : Thread nD τ).loc b) := fun c b => W10 m c b
theorem W10_out (c : Dev nD) : W10 m c main_v56 = o10 m c := by unfold W10; exact Function.update_self _ _ _
theorem W10_ne (c : Dev nD) (b : Ref sig .tc) (h : b ≠ main_v56) : W10 m c b = W9 m c b := by
  unfold W10; exact Function.update_of_ne (StableHlo.devRef_ne_of_ne h) _ _
/-- Before region 4: the host stretch `hostOps4` applied. -/
def W11 (c : Dev nD) : Valuation τ sig (Elt F) := StableHlo.after hostOps4 (W10 m c)
abbrev U11 : (c : Dev nD) → (b : Ref sig .tc) → Buf (Elt F) ((c : Thread nD τ).loc b) := fun c b => W11 m c b

/-- What region 4 leaves in its output array: the write-backs of its output window folded over the grid. -/
def o12 (c : Dev nD) : Buf (Elt F) ((c : Thread nD τ).loc main_v67) := (dat4 (U11 m) c).arrAt 3 cfg4.N
/-- After region 4: its output array replaced, every other buffer as entered. -/
def W12 (c : Dev nD) : Valuation τ sig (Elt F) := Function.update (W11 m c) main_v67 (o12 m c)
abbrev U12 : (c : Dev nD) → (b : Ref sig .tc) → Buf (Elt F) ((c : Thread nD τ).loc b) := fun c b => W12 m c b
theorem W12_out (c : Dev nD) : W12 m c main_v67 = o12 m c := by unfold W12; exact Function.update_self _ _ _
theorem W12_ne (c : Dev nD) (b : Ref sig .tc) (h : b ≠ main_v67) : W12 m c b = W11 m c b := by
  unfold W12; exact Function.update_of_ne (StableHlo.devRef_ne_of_ne h) _ _

/-- The contents the regions leave, as the conditional frame indexes them: item `J`'s contents are the fold's. -/
def outs : Outs (F := F) := fun J r c =>
  match J with
  | 4 => W4 m c r
  | 6 => W6 m c r
  | 8 => W8 m c r
  | 10 => W10 m c r
  | 12 => W12 m c r
  | _ => m ((c : Thread nD τ).loc r)

/-! The conditional frame's valuations, at these contents, are the fold. -/
theorem V4_eq (c : Dev nD) : V4 m (outs m) c = W4 m c := by
  show Function.update (V3 m c) main_v17 (W4 m c main_v17) = W4 m c
  rw [W4_out]; rfl
theorem V5_eq (c : Dev nD) : V5 m (outs m) c = W5 m c := by
  show StableHlo.after hostOps1 (V4 m (outs m) c) = W5 m c
  rw [V4_eq]; rfl
theorem V6_eq (c : Dev nD) : V6 m (outs m) c = W6 m c := by
  show Function.update (V5 m (outs m) c) main_v30 (W6 m c main_v30) = W6 m c
  rw [W6_out, V5_eq]; rfl
theorem V7_eq (c : Dev nD) : V7 m (outs m) c = W7 m c := by
  show StableHlo.after hostOps2 (V6 m (outs m) c) = W7 m c
  rw [V6_eq]; rfl
theorem V8_eq (c : Dev nD) : V8 m (outs m) c = W8 m c := by
  show Function.update (V7 m (outs m) c) main_v43 (W8 m c main_v43) = W8 m c
  rw [W8_out, V7_eq]; rfl
theorem V9_eq (c : Dev nD) : V9 m (outs m) c = W9 m c := by
  show StableHlo.after hostOps3 (V8 m (outs m) c) = W9 m c
  rw [V8_eq]; rfl
theorem V10_eq (c : Dev nD) : V10 m (outs m) c = W10 m c := by
  show Function.update (V9 m (outs m) c) main_v56 (W10 m c main_v56) = W10 m c
  rw [W10_out, V9_eq]; rfl
theorem V11_eq (c : Dev nD) : V11 m (outs m) c = W11 m c := by
  show StableHlo.after hostOps4 (V10 m (outs m) c) = W11 m c
  rw [V10_eq]; rfl
theorem V12_eq (c : Dev nD) : V12 m (outs m) c = W12 m c := by
  show Function.update (V11 m (outs m) c) main_v67 (W12 m c main_v67) = W12 m c
  rw [W12_out, V11_eq]; rfl

/-- Every pipeline's proof data, each at its region's entry contents: a literal match on the pipeline's number. -/
def pdats : (p : Fin 5) → (c : Dev nD) → Dat τ (Elt F) Unit ℕ (UR sig nD τ) ℕ (cfgs p) c
  | ⟨0, _⟩ => fun c => dat0 (U3 m) c
  | ⟨1, _⟩ => fun c => dat1 (U5 m) c
  | ⟨2, _⟩ => fun c => dat2 (U7 m) c
  | ⟨3, _⟩ => fun c => dat3 (U9 m) c
  | ⟨4, _⟩ => fun c => dat4 (U11 m) c
  | ⟨_ + 5, h⟩ => absurd h (Nat.not_lt.2 (Nat.le_add_left _ _))

end Cert.KernelIdeal.Gen

end
-- ==== Proof.KI.Regs.lean ====
/-
  Every kernel region of the program as a segment of its entry function: entered from the thread state "every unscoped
  buffer at the fold's contents before the region, the generator register at some state, nothing owed", left at the
  same with the fold's contents after it. A region's arrays are split out of the unscoped buffers on entry and put back
  on exit, its output array at what the pipeline's write-backs leave and every other buffer as entered; the scoped
  buffers the pipeline does not stage make the pipeline's invariant (for the pooling region with its accumulator held at
  the running partial sum); no kernel has a semaphore of its own and no core owes another anything.
-/
import proofs.«415797_j26783416058161_2_alg».proof.Proof.KI.Fold
import Idealize.ShloMosaic.Lib.Pipeline.RegionsLoop

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and its debts, none. -/
abbrev R (c : Dev nD) : sProp 𝕄 := iprop((∃ r, prngReg c r) ∗ ∃ W, owes (c : Thread nD τ) (0 : CellTallies nD τ sig Unit) W)

set_option maxHeartbeats 4000000 in
set_option backward.isDefEq.respectTransparency.types false in
/-- Region 0: entered from the fold's contents before it, left at the contents after it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X _ := BI.emp
  Y _ := BI.emp
  Z c := iprop(Pipeline.unscopedRest (Ix := Unit) (Name := ℕ) (U := UR sig nD τ) (Lvl := ℕ) spec0 c (U3 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N)
      (fun w => by
        fin_cases w
        · exact ((pdats m 0 c).arrAt_in 0 rfl _).trans (W4_ne m c main_arg0 (by decide)).symm
        · exact ((pdats m 0 c).arrAt_in 1 rfl _).trans (W4_ne m c main_arg3 (by decide)).symm
        · exact ((pdats m 0 c).arrAt_in 2 rfl _).trans (W4_ne m c main_v15 (by decide)).symm
        · exact (W4_out m c).symm)
      (fun b hb => W4_ne m c b fun h => hb (h ▸ Finset.mem_image.mpr ⟨3, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option maxHeartbeats 4000000 in
set_option backward.isDefEq.respectTransparency.types false in
/-- Region 1: entered from the fold's contents before it, left at the contents after it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X _ := BI.emp
  Y _ := BI.emp
  Z c := iprop(Pipeline.unscopedRest (Ix := Unit) (Name := ℕ) (U := UR sig nD τ) (Lvl := ℕ) spec1 c (U5 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N)
      (fun w => by
        fin_cases w
        · exact ((pdats m 1 c).arrAt_in 0 rfl _).trans (W6_ne m c main_v28 (by decide)).symm
        · exact ((pdats m 1 c).arrAt_in 1 rfl _).trans (W6_ne m c main_v15 (by decide)).symm
        · exact ((pdats m 1 c).arrAt_in 2 rfl _).trans (W6_ne m c main_v29 (by decide)).symm
        · exact ((pdats m 1 c).arrAt_in 3 rfl _).trans (W6_ne m c main_arg5 (by decide)).symm
        · exact (W6_out m c).symm)
      (fun b hb => W6_ne m c b fun h => hb (h ▸ Finset.mem_image.mpr ⟨4, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option maxHeartbeats 4000000 in
set_option backward.isDefEq.respectTransparency.types false in
/-- Region 2: entered from the fold's contents before it, left at the contents after it. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X _ := BI.emp
  Y _ := BI.emp
  Z c := iprop(Pipeline.unscopedRest (Ix := Unit) (Name := ℕ) (U := UR sig nD τ) (Lvl := ℕ) spec2 c (U7 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 2 c).Φ 0 = Pipeline.scopedRest (Ix := Unit) (Name := ℕ) (U := UR sig nD τ) (Lvl := ℕ) (Val := Elt F) spec2 c from rfl]
    iintro ⟨-, -, Hr⟩; iexact Hr
  hout c := by
    rw [Pipeline.ownSems0_none, show (pdats m 2 c).Φ (Fin.last _) = Pipeline.scopedRest (Ix := Unit) (Name := ℕ) (U := UR sig nD τ) (Lvl := ℕ) (Val := Elt F) spec2 c from rfl]
    iintro Hr
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U7 m c) (U8 m c) ((pdats m 2 c).arrAt · cfg2.N)
      (fun w => by
        fin_cases w
        · exact ((pdats m 2 c).arrAt_in 0 rfl _).trans (W8_ne m c main_v41 (by decide)).symm
        · exact ((pdats m 2 c).arrAt_in 1 rfl _).trans (W8_ne m c main_v15 (by decide)).symm
        · exact ((pdats m 2 c).arrAt_in 2 rfl _).trans (W8_ne m c main_v42 (by decide)).symm
        · exact ((pdats m 2 c).arrAt_in 3 rfl _).trans (W8_ne m c main_arg7 (by decide)).symm
        · exact (W8_out m c).symm)
      (fun b hb => W8_ne m c b fun h => hb (h ▸ Finset.mem_image.mpr ⟨4, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option maxHeartbeats 4000000 in
set_option backward.isDefEq.respectTransparency.types false in
/-- Region 3: entered from the fold's contents before it, left at the contents after it. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X _ := BI.emp
  Y _ := BI.emp
  Z c := iprop(Pipeline.unscopedRest (Ix := Unit) (Name := ℕ) (U := UR sig nD τ) (Lvl := ℕ) spec3 c (U9 m c) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 3 c).Φ 0 = (dat3 (U9 m) c).Φ 0 from rfl]
    iintro ⟨-, -, Hr⟩
    iapply (Phi3_in (U9 m) c)
    iexact Hr
  hout c := by
    rw [Pipeline.ownSems0_none, show (pdats m 3 c).Φ (Fin.last _) = (dat3 (U9 m) c).Φ (Fin.last cfg3.N) from rfl]
    iintro HP
    ihave Hr := (Phi3_out (U9 m) c) $$ HP
    isplitr; · iempintro
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U9 m c) (U10 m c) ((pdats m 3 c).arrAt · cfg3.N)
      (fun w => by
        fin_cases w
        · exact ((pdats m 3 c).arrAt_in 0 rfl _).trans (W10_ne m c main_v54 (by decide)).symm
        · exact ((pdats m 3 c).arrAt_in 1 rfl _).trans (W10_ne m c main_v15 (by decide)).symm
        · exact ((pdats m 3 c).arrAt_in 2 rfl _).trans (W10_ne m c main_v55 (by decide)).symm
        · exact ((pdats m 3 c).arrAt_in 3 rfl _).trans (W10_ne m c main_v16 (by decide)).symm
        · exact (W10_out m c).symm)
      (fun b hb => W10_ne m c b fun h => hb (h ▸ Finset.mem_image.mpr ⟨4, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option maxHeartbeats 4000000 in
set_option backward.isDefEq.respectTransparency.types false in
/-- Region 4: entered from the fold's contents before it, left at the contents after it. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X _ := BI.emp
  Y _ := BI.emp
  Z c := iprop(Pipeline.unscopedRest (Ix := Unit) (Name := ℕ) (U := UR sig nD τ) (Lvl := ℕ) spec4 c (U11 m c) ∗ ∃ r, prngReg c r)
  hentry c := by
    rw [Pipeline.ownSems0_none]
    have hsplit := Pipeline.arrays_of_unscopedBufs (p := 4) (pcfgs (F := F)) adm (pdats m) launch4.win launch4.arr_whole c
      ((pdats m 4 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 4 c).Φ 0 = Pipeline.scopedRest (Ix := Unit) (Name := ℕ) (U := UR sig nD τ) (Lvl := ℕ) (Val := Elt F) spec4 c from rfl]
    iintro ⟨-, -, Hr⟩; iexact Hr
  hout c := by
    rw [Pipeline.ownSems0_none, show (pdats m 4 c).Φ (Fin.last _) = Pipeline.scopedRest (Ix := Unit) (Name := ℕ) (U := UR sig nD τ) (Lvl := ℕ) (Val := Elt F) spec4 c from rfl]
    iintro Hr
    isplitr; · iempintro
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U11 m c) (U12 m c) ((pdats m 4 c).arrAt · cfg4.N)
      (fun w => by
        fin_cases w
        · exact ((pdats m 4 c).arrAt_in 0 rfl _).trans (W12_ne m c main_v65 (by decide)).symm
        · exact ((pdats m 4 c).arrAt_in 1 rfl _).trans (W12_ne m c main_arg9 (by decide)).symm
        · exact ((pdats m 4 c).arrAt_in 2 rfl _).trans (W12_ne m c main_v66 (by decide)).symm
        · exact (W12_out m c).symm)
      (fun b hb => W12_ne m c b fun h => hb (h ▸ Finset.mem_image.mpr ⟨3, Finset.mem_univ _, rfl⟩))
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Gen

end
-- ==== Proof.KI.Frame.lean ====
/-
  The frame of the whole program, at any float instance: from any launch memory with zero counters every weakly fair
  execution of the entry function terminates, nothing faulting, and every argument array ends as launched. It is the
  conditional frame over the five region segments, at the contents the fold names: the launch deals each core its generator
  register and an empty debt, which is all that rides beside the buffers; the chain's thread states are the fold's.
-/
import proofs.«415797_j26783416058161_2_alg».proof.Proof.KI.Regs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's own resource: the pipelines' cells and launch tokens, nothing else. -/
theorem launch_own : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb _ 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core makes what rides beside its buffers: the register at its launch state, an empty debt. -/
theorem launch_rides : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond (m := m) (Ix := Unit) (U := UR sig nD τ) (Lvl := ℕ) emb₁ () 𝒱₀ L lv (fun _ _ => rfl) ρ (outs m) (pdats m)
    (0 : Dev nD → CellTallies nD τ sig Unit) (fun _ => (BI.emp : sProp 𝕄)) (initOf (Pipeline.cells cfgs cellOf_inj) (Pipeline.launchToks cfgs cellOf_inj))
    launch_own (fun _ c => R c) (launch_rides ρ)
    (fun c => by iintro ⟨-, HO⟩; iexact HO)
    (reg0 m) (fun c => .rfl) (fun c => by rw [V4_eq]; exact .rfl)
    (reg1 m) (fun c => by rw [V5_eq]; exact .rfl) (fun c => by rw [V6_eq]; exact .rfl)
    (reg2 m) (fun c => by rw [V7_eq]; exact .rfl) (fun c => by rw [V8_eq]; exact .rfl)
    (reg3 m) (fun c => by rw [V9_eq]; exact .rfl) (fun c => by rw [V10_eq]; exact .rfl)
    (reg4 m) (fun c => by rw [V11_eq]; exact .rfl) (fun c => by rw [V12_eq]; exact .rfl)

end Cert.KernelIdeal.Gen

end
-- ==== Proof.KI.Run.lean ====
/-
  The run of the whole program with its result named, at any float instance: every weakly fair execution of the entry
  function terminates, nothing faulting, with the result array at what the fold names after the last region (the output
  layer's array) and every argument array as launched. The same launch as the frame's, over the conditional run that also
  reads the result off the last valuation.
-/
import proofs.«415797_j26783416058161_2_alg».proof.Proof.KI.Frame
import proofs.«415797_j26783416058161_2_alg».proof.Proof.KI.RunV

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, with the result array named by the fold. -/
theorem run_value : θ_run defs (onTc (τ := τ) (main (F := F))) ⟨m, fun _ => 0, ρ⟩ (fun r => ∀ c : Dev nD,
      r.2.mem ((c.tc : Thread nD τ).loc main_v67) = W12 m c main_v67
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (congrFun (V12_eq m c) _), (h c).2⟩)
    (run_cond (m := m) (Ix := Unit) (U := UR sig nD τ) (Lvl := ℕ) emb₁ () 𝒱₀ L lv (fun _ _ => rfl) ρ (outs m) (pdats m)
      (0 : Dev nD → CellTallies nD τ sig Unit) (fun _ => (BI.emp : sProp 𝕄)) (initOf (Pipeline.cells cfgs cellOf_inj) (Pipeline.launchToks cfgs cellOf_inj))
      launch_own (fun _ c => R c) (launch_rides ρ)
      (fun c => by iintro ⟨-, HO⟩; iexact HO)
      (reg0 m) (fun c => .rfl) (fun c => by rw [V4_eq]; exact .rfl)
      (reg1 m) (fun c => by rw [V5_eq]; exact .rfl) (fun c => by rw [V6_eq]; exact .rfl)
      (reg2 m) (fun c => by rw [V7_eq]; exact .rfl) (fun c => by rw [V8_eq]; exact .rfl)
      (reg3 m) (fun c => by rw [V9_eq]; exact .rfl) (fun c => by rw [V10_eq]; exact .rfl)
      (reg4 m) (fun c => by rw [V11_eq]; exact .rfl) (fun c => by rw [V12_eq]; exact .rfl))

end Cert.KernelIdeal.Gen

end
-- ==== Proof.Val.Spec.lean ====
import proofs.«415797_j26783416058161_2_alg».proof.KernelIdeal
import Idealize.ShloMosaic.PureOps.Ideal
import Idealize.ShloMosaic.Lib.ValueIdx

/-!
  What each kernel region computes, at the ideal instance (a float is an extended real, every operation exact, a change
  of float format the identity), as a function of the whole arrays the region reads, entry by entry over explicit
  coordinates. Nodes are rows `n < 100000`, features columns `f < 64`, graphs rows `g < 128`.
-/

noncomputable section

namespace Cert.Proof.Spec

open Idealize.ShloMosaic Idealize.ShloMosaic.ValueIdx Cert.KernelIdeal

/-- The array types, at the ideal instance. -/
abbrev Arr (S : Shape) (e : EltTy) : Type := (⟨S, e⟩ : BufTy).Contents (Elt Ideal)

/-- A layer's linear map followed by the source-side normalization: row `n` of `x · W`, times the row's factor
    `dv n` (the inverse square root of the node's degree). -/
def scaled (x : Arr S100000x64 .f32) (W : Arr S64x64 .f32) (dv : Arr S100000x1 .f32) (n : Fin 100000) (f : Fin 64) : EReal :=
  (∑ k : Fin 64, x (ix2 n k) * W (ix2 k f)) * dv (ix2 n (0 : Fin 1))

/-- What a layer's aggregation becomes before the next layer reads it: the target-side normalization, the bias, and the
    rectifier `max(·, 0)`. -/
def act (a : Arr S100000x64 .f32) (dv : Arr S100000x1 .f32) (b : Arr S1x64 .f32) (n : Fin 100000) (f : Fin 64) : EReal :=
  max (a (ix2 n f) * dv (ix2 n (0 : Fin 1)) + b (ix2 (0 : Fin 1) f)) 0

/-- The same as an array (what the next region's linear map is applied to). -/
def actArr (a : Arr S100000x64 .f32) (dv : Arr S100000x1 .f32) (b : Arr S1x64 .f32) : Arr S100000x64 .f32 :=
  fun i => act a dv b (i 0) (i 1)

/-- The pooling numerator: for graph `g`, the sum over the nodes whose graph id is `g` of the node's features —
    written, as the kernel computes it, with the indicator as a factor. -/
def pooled (h : Arr S100000x64 .f32) (bt : Arr S100000x1 .i32) (g : Fin 128) (f : Fin 64) : EReal :=
  ∑ n : Fin 100000, (if bt (ix2 n (0 : Fin 1)) = BitVec.ofNat 32 g.val then (1 : EReal) else 0) * h (ix2 n f)

/-- The output layer: `p · W + b`. -/
def lin (p : Arr S128x64 .f32) (W : Arr S64x32 .f32) (b : Arr S1x32 .f32) (g : Fin 128) (o : Fin 32) : EReal :=
  (∑ k : Fin 64, p (ix2 g k) * W (ix2 k o)) + b (ix2 (0 : Fin 1) o)

end Cert.Proof.Spec

end
-- ==== Proof.Val.KHost.lean ====
/-
  The host stretches of the kernel program as functions of the arrays they read: the edge lists with the
  self loops appended, the inverse square root of the in-degree, the start-index columns, one layer's
  neighbourhood sum of the scaled rows, the bias rows, and the division of the pooled sums by the graph
  sizes. One definition per value of the program, each the operation's own term over the definitions of
  the values it reads; the named functions at the end of each block are the values later stages refer to.
-/
import proofs.«415797_j26783416058161_2_alg».proof.KernelIdeal

noncomputable section

namespace Cert.KernelIdeal.Val

open Idealize.ShloMosaic Cert.KernelIdeal Cert.KernelIdeal.Facts₀

variable {F : FTy → Type} [FloatOps F] [Cert.KernelIdeal.Facts₀]

/-! ## The edge lists: rows 0 and 1 of the edge index, each followed by one self loop per node -/

/-- %0: row 0 of the edge index, as a [1, E] array. -/
def kv0 (ei : (⟨S2x1600000, .i32⟩ : BufTy).Contents (Elt F)) : (⟨S1x1600000, .i32⟩ : BufTy).Contents (Elt F) :=
  extractStridedSlice S1x1600000 ![0, 0] ei slices_S2x1600000_S1x1600000_0_0
/-- %1: the same as a vector. -/
def kv1 (ei : (⟨S2x1600000, .i32⟩ : BufTy).Contents (Elt F)) : (⟨S1600000, .i32⟩ : BufTy).Contents (Elt F) :=
  shapeCast _ (kv0 (F := F) ei) shapeCasts_S1x1600000_S1600000
/-- %2: row 1 of the edge index, as a [1, E] array. -/
def kv2 (ei : (⟨S2x1600000, .i32⟩ : BufTy).Contents (Elt F)) : (⟨S1x1600000, .i32⟩ : BufTy).Contents (Elt F) :=
  extractStridedSlice S1x1600000 ![1, 0] ei slices_S2x1600000_S1x1600000_1_0
/-- %3: the same as a vector. -/
def kv3 (ei : (⟨S2x1600000, .i32⟩ : BufTy).Contents (Elt F)) : (⟨S1600000, .i32⟩ : BufTy).Contents (Elt F) :=
  shapeCast _ (kv2 (F := F) ei) shapeCasts_S1x1600000_S1600000
/-- %4: the node numbers 0 … N − 1. -/
def kv4 : (⟨S100000, .i32⟩ : BufTy).Contents (Elt F) :=
  iotaInDim S100000 32 0
/-- %5: the sources, the self loops appended. -/
def kSrc (ei : (⟨S2x1600000, .i32⟩ : BufTy).Contents (Elt F)) : (⟨S1700000, .i32⟩ : BufTy).Contents (Elt F) :=
  concatenate S1700000 0 [⟨S1600000, (kv1 (F := F) ei)⟩, ⟨S100000, (kv4 (F := F))⟩] concatenates_S1600000_S100000_S1700000_d0
/-- %6: the targets, the self loops appended. -/
def kDst (ei : (⟨S2x1600000, .i32⟩ : BufTy).Contents (Elt F)) : (⟨S1700000, .i32⟩ : BufTy).Contents (Elt F) :=
  concatenate S1700000 0 [⟨S1600000, (kv3 (F := F) ei)⟩, ⟨S100000, (kv4 (F := F))⟩] concatenates_S1600000_S100000_S1700000_d0

/-! ## The inverse square root of the in-degree -/

/-- %cst: one. -/
def kcst : (⟨S_, .f32⟩ : BufTy).Contents (Elt F) :=
  constant S_ .f32 0x3F800000#32
/-- %7: a one per edge. -/
def kv7 : (⟨S1700000, .f32⟩ : BufTy).Contents (Elt F) :=
  broadcastInDim S1700000 ![] bcast_S_S1700000 (kcst (F := F))
/-- %cst_0: zero. -/
def kcst_0 : (⟨S_, .f32⟩ : BufTy).Contents (Elt F) :=
  constant S_ .f32 0x00000000#32
/-- %8: a zero per node. -/
def kv8 : (⟨S100000, .f32⟩ : BufTy).Contents (Elt F) :=
  broadcastInDim S100000 ![] bcast_S_S100000 (kcst_0 (F := F))
/-- %9: the targets as a column of scatter indices. -/
def kv9 (ei : (⟨S2x1600000, .i32⟩ : BufTy).Contents (Elt F)) : (⟨S1700000x1, .i32⟩ : BufTy).Contents (Elt F) :=
  broadcastInDim S1700000x1 ![0] bcast_S1700000_S1700000x1_0 (kDst (F := F) ei)
/-- %10: the in-degree, a sum of ones over the edges landing on each node. -/
def kv10 (ei : (⟨S2x1600000, .i32⟩ : BufTy).Contents (Elt F)) : (⟨S100000, .f32⟩ : BufTy).Contents (Elt F) :=
  Host.scatterAdd scatter_S100000_S1700000x1_S1700000_n_0_0_1 (kv8 (F := F)) (kv9 (F := F) ei) (kv7 (F := F))
/-- %cst_1: zero. -/
def kcst_1 : (⟨S_, .f32⟩ : BufTy).Contents (Elt F) :=
  constant S_ .f32 0x00000000#32
/-- %11: a zero per node. -/
def kv11 : (⟨S100000, .f32⟩ : BufTy).Contents (Elt F) :=
  broadcastInDim S100000 ![] bcast_S_S100000 (kcst_1 (F := F))
/-- %12: where the degree is positive. -/
def kv12 (ei : (⟨S2x1600000, .i32⟩ : BufTy).Contents (Elt F)) : (⟨S100000, .i1⟩ : BufTy).Contents (Elt F) :=
  cmpf .ogt (kv10 (F := F) ei) (kv11 (F := F))
/-- %13: the inverse square root of the degree. -/
def kv13 (ei : (⟨S2x1600000, .i32⟩ : BufTy).Contents (Elt F)) : (⟨S100000, .f32⟩ : BufTy).Contents (Elt F) :=
  Host.rsqrt (kv10 (F := F) ei)
/-- %cst_2: zero. -/
def kcst_2 : (⟨S_, .f32⟩ : BufTy).Contents (Elt F) :=
  constant S_ .f32 0x00000000#32
/-- The guard's first value: the zero, converted to its own type. -/
def kcall0_v0 : (⟨S_, .f32⟩ : BufTy).Contents (Elt F) :=
  id (kcst_2 (F := F))
/-- The guard's second value: a zero per node. -/
def kcall0_v1 : (⟨S100000, .f32⟩ : BufTy).Contents (Elt F) :=
  broadcastInDim S100000 ![] bcast_S_S100000 (kcall0_v0 (F := F))
/-- %14: the inverse square root where the degree is positive, zero elsewhere. -/
def kv14 (ei : (⟨S2x1600000, .i32⟩ : BufTy).Contents (Elt F)) : (⟨S100000, .f32⟩ : BufTy).Contents (Elt F) :=
  select (kv12 (F := F) ei) (kv13 (F := F) ei) (kcall0_v1 (F := F))
/-- %15: the same as a column. -/
def kDinv (ei : (⟨S2x1600000, .i32⟩ : BufTy).Contents (Elt F)) : (⟨S100000x1, .f32⟩ : BufTy).Contents (Elt F) :=
  shapeCast _ (kv14 (F := F) ei) shapeCasts_S100000_S100000x1
/-- %16: the graph ids as a column. -/
def kBatchCol (bt : (⟨S100000, .i32⟩ : BufTy).Contents (Elt F)) : (⟨S100000x1, .i32⟩ : BufTy).Contents (Elt F) :=
  shapeCast _ bt shapeCasts_S100000_S100000x1

/-! ## One layer's start indices and neighbourhood sum (the three layers print the same terms) -/

/-- %c: the integer zero. -/
def kc : (⟨S_, .i32⟩ : BufTy).Contents (Elt F) :=
  constantI S_ 32 0#32
/-- %18: a zero per edge. -/
def kv18 : (⟨S1700000, .i32⟩ : BufTy).Contents (Elt F) :=
  broadcastInDim S1700000 ![] bcast_S_S1700000 (kc (F := F))
/-- %19: where the source is negative. -/
def kv19 (ei : (⟨S2x1600000, .i32⟩ : BufTy).Contents (Elt F)) : (⟨S1700000, .i1⟩ : BufTy).Contents (Elt F) :=
  cmpi .slt (kSrc (F := F) ei) (kv18 (F := F))
/-- %c_3: the number of nodes. -/
def kc_3 : (⟨S_, .i32⟩ : BufTy).Contents (Elt F) :=
  constantI S_ 32 100000#32
/-- %20: the number of nodes per edge. -/
def kv20 : (⟨S1700000, .i32⟩ : BufTy).Contents (Elt F) :=
  broadcastInDim S1700000 ![] bcast_S_S1700000 (kc_3 (F := F))
/-- %21: the source plus the number of nodes. -/
def kv21 (ei : (⟨S2x1600000, .i32⟩ : BufTy).Contents (Elt F)) : (⟨S1700000, .i32⟩ : BufTy).Contents (Elt F) :=
  addi (kSrc (F := F) ei) (kv20 (F := F))
/-- %22: the source, a negative one wrapped. -/
def kv22 (ei : (⟨S2x1600000, .i32⟩ : BufTy).Contents (Elt F)) : (⟨S1700000, .i32⟩ : BufTy).Contents (Elt F) :=
  select (kv19 (F := F) ei) (kv21 (F := F) ei) (kSrc (F := F) ei)
/-- %23: the wrapped sources as a column of start indices. -/
def kIdxS (ei : (⟨S2x1600000, .i32⟩ : BufTy).Contents (Elt F)) : (⟨S1700000x1, .i32⟩ : BufTy).Contents (Elt F) :=
  broadcastInDim S1700000x1 ![0] bcast_S1700000_S1700000x1_0 (kv22 (F := F) ei)
/-- %24: the rows of `h` at the sources. -/
def kv24 (h : (⟨S100000x64, .bf16⟩ : BufTy).Contents (Elt F)) (ei : (⟨S2x1600000, .i32⟩ : BufTy).Contents (Elt F)) :
    (⟨S1700000x64, .bf16⟩ : BufTy).Contents (Elt F) :=
  Host.gather gather_S100000x64_S1700000x1_S1700000x64_1_0_n_n_0_1_164 h (kIdxS (F := F) ei)
/-- %25: the same in the wider format. -/
def kv25 (h : (⟨S100000x64, .bf16⟩ : BufTy).Contents (Elt F)) (ei : (⟨S2x1600000, .i32⟩ : BufTy).Contents (Elt F)) :
    (⟨S1700000x64, .f32⟩ : BufTy).Contents (Elt F) :=
  extf .f32 (kv24 (F := F) h ei) bitsLt_bf16_f32
/-- %cst_4: zero. -/
def kcst_4 : (⟨S_, .f32⟩ : BufTy).Contents (Elt F) :=
  constant S_ .f32 0x00000000#32
/-- %26: a zero per node and feature. -/
def kv26 : (⟨S100000x64, .f32⟩ : BufTy).Contents (Elt F) :=
  broadcastInDim S100000x64 ![] bcast_S_S100000x64 (kcst_4 (F := F))
/-- %27: the targets as a column of scatter indices. -/
def kIdxD (ei : (⟨S2x1600000, .i32⟩ : BufTy).Contents (Elt F)) : (⟨S1700000x1, .i32⟩ : BufTy).Contents (Elt F) :=
  broadcastInDim S1700000x1 ![0] bcast_S1700000_S1700000x1_0 (kDst (F := F) ei)
/-- %28: for each node, the sum of the rows of `h` at the sources of the edges landing on it. -/
def kAgg (h : (⟨S100000x64, .bf16⟩ : BufTy).Contents (Elt F)) (ei : (⟨S2x1600000, .i32⟩ : BufTy).Contents (Elt F)) :
    (⟨S100000x64, .f32⟩ : BufTy).Contents (Elt F) :=
  Host.scatterAdd scatter_S100000x64_S1700000x1_S1700000x64_1_0_0_1 (kv26 (F := F)) (kIdxD (F := F) ei) (kv25 (F := F) h ei)
/-- %29: a layer's bias as a row. -/
def kRow64 (b : (⟨S64, .f32⟩ : BufTy).Contents (Elt F)) : (⟨S1x64, .f32⟩ : BufTy).Contents (Elt F) :=
  shapeCast _ b shapeCasts_S64_S1x64

/-! ## The mean over each graph: the pooled sums divided by the graph sizes -/

/-- %cst_11: one. -/
def kcst_11 : (⟨S_, .f32⟩ : BufTy).Contents (Elt F) :=
  constant S_ .f32 0x3F800000#32
/-- %57: a one per node. -/
def kv57 : (⟨S100000, .f32⟩ : BufTy).Contents (Elt F) :=
  broadcastInDim S100000 ![] bcast_S_S100000 (kcst_11 (F := F))
/-- %cst_12: zero. -/
def kcst_12 : (⟨S_, .f32⟩ : BufTy).Contents (Elt F) :=
  constant S_ .f32 0x00000000#32
/-- %58: a zero per graph. -/
def kv58 : (⟨S128, .f32⟩ : BufTy).Contents (Elt F) :=
  broadcastInDim S128 ![] bcast_S_S128 (kcst_12 (F := F))
/-- %59: the graph ids as a column of scatter indices. -/
def kv59 (bt : (⟨S100000, .i32⟩ : BufTy).Contents (Elt F)) : (⟨S100000x1, .i32⟩ : BufTy).Contents (Elt F) :=
  broadcastInDim S100000x1 ![0] bcast_S100000_S100000x1_0 bt
/-- %60: the graph sizes, a sum of ones over the nodes of each graph. -/
def kv60 (bt : (⟨S100000, .i32⟩ : BufTy).Contents (Elt F)) : (⟨S128, .f32⟩ : BufTy).Contents (Elt F) :=
  Host.scatterAdd scatter_S128_S100000x1_S100000_n_0_0_1 (kv58 (F := F)) (kv59 (F := F) bt) (kv57 (F := F))
/-- %cst_13: one. -/
def kcst_13 : (⟨S_, .f32⟩ : BufTy).Contents (Elt F) :=
  constant S_ .f32 0x3F800000#32
/-- %61: a one per graph. -/
def kv61 : (⟨S128, .f32⟩ : BufTy).Contents (Elt F) :=
  broadcastInDim S128 ![] bcast_S_S128 (kcst_13 (F := F))
/-- %62: the graph sizes, at least one. -/
def kv62 (bt : (⟨S100000, .i32⟩ : BufTy).Contents (Elt F)) : (⟨S128, .f32⟩ : BufTy).Contents (Elt F) :=
  maximumf (kv60 (F := F) bt) (kv61 (F := F))
/-- %63: the same as a column. -/
def kv63 (bt : (⟨S100000, .i32⟩ : BufTy).Contents (Elt F)) : (⟨S128x1, .f32⟩ : BufTy).Contents (Elt F) :=
  broadcastInDim S128x1 ![0] bcast_S128_S128x1_0 (kv62 (F := F) bt)
/-- %64: the same along every feature. -/
def kv64 (bt : (⟨S100000, .i32⟩ : BufTy).Contents (Elt F)) : (⟨S128x64, .f32⟩ : BufTy).Contents (Elt F) :=
  broadcastInDim S128x64 ![0, 1] bcast_S128x1_S128x64_0_1 (kv63 (F := F) bt)
/-- %65: the pooled sums divided by the graph sizes. -/
def kDiv (ps : (⟨S128x64, .f32⟩ : BufTy).Contents (Elt F)) (bt : (⟨S100000, .i32⟩ : BufTy).Contents (Elt F)) :
    (⟨S128x64, .f32⟩ : BufTy).Contents (Elt F) :=
  Host.divf ps (kv64 (F := F) bt)
/-- %66: the output layer's bias as a row. -/
def kRow32 (b : (⟨S32, .f32⟩ : BufTy).Contents (Elt F)) : (⟨S1x32, .f32⟩ : BufTy).Contents (Elt F) :=
  shapeCast _ b shapeCasts_S32_S1x32

end Cert.KernelIdeal.Val

end
-- ==== Proof.Val.KerSide.lean ====
/-
  What the kernel program's buffers hold where each kernel region is entered, as the host functions applied to
  earlier contents. Between two regions a host stretch writes only its own results, and a region replaces only its
  output array; so an argument holds its launch contents throughout, and a value the leading stretches compute
  (the edge lists, the inverse square root of the in-degree, the graph ids' column) is still there when a later
  stretch or region reads it. Each window's array that a host stretch wrote is then that stretch's operations
  applied to the previous region's output and to the launch contents. Everything is stated at any float model.
-/
import proofs.«415797_j26783416058161_2_alg».proof.Proof.KI.Fold
import proofs.«415797_j26783416058161_2_alg».proof.Proof.Val.KHost
import proofs.«415797_j26783416058161_2_alg».proof.Proof.Gen.KernelIdeal.Regions
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.ShloMosaic.Tactic
open Cert.KernelIdeal Cert.KernelIdeal.Gen

variable {F : FTy → Type} [FloatOps F]

variable (m : (ℓ : Loc nD τ sig) → Buf (Elt F) ℓ)

/-! ## A reference an item does not write keeps its contents -/

/-- A host stretch leaves every reference outside its results alone. -/
theorem W5_of (c : Dev nD) (r : Ref sig .tc) (h : r ∉ hostOps1_W) : W5 m c r = W4 m c r :=
  StableHlo.after_of_writes_sub hostOps1 (W4 m c) hostOps1_writes h
theorem W7_of (c : Dev nD) (r : Ref sig .tc) (h : r ∉ hostOps2_W) : W7 m c r = W6 m c r :=
  StableHlo.after_of_writes_sub hostOps2 (W6 m c) hostOps2_writes h
theorem W9_of (c : Dev nD) (r : Ref sig .tc) (h : r ∉ hostOps3_W) : W9 m c r = W8 m c r :=
  StableHlo.after_of_writes_sub hostOps3 (W8 m c) hostOps3_writes h
theorem W11_of (c : Dev nD) (r : Ref sig .tc) (h : r ∉ hostOps4_W) : W11 m c r = W10 m c r :=
  StableHlo.after_of_writes_sub hostOps4 (W10 m c) hostOps4_writes h

/-- No item from region 0 on writes `r`: it is no region's output array and no later host stretch's result. -/
abbrev Unwritten (r : Ref sig .tc) : Prop :=
  r ≠ main_v17 ∧ r ∉ hostOps1_W ∧ r ≠ main_v30 ∧ r ∉ hostOps2_W ∧ r ≠ main_v43 ∧ r ∉ hostOps3_W ∧
    r ≠ main_v56 ∧ r ∉ hostOps4_W ∧ r ≠ main_v67

/-! Such a reference holds, at every later boundary, what it held where region 0 is entered: one step per item. -/
theorem keep_4 (c : Dev nD) (r : Ref sig .tc) (h : Unwritten r) : W4 m c r = W3 m c r :=
  W4_ne m c r h.1
theorem keep_5 (c : Dev nD) (r : Ref sig .tc) (h : Unwritten r) : W5 m c r = W3 m c r :=
  (W5_of m c r h.2.1).trans (keep_4 m c r h)
theorem keep_6 (c : Dev nD) (r : Ref sig .tc) (h : Unwritten r) : W6 m c r = W3 m c r :=
  (W6_ne m c r h.2.2.1).trans (keep_5 m c r h)
theorem keep_7 (c : Dev nD) (r : Ref sig .tc) (h : Unwritten r) : W7 m c r = W3 m c r :=
  (W7_of m c r h.2.2.2.1).trans (keep_6 m c r h)
theorem keep_8 (c : Dev nD) (r : Ref sig .tc) (h : Unwritten r) : W8 m c r = W3 m c r :=
  (W8_ne m c r h.2.2.2.2.1).trans (keep_7 m c r h)
theorem keep_9 (c : Dev nD) (r : Ref sig .tc) (h : Unwritten r) : W9 m c r = W3 m c r :=
  (W9_of m c r h.2.2.2.2.2.1).trans (keep_8 m c r h)
theorem keep_10 (c : Dev nD) (r : Ref sig .tc) (h : Unwritten r) : W10 m c r = W3 m c r :=
  (W10_ne m c r h.2.2.2.2.2.2.1).trans (keep_9 m c r h)
theorem keep_11 (c : Dev nD) (r : Ref sig .tc) (h : Unwritten r) : W11 m c r = W3 m c r :=
  (W11_of m c r h.2.2.2.2.2.2.2.1).trans (keep_10 m c r h)
theorem keep_12 (c : Dev nD) (r : Ref sig .tc) (h : Unwritten r) : W12 m c r = W3 m c r :=
  (W12_ne m c r h.2.2.2.2.2.2.2.2).trans (keep_11 m c r h)

/-! ## The arguments hold their launch contents at every boundary -/

/-- The entry function's arguments. -/
abbrev argRefs : List (Ref sig .tc) :=
  [main_arg0, main_arg1, main_arg2, main_arg3, main_arg4, main_arg5, main_arg6, main_arg7, main_arg8, main_arg9, main_arg10]

/-- None of the three leading stretches writes an argument. -/
theorem arg_lead : ∀ r ∈ argRefs, r ∉ hostOps0_W ∧ r ∉ hostOps0_1_W ∧ r ∉ hostOps0_2_W := by decide
/-- Nor does any later item. -/
theorem arg_unwritten : ∀ r ∈ argRefs, Unwritten r := by decide

theorem keep_3_arg (c : Dev nD) (r : Ref sig .tc) (hr : r ∈ argRefs) : W3 m c r = m ((c : Thread nD τ).loc r) :=
  (V3_of m c r (arg_lead r hr).2.2).trans <| (V2_of m c r (arg_lead r hr).2.1).trans <| (V1_of m c r (arg_lead r hr).1).trans rfl
theorem keep_4_arg (c : Dev nD) (r : Ref sig .tc) (hr : r ∈ argRefs) : W4 m c r = m ((c : Thread nD τ).loc r) :=
  (keep_4 m c r (arg_unwritten r hr)).trans (keep_3_arg m c r hr)
theorem keep_5_arg (c : Dev nD) (r : Ref sig .tc) (hr : r ∈ argRefs) : W5 m c r = m ((c : Thread nD τ).loc r) :=
  (keep_5 m c r (arg_unwritten r hr)).trans (keep_3_arg m c r hr)
theorem keep_6_arg (c : Dev nD) (r : Ref sig .tc) (hr : r ∈ argRefs) : W6 m c r = m ((c : Thread nD τ).loc r) :=
  (keep_6 m c r (arg_unwritten r hr)).trans (keep_3_arg m c r hr)
theorem keep_7_arg (c : Dev nD) (r : Ref sig .tc) (hr : r ∈ argRefs) : W7 m c r = m ((c : Thread nD τ).loc r) :=
  (keep_7 m c r (arg_unwritten r hr)).trans (keep_3_arg m c r hr)
theorem keep_8_arg (c : Dev nD) (r : Ref sig .tc) (hr : r ∈ argRefs) : W8 m c r = m ((c : Thread nD τ).loc r) :=
  (keep_8 m c r (arg_unwritten r hr)).trans (keep_3_arg m c r hr)
theorem keep_9_arg (c : Dev nD) (r : Ref sig .tc) (hr : r ∈ argRefs) : W9 m c r = m ((c : Thread nD τ).loc r) :=
  (keep_9 m c r (arg_unwritten r hr)).trans (keep_3_arg m c r hr)
theorem keep_10_arg (c : Dev nD) (r : Ref sig .tc) (hr : r ∈ argRefs) : W10 m c r = m ((c : Thread nD τ).loc r) :=
  (keep_10 m c r (arg_unwritten r hr)).trans (keep_3_arg m c r hr)
theorem keep_11_arg (c : Dev nD) (r : Ref sig .tc) (hr : r ∈ argRefs) : W11 m c r = m ((c : Thread nD τ).loc r) :=
  (keep_11 m c r (arg_unwritten r hr)).trans (keep_3_arg m c r hr)
theorem keep_12_arg (c : Dev nD) (r : Ref sig .tc) (hr : r ∈ argRefs) : W12 m c r = m ((c : Thread nD τ).loc r) :=
  (keep_12 m c r (arg_unwritten r hr)).trans (keep_3_arg m c r hr)

/-! The arguments the regions' windows read, each where its region is entered. -/
theorem keep_3_main_arg0 (c : Dev nD) : W3 m c main_arg0 = (m ((c : Thread nD τ).loc main_arg0)) := keep_3_arg m c main_arg0 (by decide)
theorem keep_3_main_arg3 (c : Dev nD) : W3 m c main_arg3 = (m ((c : Thread nD τ).loc main_arg3)) := keep_3_arg m c main_arg3 (by decide)
theorem keep_5_main_arg5 (c : Dev nD) : W5 m c main_arg5 = (m ((c : Thread nD τ).loc main_arg5)) := keep_5_arg m c main_arg5 (by decide)
theorem keep_7_main_arg7 (c : Dev nD) : W7 m c main_arg7 = (m ((c : Thread nD τ).loc main_arg7)) := keep_7_arg m c main_arg7 (by decide)
theorem keep_11_main_arg9 (c : Dev nD) : W11 m c main_arg9 = (m ((c : Thread nD τ).loc main_arg9)) := keep_11_arg m c main_arg9 (by decide)

/-! ## What the leading stretches compute -/

/-- The sources with the self loops, after the first stretch. -/
theorem src1 (c : Dev nD) : V1 m c main_v5 = kSrc (m ((c : Thread nD τ).loc main_arg1)) := by
  show StableHlo.after hostOps0 (V0 m c) (Proc.devRef .tc main_v5) = _
  after_results
  rfl
/-- The targets with the self loops, after the first stretch. -/
theorem dst1 (c : Dev nD) : V1 m c main_v6 = kDst (m ((c : Thread nD τ).loc main_arg1)) := by
  show StableHlo.after hostOps0 (V0 m c) (Proc.devRef .tc main_v6) = _
  after_results
  rfl
/-- The two later stretches before region 0 do not write them. -/
theorem src3 (c : Dev nD) : W3 m c main_v5 = kSrc (m ((c : Thread nD τ).loc main_arg1)) :=
  (V3_of m c main_v5 (by decide)).trans <| (V2_of m c main_v5 (by decide)).trans (src1 m c)
theorem dst3 (c : Dev nD) : W3 m c main_v6 = kDst (m ((c : Thread nD τ).loc main_arg1)) :=
  (V3_of m c main_v6 (by decide)).trans <| (V2_of m c main_v6 (by decide)).trans (dst1 m c)

/-- The inverse square root of the in-degree, as a column, where region 0 is entered: the three leading
    stretches' operations in order, from the launch contents of the edge index. -/
theorem dinv3 (c : Dev nD) : W3 m c main_v15 = kDinv (m ((c : Thread nD τ).loc main_arg1)) := by
  show StableHlo.after hostOps0_2 (StableHlo.after hostOps0_1 (StableHlo.after hostOps0 (V0 m c))) (Proc.devRef .tc main_v15) = _
  after_results
  rfl
/-- The graph ids' column where region 0 is entered: a reshape of the launch contents. -/
theorem bcol3 (c : Dev nD) : W3 m c main_v16 = kBatchCol (m ((c : Thread nD τ).loc main_arg2)) := by
  show StableHlo.after hostOps0_2 (StableHlo.after hostOps0_1 (StableHlo.after hostOps0 (V0 m c))) (Proc.devRef .tc main_v16) = _
  after_results
  rfl

/-! ## The leading stretches' values where later items read them -/

/-- The references the leading stretches write and a later item reads. -/
abbrev lateRefs : List (Ref sig .tc) := [main_v5, main_v6, main_v15, main_v16]
/-- No item from region 0 on writes any of them. -/
theorem late_unwritten : ∀ r ∈ lateRefs, Unwritten r := by decide

/-! The inverse square root of the in-degree and the graph ids' column, where regions 1, 2, 3 and 4 are entered, are
    what they were where region 0 is entered. -/
theorem keep_5_main_v15 (c : Dev nD) : W5 m c main_v15 = W3 m c main_v15 := keep_5 m c main_v15 (late_unwritten _ (by decide))
theorem keep_7_main_v15 (c : Dev nD) : W7 m c main_v15 = W3 m c main_v15 := keep_7 m c main_v15 (late_unwritten _ (by decide))
theorem keep_9_main_v15 (c : Dev nD) : W9 m c main_v15 = W3 m c main_v15 := keep_9 m c main_v15 (late_unwritten _ (by decide))
theorem keep_11_main_v15 (c : Dev nD) : W11 m c main_v15 = W3 m c main_v15 := keep_11 m c main_v15 (late_unwritten _ (by decide))
theorem keep_5_main_v16 (c : Dev nD) : W5 m c main_v16 = W3 m c main_v16 := keep_5 m c main_v16 (late_unwritten _ (by decide))
theorem keep_7_main_v16 (c : Dev nD) : W7 m c main_v16 = W3 m c main_v16 := keep_7 m c main_v16 (late_unwritten _ (by decide))
theorem keep_9_main_v16 (c : Dev nD) : W9 m c main_v16 = W3 m c main_v16 := keep_9 m c main_v16 (late_unwritten _ (by decide))
theorem keep_11_main_v16 (c : Dev nD) : W11 m c main_v16 = W3 m c main_v16 := keep_11 m c main_v16 (late_unwritten _ (by decide))
/-! The edge lists likewise. -/
theorem keep_5_main_v5 (c : Dev nD) : W5 m c main_v5 = W3 m c main_v5 := keep_5 m c main_v5 (late_unwritten _ (by decide))
theorem keep_7_main_v5 (c : Dev nD) : W7 m c main_v5 = W3 m c main_v5 := keep_7 m c main_v5 (late_unwritten _ (by decide))
theorem keep_9_main_v5 (c : Dev nD) : W9 m c main_v5 = W3 m c main_v5 := keep_9 m c main_v5 (late_unwritten _ (by decide))
theorem keep_11_main_v5 (c : Dev nD) : W11 m c main_v5 = W3 m c main_v5 := keep_11 m c main_v5 (late_unwritten _ (by decide))
theorem keep_5_main_v6 (c : Dev nD) : W5 m c main_v6 = W3 m c main_v6 := keep_5 m c main_v6 (late_unwritten _ (by decide))
theorem keep_7_main_v6 (c : Dev nD) : W7 m c main_v6 = W3 m c main_v6 := keep_7 m c main_v6 (late_unwritten _ (by decide))
theorem keep_9_main_v6 (c : Dev nD) : W9 m c main_v6 = W3 m c main_v6 := keep_9 m c main_v6 (late_unwritten _ (by decide))
theorem keep_11_main_v6 (c : Dev nD) : W11 m c main_v6 = W3 m c main_v6 := keep_11 m c main_v6 (late_unwritten _ (by decide))

/-! The same as values: the windows of regions 1, 2 and 3 over the inverse square root of the in-degree, and region 3's
    over the graph ids' column. -/
theorem dinv5 (c : Dev nD) : W5 m c main_v15 = kDinv (m ((c : Thread nD τ).loc main_arg1)) := (keep_5_main_v15 m c).trans (dinv3 m c)
theorem dinv7 (c : Dev nD) : W7 m c main_v15 = kDinv (m ((c : Thread nD τ).loc main_arg1)) := (keep_7_main_v15 m c).trans (dinv3 m c)
theorem dinv9 (c : Dev nD) : W9 m c main_v15 = kDinv (m ((c : Thread nD τ).loc main_arg1)) := (keep_9_main_v15 m c).trans (dinv3 m c)
theorem bcol9 (c : Dev nD) : W9 m c main_v16 = kBatchCol (m ((c : Thread nD τ).loc main_arg2)) := (keep_9_main_v16 m c).trans (bcol3 m c)

/-! The edge lists where each layer's stretch reads them: after regions 0, 1 and 2. -/
theorem src4 (c : Dev nD) : W4 m c main_v5 = kSrc (m ((c : Thread nD τ).loc main_arg1)) := (keep_4 m c main_v5 (late_unwritten _ (by decide))).trans (src3 m c)
theorem dst4 (c : Dev nD) : W4 m c main_v6 = kDst (m ((c : Thread nD τ).loc main_arg1)) := (keep_4 m c main_v6 (late_unwritten _ (by decide))).trans (dst3 m c)
theorem src6 (c : Dev nD) : W6 m c main_v5 = kSrc (m ((c : Thread nD τ).loc main_arg1)) := (keep_6 m c main_v5 (late_unwritten _ (by decide))).trans (src3 m c)
theorem dst6 (c : Dev nD) : W6 m c main_v6 = kDst (m ((c : Thread nD τ).loc main_arg1)) := (keep_6 m c main_v6 (late_unwritten _ (by decide))).trans (dst3 m c)
theorem src8 (c : Dev nD) : W8 m c main_v5 = kSrc (m ((c : Thread nD τ).loc main_arg1)) := (keep_8 m c main_v5 (late_unwritten _ (by decide))).trans (src3 m c)
theorem dst8 (c : Dev nD) : W8 m c main_v6 = kDst (m ((c : Thread nD τ).loc main_arg1)) := (keep_8 m c main_v6 (late_unwritten _ (by decide))).trans (dst3 m c)

/-! ## Before region 1: the first layer's neighbourhood sum and bias row -/

/-- The stretch after region 0 gathers region 0's output at the wrapped sources and sums it over the edges landing on
    each node: its operations over region 0's output array and the edge lists, which no item has written since. -/
theorem agg5 (c : Dev nD) : W5 m c main_v28 = kAgg (o4 m c) (m ((c : Thread nD τ).loc main_arg1)) := by
  show StableHlo.after hostOps1 (W4 m c) (Proc.devRef .tc main_v28) = _
  after_results
  rw [W4_out, src4, dst4]
  rfl
/-- The first layer's bias as a row: a reshape of the argument's launch contents. -/
theorem row5 (c : Dev nD) : W5 m c main_v29 = kRow64 (m ((c : Thread nD τ).loc main_arg4)) := by
  show StableHlo.after hostOps1 (W4 m c) (Proc.devRef .tc main_v29) = _
  after_results
  rw [keep_4_arg m c main_arg4 (by decide)]
  rfl

/-! ## Before region 2: the second layer's neighbourhood sum and bias row -/

/-- The same operations over region 1's output array. -/
theorem agg7 (c : Dev nD) : W7 m c main_v41 = kAgg (o6 m c) (m ((c : Thread nD τ).loc main_arg1)) := by
  show StableHlo.after hostOps2 (W6 m c) (Proc.devRef .tc main_v41) = _
  after_results
  rw [W6_out, src6, dst6]
  rfl
theorem row7 (c : Dev nD) : W7 m c main_v42 = kRow64 (m ((c : Thread nD τ).loc main_arg6)) := by
  show StableHlo.after hostOps2 (W6 m c) (Proc.devRef .tc main_v42) = _
  after_results
  rw [keep_6_arg m c main_arg6 (by decide)]
  rfl

/-! ## Before region 3: the third layer's neighbourhood sum and bias row -/

/-- The same operations over region 2's output array. -/
theorem agg9 (c : Dev nD) : W9 m c main_v54 = kAgg (o8 m c) (m ((c : Thread nD τ).loc main_arg1)) := by
  show StableHlo.after hostOps3 (W8 m c) (Proc.devRef .tc main_v54) = _
  after_results
  rw [W8_out, src8, dst8]
  rfl
theorem row9 (c : Dev nD) : W9 m c main_v55 = kRow64 (m ((c : Thread nD τ).loc main_arg8)) := by
  show StableHlo.after hostOps3 (W8 m c) (Proc.devRef .tc main_v55) = _
  after_results
  rw [keep_8_arg m c main_arg8 (by decide)]
  rfl

/-! ## Before region 4: the pooled sums divided by the graph sizes, and the output layer's bias row -/

/-- The last stretch counts each graph's nodes from the graph ids' launch contents and divides region 3's pooled
    sums by the counts, each at least one. -/
theorem div11 (c : Dev nD) : W11 m c main_v65 = kDiv (o10 m c) (m ((c : Thread nD τ).loc main_arg2)) := by
  show StableHlo.after hostOps4 (W10 m c) (Proc.devRef .tc main_v65) = _
  after_results
  rw [W10_out, keep_10_arg m c main_arg2 (by decide)]
  rfl
theorem row11 (c : Dev nD) : W11 m c main_v66 = kRow32 (m ((c : Thread nD τ).loc main_arg10)) := by
  show StableHlo.after hostOps4 (W10 m c) (Proc.devRef .tc main_v66) = _
  after_results
  rw [keep_10_arg m c main_arg10 (by decide)]
  rfl

end Cert.KernelIdeal.Val

end
-- ==== Proof.Val.V0Pay.lean ====
/-
  The payload of region 0's one store, read at an index, at the ideal instance (a float is an extended real, a change
  of float format is the identity, a matrix product into a zero accumulator is the plain sum of products).

  The payload is: narrow the row block and the right operand, multiply them as matrices into zero, multiply each row
  by that row's scale (a [4000,1] column broadcast along the 64 features), narrow the result. At entry (p, f) that is
  (sum over k of x0 (p, k) * x1 (k, f)) * x2 (p, 0).
-/
import proofs.«415797_j26783416058161_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-! ## The matrix product's index maps, axis by axis

The product contracts axis 1 of the left operand with axis 0 of the right one: the left operand is read at (row of the
output, contracted index), the right one at (contracted index, column of the output). -/

theorem lhs0_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs0_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs0_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs0_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The matrix product into a zero accumulator, at entry (p, f): the sum over the 64 contracted indices. -/
theorem matmul0_apply (a : FVec Ideal S4000x64 .bf16) (b : FVec Ideal S64x64 .bf16) (p : Fin 4000) (f : Fin 64) :
    matmul dot_S4000x64_S64x64_S4000x64_1_0_0_1_n_n none a b (constant (F := Ideal) S4000x64 .f32 0x00000000#32) (ix2 p f)
      = ∑ k : Fin 64, a (ix2 p k) * b (ix2 k f) := by
  show FloatOps.matmul dot_S4000x64_S64x64_S4000x64_1_0_0_1_n_n none a b (constant (F := Ideal) S4000x64 .f32 0x00000000#32) (ix2 p f) = _
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p f) ((contrEquiv1 dot_S4000x64_S64x64_S4000x64_1_0_0_1_n_n 64 rfl rfl).symm k) = ix2 p k := funext fun ax => Fin.ext (by
    match ax with
    | ⟨0, _⟩ => exact lhs0_0 _ _
    | ⟨1, _⟩ => exact (lhs0_1 _ _).trans hk)
  have er : dot_S4000x64_S64x64_S4000x64_1_0_0_1_n_n.rhsIdx (ix2 p f) ((contrEquiv1 dot_S4000x64_S64x64_S4000x64_1_0_0_1_n_n 64 rfl rfl).symm k) = ix2 k f := funext fun ax => Fin.ext (by
    match ax with
    | ⟨0, _⟩ => exact (rhs0_0 _ _).trans hk
    | ⟨1, _⟩ => exact rhs0_1 _ _)
  rw [el, er]

/-- A [4000,1] column broadcast along the 64 features, at entry (p, f): the column's entry of row p. -/
theorem bcast0_apply {α : Type} (v : S4000x1.Idx → α) (p : Fin 4000) (f : Fin 64) :
    broadcastTo S4000x64 v broadcasts_S4000x1_S4000x64 (ix2 p f) = v (ix2 p (0 : Fin 1)) := by
  refine broadcastTo_apply v broadcasts_S4000x1_S4000x64 (ix2 p f) (ix2 p (0 : Fin 1)) fun ax => ?_
  match ax with
  | ⟨0, _⟩ => rfl
  | ⟨1, _⟩ => rfl

/-- The payload at entry (p, f). -/
theorem pay0_apply (x0 : Vec Ideal S4000x64 .f32) (x1 : Vec Ideal S64x64 .f32) (x2 : Vec Ideal S4000x1 .f32) (p : Fin 4000) (f : Fin 64) :
    k0_pay1 (F := Ideal) x0 x1 x2 (ix2 p f) = (∑ k : Fin 64, x0 (ix2 p k) * x1 (ix2 k f)) * x2 (ix2 p (0 : Fin 1)) := by
  unfold k0_pay1
  rw [truncf_apply, mulf_apply, matmul0_apply, bcast0_apply, shapeCast_self]
  rfl

end Cert.KernelIdeal.Val

end
-- ==== Proof.Val.V0.lean ====
/-
  The value of region 0 at the ideal instance: after the last grid point the region's output array holds, entry by
  entry, the row of (left operand times right operand) scaled by the row's factor, as a function of the WHOLE arrays
  the region read.

  Point t of the 25 stages rows 4000 t .. 4000 t + 3999 of the left operand and of the scale, the whole right operand,
  and writes back the same rows of the output. So what point t writes back is block t of one whole-array function;
  the 25 blocks tile the 100000 rows (row r is in block r / 4000), hence the array ends holding that function.
-/
import proofs.«415797_j26783416058161_2_alg».proof.Proof.KI.R0
import proofs.«415797_j26783416058161_2_alg».proof.Proof.Val.Spec
import proofs.«415797_j26783416058161_2_alg».proof.Proof.Val.V0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Cert.KernelIdeal Cert.KernelIdeal.Gen Cert.Proof.Spec
open Idealize.ShloMosaic.Pipeline (Dat Cfg Window)

variable (V : (c : Dev nD) → (b : Ref sig .tc) → Buf (Elt Ideal) ((c : Thread nD τ).loc b))

theorem zero_off0 : (![0, 0] : Fin 2 → Nat) = fun _ => 0 := funext fun a => by fin_cases a <;> rfl

/-- The whole-array function the output ends holding: entry (n, f) is the scaled row-by-matrix product of the arrays
    as the region finds them. -/
def whole0 (c : Dev nD) : Arr S100000x64 .bf16 :=
  fun i => scaled (V c main_arg0) (V c main_arg3) (V c main_v15) (i 0) (i 1)

/-- The printed index maps, decided over the grid: at point t the left operand's, the scale's and the output's row
    block is block t (of 25), the right operand's block is the whole array, and no window moves along the features. -/
theorem index_facts0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ t.val < 25 :=
  (by decide +kernel : ∀ t : Fin grid0.N, _)

/-- One entry of the payload over blocks that are restrictions of whole arrays. If the left operand's block reads row
    p at row n of its array, the right operand's block is the whole array, and the scale's block reads row p at row n,
    then the payload's entry (p, q) is the specification's entry (n, q). -/
theorem block_entry0 (A0 : Arr S100000x64 .f32) (A3 : Arr S64x64 .f32) (A15 : Arr S100000x1 .f32)
    (e0 : S4000x64.Idx → S100000x64.Idx) (e1 : S64x64.Idx → S64x64.Idx) (e2 : S4000x1.Idx → S100000x1.Idx)
    (n : Fin 100000) (p : Fin 4000) (q : Fin 64)
    (h0 : ∀ k : Fin 64, e0 (ix2 p k) = ix2 n k) (h1 : ∀ k : Fin 64, e1 (ix2 k q) = ix2 k q)
    (h2 : e2 (ix2 p (0 : Fin 1)) = ix2 n (0 : Fin 1)) :
    k0_pay1 (F := Ideal) (fun y => A0 (e0 y)) (fun y => A3 (e1 y)) (fun y => A15 (e2 y)) (ix2 p q) = scaled A0 A3 A15 n q := by
  rw [pay0_apply]
  unfold scaled
  simp only [h0, h1, h2]

/-- WHAT POINT t WRITES BACK is block t of the whole-array function. -/
theorem flushed0_eq (c : Dev nD) (t : Fin cfg0.N) :
    (dat0 (F := Ideal) V c).flushed 3 t = ((cfg0.win 3).blk t).view.read (Elt Ideal) (whole0 V c) := by
  show (cfg0.win 3).cut (cfg0.grid.coords t) ((dat0 (F := Ideal) V c).after 3 t) = _
  rw [after0_3]
  unfold out0_3
  rw [View.canon_unit_zero zero_off0]
  simp only [View.ld_unit_zero (S := S4000x64) zero_off0, View.ld_unit_zero (S := S64x64) zero_off0, View.ld_unit_zero (S := S4000x1) zero_off0]
  obtain ⟨e00, e01, e10, e11, e20, e21, e30, e31, ht⟩ := index_facts0 t
  funext j
  obtain ⟨p, q, rfl⟩ : ∃ (p : Fin 4000) (q : Fin 64), j = ix2 p q := ⟨j 0, j 1, eq_ix2 j⟩
  have hp : p.val < 4000 := p.isLt
  -- the row of the whole arrays that row p of block t is
  have hn : t.val * 4000 + p.val < 100000 := by omega
  -- each block's index, embedded in its array
  have h0 : ∀ k : Fin 64, ((cfg0.win 0).blk t).view.emb (ix2 p k) = (ix2 (⟨t.val * 4000 + p.val, hn⟩ : Fin 100000) k : S100000x64.Idx) := fun k => by
    funext a; apply Fin.ext
    match a with
    | ⟨0, _⟩ => show win0_0.index t (0 : Fin 2) * 4000 + 1 * p.val = t.val * 4000 + p.val; omega
    | ⟨1, _⟩ => show win0_0.index t (1 : Fin 2) * 64 + 1 * k.val = k.val; omega
  have h1 : ∀ k : Fin 64, ((cfg0.win 1).blk t).view.emb (ix2 k q) = (ix2 k q : S64x64.Idx) := fun k => by
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  have h2 : ((cfg0.win 2).blk t).view.emb (ix2 p (0 : Fin 1)) = (ix2 (⟨t.val * 4000 + p.val, hn⟩ : Fin 100000) (0 : Fin 1) : S100000x1.Idx) := by
    funext a; apply Fin.ext
    match a with
    | ⟨0, _⟩ => show win0_2.index t (0 : Fin 2) * 4000 + 1 * p.val = t.val * 4000 + p.val; omega
    | ⟨1, _⟩ => show win0_2.index t (1 : Fin 2) * 1 + 1 * 0 = 0; omega
  have h3 : ((cfg0.win 3).blk t).view.emb (ix2 p q) = (ix2 (⟨t.val * 4000 + p.val, hn⟩ : Fin 100000) q : S100000x64.Idx) := by
    funext a; apply Fin.ext
    match a with
    | ⟨0, _⟩ => show win0_3.index t (0 : Fin 2) * 4000 + 1 * p.val = t.val * 4000 + p.val; omega
    | ⟨1, _⟩ => show win0_3.index t (1 : Fin 2) * 64 + 1 * q.val = q.val; omega
  refine (block_entry0 (V c main_arg0) (V c main_arg3) (V c main_v15) ((cfg0.win 0).blk t).view.emb ((cfg0.win 1).blk t).view.emb
    ((cfg0.win 2).blk t).view.emb ⟨t.val * 4000 + p.val, hn⟩ p q h0 h1 h2).trans ?_
  show _ = whole0 V c (((cfg0.win 3).blk t).view.emb (ix2 p q))
  rw [h3]
  rfl

/-- An index of the output array is in point t's block iff each coordinate is in the block's range on its axis. -/
theorem mem_block0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v17).slice (win0_3.rect t)).set ↔ _
  rw [View.set_slice_whole, Rect.mem_set_unit]
  exact Iff.rfl

/-- The 25 row blocks tile the 100000 rows: row r is in the block of point r / 4000, which is written back. -/
theorem cover0 (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hN : (i 0).val / 4000 < cfg0.N := by show _ < grid0.N; rw [N_0]; omega
  refine ⟨⟨(i 0).val / 4000, hN⟩, flush0_3 _, ?_⟩
  rw [mem_block0]
  obtain ⟨-, -, -, -, -, -, e30, e31, -⟩ := index_facts0 ⟨(i 0).val / 4000, hN⟩
  intro a
  match a with
  | ⟨0, _⟩ =>
    show win0_3.index ⟨(i 0).val / 4000, hN⟩ (0 : Fin 2) * 4000 ≤ (i 0).val ∧ (i 0).val < win0_3.index ⟨(i 0).val / 4000, hN⟩ (0 : Fin 2) * 4000 + 4000
    rw [e30]; show (i 0).val / 4000 * 4000 ≤ (i 0).val ∧ (i 0).val < (i 0).val / 4000 * 4000 + 4000; omega
  | ⟨1, _⟩ =>
    show win0_3.index ⟨(i 0).val / 4000, hN⟩ (1 : Fin 2) * 64 ≤ (i 1).val ∧ (i 1).val < win0_3.index ⟨(i 0).val / 4000, hN⟩ (1 : Fin 2) * 64 + 64
    rw [e31]; omega

/-- THE ARRAY after the region's last point, entry by entry: the specification of the whole arrays the region read. -/
theorem final0 (c : Dev nD) (n : Fin 100000) (f : Fin 64) :
    (dat0 (F := Ideal) V c).arrAt 3 cfg0.N (ix2 n f) = scaled (V c main_arg0) (V c main_arg3) (V c main_v15) n f := by
  rw [(dat0 (F := Ideal) V c).arrAt_eq_of_cover 3 (whole0 V c) (fun t _ => flushed0_eq V c t) cover0]
  rfl

end Cert.KernelIdeal.Val

end
-- ==== Proof.Val.V1Pay.lean ====
/-
  REGION 1 (`cc1__fused_conv_kernel`), at the ideal instance: the body's payload read at one entry `(n, f)` of the
  [4000,64] block, over explicit coordinates.

  At the ideal instance a float is an extended real, a change of float format is the identity and a matmul into a zero
  accumulator is the plain sum of products, so the payload — the block scaled by the column, shifted by the row,
  rectified, multiplied by the [64,64] matrix and scaled by the column again — is
  `(∑ k, max (a (n,k) · d (n,0) + b (0,k)) 0 · W (k,f)) · d' (n,0)`.
-/
import proofs.«415797_j26783416058161_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.ValueIdx Cert.KernelIdeal Cert.KernelIdeal.Gen

/-! ## A column broadcast over many columns -/

/-- An `[a, 1]` array broadcast to `[a, b]` reads, at `(p, c)`, the operand's one column at row `p`. -/
theorem colBcast1 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matmul's index maps, axis by axis -/

/-- On the left operand's row axis the matmul reads the output's row; -/
theorem mmL1_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- on its column axis, the contraction's position; -/
theorem mmL1_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- on the right operand's row axis, the contraction's position; -/
theorem mmR1_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- on its column axis, the output's column. -/
theorem mmR1_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The matmul of a [4000,64] block by a [64,64] matrix into the zero accumulator, read at `(n, f)`: row `n` of
    the block against column `f` of the matrix. -/
theorem mmAt1 {φa φb : FTy} (A : FVec Ideal S4000x64 φa) (B : FVec Ideal S64x64 φb) (n : Fin 4000) (f : Fin 64) :
    matmul dot_S4000x64_S64x64_S4000x64_1_0_0_1_n_n none A B (constant (F := Ideal) S4000x64 .f32 0x00000000#32) (ix2 n f)
      = ∑ k : Fin 64, A (ix2 n k) * B (ix2 k f) := by
  show FloatOps.matmul dot_S4000x64_S64x64_S4000x64_1_0_0_1_n_n none A B (constant (F := Ideal) S4000x64 .f32 0x00000000#32) (ix2 n f) = _
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 n f) ((contrEquiv1 dot_S4000x64_S64x64_S4000x64_1_0_0_1_n_n 64 rfl rfl).symm k) = ix2 n k := funext fun a => Fin.ext (by
    match a with
    | ⟨0, _⟩ => exact mmL1_0 _ _
    | ⟨1, _⟩ => exact (mmL1_1 _ _).trans hk)
  have er : dot_S4000x64_S64x64_S4000x64_1_0_0_1_n_n.rhsIdx (ix2 n f) ((contrEquiv1 dot_S4000x64_S64x64_S4000x64_1_0_0_1_n_n 64 rfl rfl).symm k) = ix2 k f := funext fun a => Fin.ext (by
    match a with
    | ⟨0, _⟩ => exact (mmR1_0 _ _).trans hk
    | ⟨1, _⟩ => exact mmR1_1 _ _)
  rw [el, er]

/-! ## The payload at an entry -/

/-- The body's payload at entry `(n, f)` of the block, from the four inputs as read (the column read twice, `xb`
    before the matmul and `xe` after it). -/
theorem payAt1 (xa : Vec Ideal S4000x64 .f32) (xb : Vec Ideal S4000x1 .f32) (xc : Vec Ideal S1x64 .f32) (xd : Vec Ideal S64x64 .f32)
    (xe : Vec Ideal S4000x1 .f32) (n : Fin 4000) (f : Fin 64) :
    k1_pay1 xa xb xc xd xe (ix2 n f)
      = (∑ k : Fin 64, max (xa (ix2 n k) * xb (ix2 n (0 : Fin 1)) + xc (ix2 (0 : Fin 1) k)) 0 * xd (ix2 k f)) * xe (ix2 n (0 : Fin 1)) := by
  unfold k1_pay1
  simp only [shapeCast_self]
  rw [truncf_apply, mulf_apply, mmAt1, colBcast1]
  refine congrArg (· * xe (ix2 n (0 : Fin 1))) (Finset.sum_congr rfl fun k _ => ?_)
  rw [truncf_apply, truncf_apply, maximumf_apply, addf_apply, mulf_apply, broadcast_apply, colBcast1, broadcastTo_1b_ab_apply]
  show max _ (Ideal.ofBits .f32 0x00000000#32) * _ = _
  rw [Ideal.ofBits_zero_f32]

end Cert.KernelIdeal.Val

end
-- ==== Proof.Val.V1.lean ====
/-
  REGION 1 (`cc1__fused_conv_kernel`), at the ideal instance: the array the pipeline leaves in the region's output
  window after the last grid point is, entry by entry, the specification's function of the WHOLE arrays the region read:
  `(max(a · d + b, 0) · W) · d` — the layer's linear map and source-side normalization applied to the rectified,
  normalized, shifted aggregation.

  The grid's point `t` works on rows `4000 t … 4000 t + 3999`: the [4000,64] and [4000,1] windows' blocks there are
  those rows of their arrays, the [1,64] row and the [64,64] matrix are whole at every point, and the output's block
  there is those rows of the result. So what point `t` writes back is block `t` of one function of the arrays
  (`flushed1`), the 25 blocks cover the 100000 rows (`cover1`: row `r` is in block `r / 4000`), and the array ends
  holding that function (`final1`).
-/
import proofs.«415797_j26783416058161_2_alg».proof.Proof.KI.R1
import proofs.«415797_j26783416058161_2_alg».proof.Proof.Val.Spec
import proofs.«415797_j26783416058161_2_alg».proof.Proof.Val.V1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.Proof.Spec
open Idealize.ShloMosaic.Pipeline (Dat)

-- the TensorCore's buffer contents when the region is entered
variable (V : (c : Dev nD) → (b : Ref sig .tc) → Buf (Elt Ideal) ((c : Thread nD τ).loc b))

/-- The body's accesses are at zero offsets. -/
theorem zeroOff1 : (![0, 0] : Fin 2 → Nat) = fun _ => 0 := funext fun a => by fin_cases a <;> rfl

/-- The printed index maps, decided over the grid: the row-blocked windows (the two inputs and the output) are at
    block `(t, 0)` at point `t`, the row and the matrix at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the output window's array ends holding: the specification's function of the arrays the region reads. -/
def valArr1 (c : Dev nD) : Buf (Elt Ideal) ((cfg1.win 4).arr.view.loc (c.tc : Thread nD τ)) :=
  fun (i : S100000x64.Idx) => scaled (actArr (V c (Pipeline.arrRef spec1 0)) (V c (Pipeline.arrRef spec1 1)) (V c (Pipeline.arrRef spec1 2))) (V c (Pipeline.arrRef spec1 3)) (V c (Pipeline.arrRef spec1 1)) (i 0) (i 1)

/-! ## Each input block, read at an entry, is an entry of its array -/

/-- The [4000,64] window's block at point `t` is rows `4000 t …` of its array. -/
theorem blockOf1_0 (c : Dev nD) (t : Fin cfg1.N) (x : S4000x64.Idx) (k : S100000x64.Idx)
    (hk0 : (k 0).val = 4000 * t.val + (x 0).val) (hk1 : (k 1).val = (x 1).val) :
    (iblk1 V c 0 t : Vec Ideal S4000x64 .f32) x = ((V c (Pipeline.arrRef spec1 0)) : S100000x64.Idx → Elt Ideal .f32) k := by
  obtain ⟨e0, e1, -⟩ := idx1 t
  unfold iblk1
  rw [View.read_apply]
  show (V c (Pipeline.arrRef spec1 0)) _ = (V c (Pipeline.arrRef spec1 0)) _
  congr 1
  funext a
  apply Fin.ext
  match a with
  | ⟨0, _⟩ => show win1_0.index t (0 : Fin 2) * 4000 + 1 * (x 0).val = (k 0).val; rw [e0, hk0]; omega
  | ⟨1, _⟩ => show win1_0.index t (1 : Fin 2) * 64 + 1 * (x 1).val = (k 1).val; rw [e1, hk1]; omega

/-- The [4000,1] window's block at point `t` is rows `4000 t …` of its column. -/
theorem blockOf1_1 (c : Dev nD) (t : Fin cfg1.N) (x : S4000x1.Idx) (k : S100000x1.Idx)
    (hk0 : (k 0).val = 4000 * t.val + (x 0).val) (hk1 : (k 1).val = (x 1).val) :
    (iblk1 V c 1 t : Vec Ideal S4000x1 .f32) x = ((V c (Pipeline.arrRef spec1 1)) : S100000x1.Idx → Elt Ideal .f32) k := by
  obtain ⟨-, -, e0, e1, -⟩ := idx1 t
  unfold iblk1
  rw [View.read_apply]
  show (V c (Pipeline.arrRef spec1 1)) _ = (V c (Pipeline.arrRef spec1 1)) _
  congr 1
  funext a
  apply Fin.ext
  match a with
  | ⟨0, _⟩ => show win1_1.index t (0 : Fin 2) * 4000 + 1 * (x 0).val = (k 0).val; rw [e0, hk0]; omega
  | ⟨1, _⟩ => show win1_1.index t (1 : Fin 2) * 1 + 1 * (x 1).val = (k 1).val; rw [e1, hk1]; omega

/-- The [1,64] window's block at any point is its whole row. -/
theorem blockOf1_2 (c : Dev nD) (t : Fin cfg1.N) (x : S1x64.Idx) :
    (iblk1 V c 2 t : Vec Ideal S1x64 .f32) x = ((V c (Pipeline.arrRef spec1 2)) : S1x64.Idx → Elt Ideal .f32) x := by
  obtain ⟨-, -, -, -, e0, e1, -⟩ := idx1 t
  unfold iblk1
  rw [View.read_apply]
  show (V c (Pipeline.arrRef spec1 2)) _ = (V c (Pipeline.arrRef spec1 2)) _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 64 + 1 * (x 1).val = (x 1).val; rw [e1]; omega

/-- The [64,64] window's block at any point is its whole matrix. -/
theorem blockOf1_3 (c : Dev nD) (t : Fin cfg1.N) (x : S64x64.Idx) :
    (iblk1 V c 3 t : Vec Ideal S64x64 .f32) x = ((V c (Pipeline.arrRef spec1 3)) : S64x64.Idx → Elt Ideal .f32) x := by
  obtain ⟨-, -, -, -, -, -, e0, e1, -⟩ := idx1 t
  unfold iblk1
  rw [View.read_apply]
  show (V c (Pipeline.arrRef spec1 3)) _ = (V c (Pipeline.arrRef spec1 3)) _
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-! ## The payload of a point's blocks, at an entry -/

/-- At point `t`, entry `(n, f)` of the payload over the point's input blocks is the specification at row
    `r = 4000 t + n` and column `f`. -/
theorem blockAt1 (c : Dev nD) (t : Fin cfg1.N) (n : Fin 4000) (f : Fin 64) (r : Fin 100000) (hr : r.val = 4000 * t.val + n.val) :
    k1_pay1 (iblk1 V c 0 t) (iblk1 V c 1 t) (iblk1 V c 2 t) (iblk1 V c 3 t) (iblk1 V c 1 t) (ix2 n f)
      = scaled (actArr (V c (Pipeline.arrRef spec1 0)) (V c (Pipeline.arrRef spec1 1)) (V c (Pipeline.arrRef spec1 2))) (V c (Pipeline.arrRef spec1 3)) (V c (Pipeline.arrRef spec1 1)) r f := by
  rw [payAt1]
  unfold scaled actArr act
  rw [blockOf1_1 V c t (ix2 n (0 : Fin 1)) (ix2 r (0 : Fin 1)) hr rfl]
  refine congrArg (· * _) (Finset.sum_congr rfl fun k _ => ?_)
  rw [blockOf1_0 V c t (ix2 n k) (ix2 r k) hr rfl, blockOf1_2 V c t (ix2 (0 : Fin 1) k), blockOf1_3 V c t (ix2 k f)]

/-! ## From blocks to the array -/

/-- WHAT POINT `t` WRITES BACK is block `t` of `valArr1`. -/
theorem flushed1 (c : Dev nD) (t : Fin cfg1.N) :
    (dat1 (F := Ideal) V c).flushed 4 t = ((cfg1.win 4).blk t).view.read (Elt Ideal) (valArr1 V c) := by
  show (cfg1.win 4).cut (cfg1.grid.coords t) ((dat1 (F := Ideal) V c).after 4 t) = _
  rw [after1_4]
  unfold out1_4
  rw [View.canon_unit_zero zeroOff1]
  simp only [View.ld_unit_zero (S := S4000x64) zeroOff1, View.ld_unit_zero (S := S4000x1) zeroOff1,
    View.ld_unit_zero (S := S1x64) zeroOff1, View.ld_unit_zero (S := S64x64) zeroOff1]
  obtain ⟨-, -, -, -, -, -, -, -, e0, e1⟩ := idx1 t
  refine funext fun (j : S4000x64.Idx) => ?_
  obtain ⟨n, f, rfl⟩ : ∃ (n : Fin 4000) (f : Fin 64), j = ix2 n f := ⟨j 0, j 1, eq_ix2 j⟩
  have hN : t.val < 25 := Nat.lt_of_lt_of_eq t.isLt (N_1 : cfg1.N = 25)
  have hemb : ((cfg1.win 4).blk t).view.emb (ix2 n f) = (ix2 (⟨4000 * t.val + n.val, by have := n.isLt; omega⟩ : Fin 100000) f : S100000x64.Idx) := by
    funext a
    apply Fin.ext
    match a with
    | ⟨0, _⟩ => show win1_4.index t (0 : Fin 2) * 4000 + 1 * n.val = 4000 * t.val + n.val; rw [e0]; omega
    | ⟨1, _⟩ => show win1_4.index t (1 : Fin 2) * 64 + 1 * f.val = f.val; rw [e1]; omega
  rw [View.read_apply, hemb]
  exact blockAt1 V c t n f _ rfl

/-- An index of the array is in point `t`'s block iff each coordinate is in the block's range on its axis. -/
theorem memBlk1 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole (Pipeline.arrRef spec1 4)).slice (win1_4.rect t)).set ↔ _
  rw [View.set_slice_whole, Rect.mem_set_unit]
  exact Iff.rfl

/-- The output's 25 blocks cover its 100000 rows: row `r` is in the block of point `r / 4000`. -/
theorem cover1 (c : Dev nD) (i : ((cfg1.win 4).arr.view.loc (c.tc : Thread nD τ)).2.ty.Idx) :
    ∃ t : Fin cfg1.N, (cfg1.win 4).flush t = true ∧ i ∈ ((cfg1.win 4).blk t).view.set := by
  have hi0 : ((i : S100000x64.Idx) 0).val < 100000 := ((i : S100000x64.Idx) 0).isLt
  have hi1 : ((i : S100000x64.Idx) 1).val < 64 := ((i : S100000x64.Idx) 1).isLt
  let t : Fin cfg1.N := ⟨((i : S100000x64.Idx) 0).val / 4000, by rw [show cfg1.N = 25 from N_1]; omega⟩
  obtain ⟨-, -, -, -, -, -, -, -, e0, e1⟩ := idx1 t
  refine ⟨t, flush1_4 t, ?_⟩
  rw [memBlk1]
  intro a
  match a with
  | ⟨0, _⟩ =>
    show win1_4.index t (0 : Fin 2) * 4000 ≤ ((i : S100000x64.Idx) 0).val ∧ ((i : S100000x64.Idx) 0).val < win1_4.index t (0 : Fin 2) * 4000 + 4000
    rw [e0]; show ((i : S100000x64.Idx) 0).val / 4000 * 4000 ≤ _ ∧ _ < ((i : S100000x64.Idx) 0).val / 4000 * 4000 + 4000; omega
  | ⟨1, _⟩ =>
    show win1_4.index t (1 : Fin 2) * 64 ≤ ((i : S100000x64.Idx) 1).val ∧ ((i : S100000x64.Idx) 1).val < win1_4.index t (1 : Fin 2) * 64 + 64
    rw [e1]; omega

/-- THE ARRAY after the last point, entry by entry: the specification of the arrays the region read. -/
theorem final1 (V : (c : Dev nD) → (b : Ref sig .tc) → Buf (Elt Ideal) ((c : Thread nD τ).loc b)) (c : Dev nD) (n : Fin 100000) (f : Fin 64) :
    (dat1 (F := Ideal) V c).arrAt 4 cfg1.N (ix2 n f)
      = scaled (actArr (V c (Pipeline.arrRef spec1 0)) (V c (Pipeline.arrRef spec1 1)) (V c (Pipeline.arrRef spec1 2))) (V c (Pipeline.arrRef spec1 3)) (V c (Pipeline.arrRef spec1 1)) n f := by
  rw [(dat1 (F := Ideal) V c).arrAt_eq_of_cover 4 (valArr1 V c) (fun t _ => flushed1 V c t) (cover1 c)]
  rfl

end Cert.KernelIdeal.Val

end
-- ==== Proof.Val.V2Pay.lean ====
/-
  REGION 2 (`cc2__fused_conv_kernel`), at the ideal instance: the body's payload read at one entry `(n, f)` of the
  [4000,64] block, over explicit coordinates.

  At the ideal instance a float is an extended real, a change of float format is the identity and a matmul into a zero
  accumulator is the plain sum of products, so the payload — the block scaled by the column, shifted by the row,
  rectified, multiplied by the [64,64] matrix and scaled by the column again — is
  `(∑ k, max (a (n,k) · d (n,0) + b (0,k)) 0 · W (k,f)) · d' (n,0)`.
-/
import proofs.«415797_j26783416058161_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.ValueIdx Cert.KernelIdeal Cert.KernelIdeal.Gen

/-! ## A column broadcast over many columns -/

/-- An `[a, 1]` array broadcast to `[a, b]` reads, at `(p, c)`, the operand's one column at row `p`. -/
theorem colBcast2 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matmul's index maps, axis by axis -/

/-- On the left operand's row axis the matmul reads the output's row; -/
theorem mmL2_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
/-- on its column axis, the contraction's position; -/
theorem mmL2_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
/-- on the right operand's row axis, the contraction's position; -/
theorem mmR2_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
/-- on its column axis, the output's column. -/
theorem mmR2_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The matmul of a [4000,64] block by a [64,64] matrix into the zero accumulator, read at `(n, f)`: row `n` of
    the block against column `f` of the matrix. -/
theorem mmAt2 {φa φb : FTy} (A : FVec Ideal S4000x64 φa) (B : FVec Ideal S64x64 φb) (n : Fin 4000) (f : Fin 64) :
    matmul dot_S4000x64_S64x64_S4000x64_1_0_0_1_n_n none A B (constant (F := Ideal) S4000x64 .f32 0x00000000#32) (ix2 n f)
      = ∑ k : Fin 64, A (ix2 n k) * B (ix2 k f) := by
  show FloatOps.matmul dot_S4000x64_S64x64_S4000x64_1_0_0_1_n_n none A B (constant (F := Ideal) S4000x64 .f32 0x00000000#32) (ix2 n f) = _
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 n f) ((contrEquiv1 dot_S4000x64_S64x64_S4000x64_1_0_0_1_n_n 64 rfl rfl).symm k) = ix2 n k := funext fun a => Fin.ext (by
    match a with
    | ⟨0, _⟩ => exact mmL2_0 _ _
    | ⟨1, _⟩ => exact (mmL2_1 _ _).trans hk)
  have er : dot_S4000x64_S64x64_S4000x64_1_0_0_1_n_n.rhsIdx (ix2 n f) ((contrEquiv1 dot_S4000x64_S64x64_S4000x64_1_0_0_1_n_n 64 rfl rfl).symm k) = ix2 k f := funext fun a => Fin.ext (by
    match a with
    | ⟨0, _⟩ => exact (mmR2_0 _ _).trans hk
    | ⟨1, _⟩ => exact mmR2_1 _ _)
  rw [el, er]

/-! ## The payload at an entry -/

/-- The body's payload at entry `(n, f)` of the block, from the four inputs as read (the column read twice, `xb`
    before the matmul and `xe` after it). -/
theorem payAt2 (xa : Vec Ideal S4000x64 .f32) (xb : Vec Ideal S4000x1 .f32) (xc : Vec Ideal S1x64 .f32) (xd : Vec Ideal S64x64 .f32)
    (xe : Vec Ideal S4000x1 .f32) (n : Fin 4000) (f : Fin 64) :
    k2_pay1 xa xb xc xd xe (ix2 n f)
      = (∑ k : Fin 64, max (xa (ix2 n k) * xb (ix2 n (0 : Fin 1)) + xc (ix2 (0 : Fin 1) k)) 0 * xd (ix2 k f)) * xe (ix2 n (0 : Fin 1)) := by
  unfold k2_pay1
  simp only [shapeCast_self]
  rw [truncf_apply, mulf_apply, mmAt2, colBcast2]
  refine congrArg (· * xe (ix2 n (0 : Fin 1))) (Finset.sum_congr rfl fun k _ => ?_)
  rw [truncf_apply, truncf_apply, maximumf_apply, addf_apply, mulf_apply, broadcast_apply, colBcast2, broadcastTo_1b_ab_apply]
  show max _ (Ideal.ofBits .f32 0x00000000#32) * _ = _
  rw [Ideal.ofBits_zero_f32]

end Cert.KernelIdeal.Val

end
-- ==== Proof.Val.V2.lean ====
/-
  REGION 2 (`cc2__fused_conv_kernel`), at the ideal instance: the array the pipeline leaves in the region's output
  window after the last grid point is, entry by entry, the specification's function of the WHOLE arrays the region read:
  `(max(a · d + b, 0) · W) · d` — the layer's linear map and source-side normalization applied to the rectified,
  normalized, shifted aggregation.

  The grid's point `t` works on rows `4000 t … 4000 t + 3999`: the [4000,64] and [4000,1] windows' blocks there are
  those rows of their arrays, the [1,64] row and the [64,64] matrix are whole at every point, and the output's block
  there is those rows of the result. So what point `t` writes back is block `t` of one function of the arrays
  (`flushed2`), the 25 blocks cover the 100000 rows (`cover2`: row `r` is in block `r / 4000`), and the array ends
  holding that function (`final2`).
-/
import proofs.«415797_j26783416058161_2_alg».proof.Proof.KI.R2
import proofs.«415797_j26783416058161_2_alg».proof.Proof.Val.Spec
import proofs.«415797_j26783416058161_2_alg».proof.Proof.Val.V2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem
open Cert.KernelIdeal Cert.KernelIdeal.Gen Cert.Proof.Spec
open Idealize.ShloMosaic.Pipeline (Dat)

-- the TensorCore's buffer contents when the region is entered
variable (V : (c : Dev nD) → (b : Ref sig .tc) → Buf (Elt Ideal) ((c : Thread nD τ).loc b))

/-- The body's accesses are at zero offsets. -/
theorem zeroOff2 : (![0, 0] : Fin 2 → Nat) = fun _ => 0 := funext fun a => by fin_cases a <;> rfl

/-- The printed index maps, decided over the grid: the row-blocked windows (the two inputs and the output) are at
    block `(t, 0)` at point `t`, the row and the matrix at block `(0, 0)`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What the output window's array ends holding: the specification's function of the arrays the region reads. -/
def valArr2 (c : Dev nD) : Buf (Elt Ideal) ((cfg2.win 4).arr.view.loc (c.tc : Thread nD τ)) :=
  fun (i : S100000x64.Idx) => scaled (actArr (V c (Pipeline.arrRef spec2 0)) (V c (Pipeline.arrRef spec2 1)) (V c (Pipeline.arrRef spec2 2))) (V c (Pipeline.arrRef spec2 3)) (V c (Pipeline.arrRef spec2 1)) (i 0) (i 1)

/-! ## Each input block, read at an entry, is an entry of its array -/

/-- The [4000,64] window's block at point `t` is rows `4000 t …` of its array. -/
theorem blockOf2_0 (c : Dev nD) (t : Fin cfg2.N) (x : S4000x64.Idx) (k : S100000x64.Idx)
    (hk0 : (k 0).val = 4000 * t.val + (x 0).val) (hk1 : (k 1).val = (x 1).val) :
    (iblk2 V c 0 t : Vec Ideal S4000x64 .f32) x = ((V c (Pipeline.arrRef spec2 0)) : S100000x64.Idx → Elt Ideal .f32) k := by
  obtain ⟨e0, e1, -⟩ := idx2 t
  unfold iblk2
  rw [View.read_apply]
  show (V c (Pipeline.arrRef spec2 0)) _ = (V c (Pipeline.arrRef spec2 0)) _
  congr 1
  funext a
  apply Fin.ext
  match a with
  | ⟨0, _⟩ => show win2_0.index t (0 : Fin 2) * 4000 + 1 * (x 0).val = (k 0).val; rw [e0, hk0]; omega
  | ⟨1, _⟩ => show win2_0.index t (1 : Fin 2) * 64 + 1 * (x 1).val = (k 1).val; rw [e1, hk1]; omega

/-- The [4000,1] window's block at point `t` is rows `4000 t …` of its column. -/
theorem blockOf2_1 (c : Dev nD) (t : Fin cfg2.N) (x : S4000x1.Idx) (k : S100000x1.Idx)
    (hk0 : (k 0).val = 4000 * t.val + (x 0).val) (hk1 : (k 1).val = (x 1).val) :
    (iblk2 V c 1 t : Vec Ideal S4000x1 .f32) x = ((V c (Pipeline.arrRef spec2 1)) : S100000x1.Idx → Elt Ideal .f32) k := by
  obtain ⟨-, -, e0, e1, -⟩ := idx2 t
  unfold iblk2
  rw [View.read_apply]
  show (V c (Pipeline.arrRef spec2 1)) _ = (V c (Pipeline.arrRef spec2 1)) _
  congr 1
  funext a
  apply Fin.ext
  match a with
  | ⟨0, _⟩ => show win2_1.index t (0 : Fin 2) * 4000 + 1 * (x 0).val = (k 0).val; rw [e0, hk0]; omega
  | ⟨1, _⟩ => show win2_1.index t (1 : Fin 2) * 1 + 1 * (x 1).val = (k 1).val; rw [e1, hk1]; omega

/-- The [1,64] window's block at any point is its whole row. -/
theorem blockOf2_2 (c : Dev nD) (t : Fin cfg2.N) (x : S1x64.Idx) :
    (iblk2 V c 2 t : Vec Ideal S1x64 .f32) x = ((V c (Pipeline.arrRef spec2 2)) : S1x64.Idx → Elt Ideal .f32) x := by
  obtain ⟨-, -, -, -, e0, e1, -⟩ := idx2 t
  unfold iblk2
  rw [View.read_apply]
  show (V c (Pipeline.arrRef spec2 2)) _ = (V c (Pipeline.arrRef spec2 2)) _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 64 + 1 * (x 1).val = (x 1).val; rw [e1]; omega

/-- The [64,64] window's block at any point is its whole matrix. -/
theorem blockOf2_3 (c : Dev nD) (t : Fin cfg2.N) (x : S64x64.Idx) :
    (iblk2 V c 3 t : Vec Ideal S64x64 .f32) x = ((V c (Pipeline.arrRef spec2 3)) : S64x64.Idx → Elt Ideal .f32) x := by
  obtain ⟨-, -, -, -, -, -, e0, e1, -⟩ := idx2 t
  unfold iblk2
  rw [View.read_apply]
  show (V c (Pipeline.arrRef spec2 3)) _ = (V c (Pipeline.arrRef spec2 3)) _
  congr 1
  funext a
  apply Fin.ext
  match a with
  | ⟨0, _⟩ => show win2_3.index t (0 : Fin 2) * 64 + 1 * (x 0).val = (x 0).val; rw [e0]; omega
  | ⟨1, _⟩ => show win2_3.index t (1 : Fin 2) * 64 + 1 * (x 1).val = (x 1).val; rw [e1]; omega

/-! ## The payload of a point's blocks, at an entry -/

/-- At point `t`, entry `(n, f)` of the payload over the point's input blocks is the specification at row
    `r = 4000 t + n` and column `f`. -/
theorem blockAt2 (c : Dev nD) (t : Fin cfg2.N) (n : Fin 4000) (f : Fin 64) (r : Fin 100000) (hr : r.val = 4000 * t.val + n.val) :
    k2_pay1 (iblk2 V c 0 t) (iblk2 V c 1 t) (iblk2 V c 2 t) (iblk2 V c 3 t) (iblk2 V c 1 t) (ix2 n f)
      = scaled (actArr (V c (Pipeline.arrRef spec2 0)) (V c (Pipeline.arrRef spec2 1)) (V c (Pipeline.arrRef spec2 2))) (V c (Pipeline.arrRef spec2 3)) (V c (Pipeline.arrRef spec2 1)) r f := by
  rw [payAt2]
  unfold scaled actArr act
  rw [blockOf2_1 V c t (ix2 n (0 : Fin 1)) (ix2 r (0 : Fin 1)) hr rfl]
  refine congrArg (· * _) (Finset.sum_congr rfl fun k _ => ?_)
  rw [blockOf2_0 V c t (ix2 n k) (ix2 r k) hr rfl, blockOf2_2 V c t (ix2 (0 : Fin 1) k), blockOf2_3 V c t (ix2 k f)]

/-! ## From blocks to the array -/

/-- WHAT POINT `t` WRITES BACK is block `t` of `valArr2`. -/
theorem flushed2 (c : Dev nD) (t : Fin cfg2.N) :
    (dat2 (F := Ideal) V c).flushed 4 t = ((cfg2.win 4).blk t).view.read (Elt Ideal) (valArr2 V c) := by
  show (cfg2.win 4).cut (cfg2.grid.coords t) ((dat2 (F := Ideal) V c).after 4 t) = _
  rw [after2_4]
  unfold out2_4
  rw [View.canon_unit_zero zeroOff2]
  simp only [View.ld_unit_zero (S := S4000x64) zeroOff2, View.ld_unit_zero (S := S4000x1) zeroOff2,
    View.ld_unit_zero (S := S1x64) zeroOff2, View.ld_unit_zero (S := S64x64) zeroOff2]
  obtain ⟨-, -, -, -, -, -, -, -, e0, e1⟩ := idx2 t
  refine funext fun (j : S4000x64.Idx) => ?_
  obtain ⟨n, f, rfl⟩ : ∃ (n : Fin 4000) (f : Fin 64), j = ix2 n f := ⟨j 0, j 1, eq_ix2 j⟩
  have hN : t.val < 25 := Nat.lt_of_lt_of_eq t.isLt (N_2 : cfg2.N = 25)
  have hemb : ((cfg2.win 4).blk t).view.emb (ix2 n f) = (ix2 (⟨4000 * t.val + n.val, by have := n.isLt; omega⟩ : Fin 100000) f : S100000x64.Idx) := by
    funext a
    apply Fin.ext
    match a with
    | ⟨0, _⟩ => show win2_4.index t (0 : Fin 2) * 4000 + 1 * n.val = 4000 * t.val + n.val; rw [e0]; omega
    | ⟨1, _⟩ => show win2_4.index t (1 : Fin 2) * 64 + 1 * f.val = f.val; rw [e1]; omega
  rw [View.read_apply, hemb]
  exact blockAt2 V c t n f _ rfl

/-- An index of the array is in point `t`'s block iff each coordinate is in the block's range on its axis. -/
theorem memBlk2 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole (Pipeline.arrRef spec2 4)).slice (win2_4.rect t)).set ↔ _
  rw [View.set_slice_whole, Rect.mem_set_unit]
  exact Iff.rfl

/-- The output's 25 blocks cover its 100000 rows: row `r` is in the block of point `r / 4000`. -/
theorem cover2 (c : Dev nD) (i : ((cfg2.win 4).arr.view.loc (c.tc : Thread nD τ)).2.ty.Idx) :
    ∃ t : Fin cfg2.N, (cfg2.win 4).flush t = true ∧ i ∈ ((cfg2.win 4).blk t).view.set := by
  have hi0 : ((i : S100000x64.Idx) 0).val < 100000 := ((i : S100000x64.Idx) 0).isLt
  have hi1 : ((i : S100000x64.Idx) 1).val < 64 := ((i : S100000x64.Idx) 1).isLt
  let t : Fin cfg2.N := ⟨((i : S100000x64.Idx) 0).val / 4000, by rw [show cfg2.N = 25 from N_2]; omega⟩
  obtain ⟨-, -, -, -, -, -, -, -, e0, e1⟩ := idx2 t
  refine ⟨t, flush2_4 t, ?_⟩
  rw [memBlk2]
  intro a
  match a with
  | ⟨0, _⟩ =>
    show win2_4.index t (0 : Fin 2) * 4000 ≤ ((i : S100000x64.Idx) 0).val ∧ ((i : S100000x64.Idx) 0).val < win2_4.index t (0 : Fin 2) * 4000 + 4000
    rw [e0]; show ((i : S100000x64.Idx) 0).val / 4000 * 4000 ≤ _ ∧ _ < ((i : S100000x64.Idx) 0).val / 4000 * 4000 + 4000; omega
  | ⟨1, _⟩ =>
    show win2_4.index t (1 : Fin 2) * 64 ≤ ((i : S100000x64.Idx) 1).val ∧ ((i : S100000x64.Idx) 1).val < win2_4.index t (1 : Fin 2) * 64 + 64
    rw [e1]; omega

/-- THE ARRAY after the last point, entry by entry: the specification of the arrays the region read. -/
theorem final2 (V : (c : Dev nD) → (b : Ref sig .tc) → Buf (Elt Ideal) ((c : Thread nD τ).loc b)) (c : Dev nD) (n : Fin 100000) (f : Fin 64) :
    (dat2 (F := Ideal) V c).arrAt 4 cfg2.N (ix2 n f)
      = scaled (actArr (V c (Pipeline.arrRef spec2 0)) (V c (Pipeline.arrRef spec2 1)) (V c (Pipeline.arrRef spec2 2))) (V c (Pipeline.arrRef spec2 3)) (V c (Pipeline.arrRef spec2 1)) n f := by
  rw [(dat2 (F := Ideal) V c).arrAt_eq_of_cover 4 (valArr2 V c) (fun t _ => flushed2 V c t) (cover2 c)]
  rfl

end Cert.KernelIdeal.Val

end
-- ==== Proof.Val.P3.lean ====
/-
  Region 3's two payloads read at an index, at the ideal values (a float is an extended real, a narrowing or widening of
  a float is the identity, a product into a zero accumulator is the plain sum of products, the signed reading of a 0/1
  word is the real 0 or 1).
  • the first payload is the zero block;
  • the second, at `(g, f)`, is the carried block there plus the sum over the 4000 rows `r` of
    [segment word of row r = g] · max(x[r, f] · scale[r] + bias[f], 0):
    a one-hot matrix [4000, 128] (row's segment word against the lane number) contracted over the rows with the rectified
    affine image [4000, 64] of the rows.
-/
import proofs.«415797_j26783416058161_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

namespace Cert.KernelIdeal.Val

open Idealize.ShloMosaic Idealize.ShloMosaic.ValueIdx Cert.KernelIdeal Cert.KernelIdeal.Gen
open scoped BigOperators

/-! ## Layout: a column broadcast along the lanes -/

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An integer comparison of two vectors, read at an index, compares the two entries there. -/
theorem cmpi_apply {s : Shape} {w : ℕ} (p : CmpIPredicate) (a b : IVec s w) (i : s.Idx) :
    cmpi p a b i = IntOp.cmpi p (a i) (b i) := rfl

/-! ## The membership word as a real: 1 where the two words agree, 0 elsewhere -/

/-- The bit of an equality test, widened to 32 bits and read as a signed integer, is the real 1 or 0. -/
theorem sitofp_eq_bit (x y : BitVec 32) :
    (FloatOps.sitofp (F := Ideal) .f32 ((IntOp.cmpi .eq x y).setWidth 32) : EReal) = if x = y then 1 else 0 := by
  by_cases h : x = y
  · have hc : IntOp.cmpi .eq x y = 1#1 := by simp [IntOp.cmpi, h]
    rw [hc, if_pos h]
    show (((BitVec.setWidth 32 1#1).toInt : ℝ) : EReal) = 1
    rw [show (BitVec.setWidth 32 1#1).toInt = 1 from by decide]
    simp
  · have hb : (x == y) = false := beq_eq_false_iff_ne.mpr h
    have hc : IntOp.cmpi .eq x y = 0#1 := by simp [IntOp.cmpi, hb]
    rw [hc, if_neg h]
    show (((BitVec.setWidth 32 0#1).toInt : ℝ) : EReal) = 0
    rw [show (BitVec.setWidth 32 0#1).toInt = 0 from by decide]
    simp

/-! ## The contraction over the rows: both operands contract their axis 0 -/

theorem lhs_pool_0 (i : S128x64.Idx) (q : dot_S4000x128_S4000x64_S128x64_0_0_1_1_n_n.contr.Idx) :
    (dot_S4000x128_S4000x64_S128x64_0_0_1_1_n_n.lhsIdx i q 0).val = (q ⟨0, by decide⟩).val :=
  dot_S4000x128_S4000x64_S128x64_0_0_1_1_n_n.lhsIdx_val_of_single rfl i q
theorem lhs_pool_1 (i : S128x64.Idx) (q : dot_S4000x128_S4000x64_S128x64_0_0_1_1_n_n.contr.Idx) :
    (dot_S4000x128_S4000x64_S128x64_0_0_1_1_n_n.lhsIdx i q 1).val = (i 0).val := by
  unfold DotDims.lhsIdx
  rw [dif_neg (show ¬(1 : Fin S4000x128.rank) ∈ dot_S4000x128_S4000x64_S128x64_0_0_1_1_n_n.lhsBatch by decide), dif_pos (show (1 : Fin S4000x128.rank) ∈ dot_S4000x128_S4000x64_S128x64_0_0_1_1_n_n.lhsNonContracting by decide)]
  rfl
theorem rhs_pool_0 (i : S128x64.Idx) (q : dot_S4000x128_S4000x64_S128x64_0_0_1_1_n_n.contr.Idx) :
    (dot_S4000x128_S4000x64_S128x64_0_0_1_1_n_n.rhsIdx i q 0).val = (q ⟨0, by decide⟩).val :=
  dot_S4000x128_S4000x64_S128x64_0_0_1_1_n_n.rhsIdx_val_of_single rfl i q
theorem rhs_pool_1 (i : S128x64.Idx) (q : dot_S4000x128_S4000x64_S128x64_0_0_1_1_n_n.contr.Idx) :
    (dot_S4000x128_S4000x64_S128x64_0_0_1_1_n_n.rhsIdx i q 1).val = (i 1).val := by
  unfold DotDims.rhsIdx
  rw [dif_neg (show ¬(1 : Fin S4000x64.rank) ∈ dot_S4000x128_S4000x64_S128x64_0_0_1_1_n_n.rhsBatch by decide), dif_pos (show (1 : Fin S4000x64.rank) ∈ dot_S4000x128_S4000x64_S128x64_0_0_1_1_n_n.rhsNonContracting by decide)]
  rfl

/-- The product into the zero accumulator, at `(g, f)`: the sum over the rows `r` of the left operand at `(r, g)`
times the right operand at `(r, f)`. -/
theorem pool_matmul_apply (lhs : FVec Ideal S4000x128 .bf16) (rhs : FVec Ideal S4000x64 .bf16) (g : Fin 128) (f : Fin 64) :
    matmul dot_S4000x128_S4000x64_S128x64_0_0_1_1_n_n none lhs rhs (constant (F := Ideal) S128x64 .f32 0x00000000#32) (ix2 g f)
      = ∑ r : Fin 4000, lhs (ix2 r g) * rhs (ix2 r f) := by
  simp only [matmul]
  rw [Ideal.matmul_constant_zero_apply, ← Equiv.sum_comp (contrEquiv1 dot_S4000x128_S4000x64_S128x64_0_0_1_1_n_n 4000 rfl rfl).symm]
  refine Finset.sum_congr rfl fun k _ => ?_
  have hk := contrEquiv1_symm_val dot_S4000x128_S4000x64_S128x64_0_0_1_1_n_n 4000 rfl rfl k
  have el : dot_S4000x128_S4000x64_S128x64_0_0_1_1_n_n.lhsIdx (ix2 g f) ((contrEquiv1 dot_S4000x128_S4000x64_S128x64_0_0_1_1_n_n 4000 rfl rfl).symm k) = ix2 k g := funext fun a => Fin.ext (by
    match a with
    | ⟨0, _⟩ => exact (lhs_pool_0 _ _).trans hk
    | ⟨1, _⟩ => exact lhs_pool_1 _ _)
  have er : dot_S4000x128_S4000x64_S128x64_0_0_1_1_n_n.rhsIdx (ix2 g f) ((contrEquiv1 dot_S4000x128_S4000x64_S128x64_0_0_1_1_n_n 4000 rfl rfl).symm k) = ix2 k f := funext fun a => Fin.ext (by
    match a with
    | ⟨0, _⟩ => exact (rhs_pool_0 _ _).trans hk
    | ⟨1, _⟩ => exact rhs_pool_1 _ _)
  rw [el, er]

/-! ## The two payloads at an index -/

/-- The first payload is the zero block. -/
theorem pay1_apply (g : Fin 128) (f : Fin 64) : k3_pay1 (F := Ideal) (ix2 g f) = 0 := by
  unfold k3_pay1
  simp only [shapeCast_self]
  rw [broadcast_apply]
  exact Ideal.ofBits_zero_f32

/-- The second payload at `(g, f)`: the carried block there plus, over the rows `r` whose segment word is `g`, the
rectified affine image of the row's entry `f`. -/
theorem pay2_apply (v3 : Vec Ideal S4000x64 .f32) (v5 : Vec Ideal S4000x1 .f32) (v9 : Vec Ideal S1x64 .f32)
    (v17 : Vec Ideal S4000x1 .i32) (v24 : Vec Ideal S128x64 .f32) (g : Fin 128) (f : Fin 64) :
    k3_pay2 (F := Ideal) v3 v5 v9 v17 v24 (ix2 g f)
      = v24 (ix2 g f) + ∑ r : Fin 4000, (if v17 (ix2 r (0 : Fin 1)) = BitVec.ofNat 32 g.val then (1 : EReal) else 0)
          * max (v3 (ix2 r f) * v5 (ix2 r (0 : Fin 1)) + v9 (ix2 (0 : Fin 1) f)) 0 := by
  unfold k3_pay2
  simp only [shapeCast_self]
  rw [addf_apply, pool_matmul_apply]
  refine congrArg (v24 (ix2 g f) + ·) (Finset.sum_congr rfl fun r _ => ?_)
  rw [truncf_apply, truncf_apply, sitofp_apply, extui_apply, cmpi_apply, maximumf_apply, addf_apply, mulf_apply,
    broadcast_apply, broadcastTo_a1_ab_apply, broadcastTo_a1_ab_apply, broadcastTo_1b_ab_apply, iota_single_apply,
    sitofp_eq_bit, Ideal.ofBits_def, Ideal.ofBits_zero_f32]

end Cert.KernelIdeal.Val
-- ==== Proof.SumLaw.lean ====
/-
  Sums on the extended reals: the algebra that joins a scaled scatter-sum to the
  scatter-sum scaled, a scatter-sum of ones to a count, the guarded inverse square
  root of a count to a non-negative real, an indicator-weighted sum to a filtered
  sum, and a sum over 100000 rows to 25 blocks of 4000 rows.

  Multiplication on the extended reals distributes over addition only under side
  conditions; every factor taken out of a sum here is a non-negative real, for
  which it does.
-/
import Idealize.ShloMosaic.PureOps.Ideal
import Idealize.ShloMosaic.PureOps.Ideal.Laws
import Mathlib.Data.EReal.Operations
import Mathlib.Algebra.BigOperators.Fin
import Mathlib.Algebra.BigOperators.Group.Finset.Basic
import Mathlib.Analysis.SpecialFunctions.Pow.Real

namespace Cert.Proof.SumLaw

open Idealize.ShloMosaic
open scoped BigOperators

/-- A non-negative real factor comes out of a finite sum of extended reals. -/
theorem sum_mul_coe_nonneg {ι : Type*} (s : Finset ι) (a : ι → EReal) (r : ℝ) (hr : 0 ≤ r) :
    (∑ j ∈ s, a j) * (r : EReal) = ∑ j ∈ s, a j * (r : EReal) := by
  classical
  induction s using Finset.induction_on with
  | empty => simp
  | insert j s hj ih =>
    rw [Finset.sum_insert hj, Finset.sum_insert hj,
      EReal.right_distrib_of_nonneg_of_ne_top (EReal.coe_nonneg.2 hr) (EReal.coe_ne_top r), ih]

/-- The factor every update landing on element `i` carries is the same non-negative real,
    so it comes out of the scatter-sum. -/
theorem scatterAdd_scale {s si u : Shape} {w : Nat} (d : ScatterDims s si u) (idx : IVec si w)
    (a qd : u.Idx → EReal) (q : s.Idx → EReal)
    (hq : ∀ j i, d.resultIdx? j idx = some i → qd j = q i)
    (hnn : ∀ i, ∃ r : ℝ, 0 ≤ r ∧ q i = (r : EReal)) (i : s.Idx) :
    Ideal.hostScatterAdd d (fun _ => (0 : EReal)) idx (fun j => a j * qd j) i
      = Ideal.hostScatterAdd d (fun _ => (0 : EReal)) idx a i * q i := by
  obtain ⟨r, hr, hqi⟩ := hnn i
  simp only [Ideal.hostScatterAdd, zero_add]
  rw [hqi, sum_mul_coe_nonneg _ _ r hr]
  refine Finset.sum_congr rfl fun j hj => ?_
  rw [hq j i (Finset.mem_filter.1 hj).2, hqi]

/-- A scatter-sum of ones onto zeros is a count: the number of updates landing on the element. -/
theorem count_is_nat {s si u : Shape} {w : Nat} (d : ScatterDims s si u) (idx : IVec si w) (i : s.Idx) :
    ∃ k : ℕ, Ideal.hostScatterAdd d (fun _ => (0 : EReal)) idx (fun _ => (1 : EReal)) i = ((k : ℝ) : EReal) := by
  refine ⟨(Finset.univ.filter (fun j => d.resultIdx? j idx = some i)).card, ?_⟩
  simp only [Ideal.hostScatterAdd, zero_add, Finset.sum_const, nsmul_one]
  rfl

/-- The guarded inverse square root of a count, with the operations spelled as the
    order's comparison and the inverse square root: `0` at `0`, `(√k)⁻¹` at `k > 0`. -/
theorem inv_sqrt_nonneg_real_cmp (x : EReal) (k : ℕ) (hx : x = ((k : ℝ) : EReal)) :
    ∃ r : ℝ, 0 ≤ r ∧ (Scalar.select (Ideal.cmp .ogt x (0 : EReal)) (Ideal.rsqrt x) (0 : EReal) : EReal) = (r : EReal) := by
  subst hx
  rcases Nat.eq_zero_or_pos k with rfl | hk
  · refine ⟨0, le_rfl, ?_⟩
    simp [Scalar.select, Ideal.cmp]
  · have hk' : (0 : ℝ) < (k : ℝ) := by exact_mod_cast hk
    generalize (k : ℝ) = y at hk'
    refine ⟨(Real.sqrt y)⁻¹, inv_nonneg.2 (Real.sqrt_nonneg y), ?_⟩
    have h0 : (0 : EReal) < (y : EReal) := by exact_mod_cast hk'
    simp [Scalar.select, Ideal.cmp, h0, not_lt.2 hk'.le, hk'.ne']

/-- `where(deg > 0, rsqrt deg, 0)` of a count is a non-negative real: the comparison, the
    inverse square root and the zero pattern as the reference program spells them at one
    element. -/
theorem inv_sqrt_nonneg_real (x : Ideal .f32) (k : ℕ) (hx : x = ((k : ℝ) : EReal)) :
    ∃ r : ℝ, 0 ≤ r ∧
      (Scalar.select (FloatOps.cmpf (F := Ideal) .ogt x (FloatOps.ofBits (F := Ideal) .f32 0x00000000#32))
        (FloatOps.hostUnary (F := Ideal) .rsqrt x) (FloatOps.ofBits (F := Ideal) .f32 0x00000000#32) : EReal) = (r : EReal) := by
  rw [Ideal.cmpf_def, Ideal.hostUnary_rsqrt_def, Ideal.ofBits_def, Ideal.ofBits_zero_f32]
  exact inv_sqrt_nonneg_real_cmp x k hx

/-- The f32 pattern of one is the extended real `1`: exponent field at the bias, empty fraction. -/
theorem ofBits_one_f32 : Ideal.ofBits .f32 0x3F800000#32 = 1 := by
  simp [Ideal.ofBits, Ideal.ieee]
  exact_mod_cast (by norm_num : (8388608 : ℝ) * ((2 : ℝ) ^ 23)⁻¹ = 1)

/-- A sum weighted by an indicator is the sum over the indicated indices. -/
theorem sum_indicator_mul {ι : Type*} [Fintype ι] (p : ι → Prop) [DecidablePred p] (h : ι → EReal) :
    ∑ n, (if p n then (1 : EReal) else 0) * h n = ∑ n ∈ Finset.univ.filter p, h n := by
  rw [Finset.sum_filter]
  refine Finset.sum_congr rfl fun n _ => ?_
  by_cases hp : p n <;> simp [hp]

/-- A sum over 100000 rows as 25 blocks of 4000 rows, the block index outermost. -/
theorem sum_blocks (f : Fin 100000 → EReal) :
    ∑ n : Fin 100000, f n = ∑ k : Fin 25, ∑ r : Fin 4000, f ⟨4000 * k.val + r.val, by omega⟩ := by
  rw [← Fintype.sum_prod_type']
  refine (Fintype.sum_equiv (finProdFinEquiv (m := 25) (n := 4000)) _ _ fun x => ?_).symm
  refine congrArg f (Fin.ext ?_)
  simp [finProdFinEquiv, Nat.add_comm]

end Cert.Proof.SumLaw
-- ==== Proof.Val.V3.lean ====
/-
  The value of region 3 at the ideal instance: after the last grid point the region's [128, 64] output array holds,
  entry by entry, the pooled sum — over all 100000 rows, the indicator of the row's graph id times the row's
  activation — as a function of the WHOLE arrays the region read.

  Point t of the 25 stages rows 4000 t .. 4000 t + 3999 of the rows' array, of the scale and of the graph ids, and the
  whole bias row, and adds the block's share to a running sum that starts at the zero block; so after point n the
  running sum is the sum of the shares of blocks 0 .. n, and after point 24 the sum over all rows (100000 = 25 · 4000).
  The output's block is the whole array at every point and is written back once, at the last point.
-/
import proofs.«415797_j26783416058161_2_alg».proof.Proof.KI.R3
import proofs.«415797_j26783416058161_2_alg».proof.Proof.Val.Spec
import proofs.«415797_j26783416058161_2_alg».proof.Proof.Val.P3
import proofs.«415797_j26783416058161_2_alg».proof.Proof.SumLaw
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Cert.KernelIdeal Cert.KernelIdeal.Gen Cert.Proof.Spec
open Idealize.ShloMosaic.Pipeline (Dat Cfg Window)
open scoped BigOperators

variable (V : (c : Dev nD) → (b : Ref sig .tc) → Buf (Elt Ideal) ((c : Thread nD τ).loc b))

/-! ## One block's share of the pooled sum -/

/-- Row `r` of block `k` (25 blocks of 4000 rows) as a row of the whole arrays: row `4000 k + r`. -/
abbrev rowOf (k : ℕ) (hk : k < 25) (r : Fin 4000) : Fin 100000 := ⟨4000 * k + r.val, by have := r.isLt; omega⟩

/-- Block `k`'s share of graph `g`'s pooled feature `f`: the sum over the block's 4000 rows of the indicator of the
    row's graph id being `g` times the row's activation; nothing past the 25 blocks. -/
def blockTerm (A54 : Arr S100000x64 .f32) (A15 : Arr S100000x1 .f32) (A55 : Arr S1x64 .f32) (A16 : Arr S100000x1 .i32)
    (g : Fin 128) (f : Fin 64) (k : ℕ) : EReal :=
  if hk : k < 25 then
    ∑ r : Fin 4000, (if A16 (ix2 (rowOf k hk r) (0 : Fin 1)) = BitVec.ofNat 32 g.val then (1 : EReal) else 0)
      * act A54 A15 A55 (rowOf k hk r) f
  else 0

/-- One entry of the update over blocks that are restrictions of whole arrays. If the rows' block, the scale's block and
    the graph ids' block read their row `r` at row `4000 k + r` of their arrays, and the bias's block is the whole row,
    the update's entry `(g, f)` adds block `k`'s share to the carried entry. -/
theorem block_entry3 (A54 : Arr S100000x64 .f32) (A15 : Arr S100000x1 .f32) (A55 : Arr S1x64 .f32) (A16 : Arr S100000x1 .i32)
    (e0 : S4000x64.Idx → S100000x64.Idx) (e1 : S4000x1.Idx → S100000x1.Idx) (e2 : S1x64.Idx → S1x64.Idx)
    (e3 : S4000x1.Idx → S100000x1.Idx) (k : ℕ) (hk : k < 25) (acc : Vec Ideal S128x64 .f32) (g : Fin 128) (f : Fin 64)
    (h0 : ∀ r : Fin 4000, e0 (ix2 r f) = ix2 (rowOf k hk r) f)
    (h1 : ∀ r : Fin 4000, e1 (ix2 r (0 : Fin 1)) = ix2 (rowOf k hk r) (0 : Fin 1))
    (h2 : e2 (ix2 (0 : Fin 1) f) = ix2 (0 : Fin 1) f)
    (h3 : ∀ r : Fin 4000, e3 (ix2 r (0 : Fin 1)) = ix2 (rowOf k hk r) (0 : Fin 1)) :
    k3_pay2 (F := Ideal) (fun y => A54 (e0 y)) (fun y => A15 (e1 y)) (fun y => A55 (e2 y)) (fun y => A16 (e3 y)) acc (ix2 g f)
      = acc (ix2 g f) + blockTerm A54 A15 A55 A16 g f k := by
  rw [pay2_apply]
  unfold blockTerm act
  rw [dif_pos hk]
  simp only [h0, h1, h2, h3]

/-! ## The blocks of a point -/

/-- The printed index maps, decided over the grid: at point t the rows', the scale's and the graph ids' block is block t
    (of 25), the bias's and the output's block is the whole array, and no window moves along its second axis. -/
theorem index_facts3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ t.val < 25 :=
  (by decide +kernel : ∀ t : Fin grid3.N, _)

/-- The update at point t over the point's four blocks adds block t's share to the carried entry. -/
theorem point3 (c : Dev nD) (t : Fin cfg3.N) (acc : Vec Ideal S128x64 .f32) (g : Fin 128) (f : Fin 64) :
    k3_pay2 (F := Ideal) (iblk3 V c 0 t) (iblk3 V c 1 t) (iblk3 V c 2 t) (iblk3 V c 3 t) acc (ix2 g f)
      = acc (ix2 g f) + blockTerm (V c main_v54) (V c main_v15) (V c main_v55) (V c main_v16) g f t.val := by
  obtain ⟨e00, e01, e10, e11, e20, e21, e30, e31, -, -, ht⟩ := index_facts3 t
  have h0 : ∀ r : Fin 4000, ((cfg3.win 0).blk t).view.emb (ix2 r f) = (ix2 (rowOf t.val ht r) f : S100000x64.Idx) := fun r => by
    funext a; apply Fin.ext
    match a with
    | ⟨0, _⟩ => show win3_0.index t (0 : Fin 2) * 4000 + 1 * r.val = 4000 * t.val + r.val; omega
    | ⟨1, _⟩ => show win3_0.index t (1 : Fin 2) * 64 + 1 * f.val = f.val; omega
  have h1 : ∀ r : Fin 4000, ((cfg3.win 1).blk t).view.emb (ix2 r (0 : Fin 1)) = (ix2 (rowOf t.val ht r) (0 : Fin 1) : S100000x1.Idx) := fun r => by
    funext a; apply Fin.ext
    match a with
    | ⟨0, _⟩ => show win3_1.index t (0 : Fin 2) * 4000 + 1 * r.val = 4000 * t.val + r.val; omega
    | ⟨1, _⟩ => show win3_1.index t (1 : Fin 2) * 1 + 1 * 0 = 0; omega
  have h2 : ((cfg3.win 2).blk t).view.emb (ix2 (0 : Fin 1) f) = (ix2 (0 : Fin 1) f : S1x64.Idx) := by
    funext a; apply Fin.ext
    match a with
    | ⟨0, _⟩ => show win3_2.index t (0 : Fin 2) * 1 + 1 * 0 = 0; omega
    | ⟨1, _⟩ => show win3_2.index t (1 : Fin 2) * 64 + 1 * f.val = f.val; omega
  have h3 : ∀ r : Fin 4000, ((cfg3.win 3).blk t).view.emb (ix2 r (0 : Fin 1)) = (ix2 (rowOf t.val ht r) (0 : Fin 1) : S100000x1.Idx) := fun r => by
    funext a; apply Fin.ext
    match a with
    | ⟨0, _⟩ => show win3_3.index t (0 : Fin 2) * 4000 + 1 * r.val = 4000 * t.val + r.val; omega
    | ⟨1, _⟩ => show win3_3.index t (1 : Fin 2) * 1 + 1 * 0 = 0; omega
  exact block_entry3 (V c main_v54) (V c main_v15) (V c main_v55) (V c main_v16) ((cfg3.win 0).blk t).view.emb
    ((cfg3.win 1).blk t).view.emb ((cfg3.win 2).blk t).view.emb ((cfg3.win 3).blk t).view.emb t.val ht acc g f h0 h1 h2 h3

/-! ## The running sum after each point -/

/-- THE INVARIANT: after point n the running sum's entry `(g, f)` is the sum of the shares of blocks 0 … n. -/
theorem acc_eq (c : Dev nD) (g : Fin 128) (f : Fin 64) : ∀ (n : ℕ) (hn : n < cfg3.N),
    accAt3 (F := Ideal) V c n hn (ix2 g f)
      = ∑ k ∈ Finset.range (n + 1), blockTerm (V c main_v54) (V c main_v15) (V c main_v55) (V c main_v16) g f k
  | 0, hn => by
    show k3_pay2 (F := Ideal) (iblk3 V c 0 ⟨0, hn⟩) (iblk3 V c 1 ⟨0, hn⟩) (iblk3 V c 2 ⟨0, hn⟩) (iblk3 V c 3 ⟨0, hn⟩)
      (k3_pay1 (F := Ideal)) (ix2 g f) = _
    rw [point3, pay1_apply, zero_add, Finset.sum_range_one]
  | n + 1, hn => by
    show k3_pay2 (F := Ideal) (iblk3 V c 0 ⟨n + 1, hn⟩) (iblk3 V c 1 ⟨n + 1, hn⟩) (iblk3 V c 2 ⟨n + 1, hn⟩) (iblk3 V c 3 ⟨n + 1, hn⟩)
      (accAt3 (F := Ideal) V c n (Nat.lt_of_succ_lt hn)) (ix2 g f) = _
    rw [point3, acc_eq c g f n (Nat.lt_of_succ_lt hn), Finset.sum_range_succ _ (n + 1)]

/-- After the last point: the 25 blocks' shares are the sum over all 100000 rows, the pooled sum. -/
theorem acc_last (c : Dev nD) (g : Fin 128) (f : Fin 64) (h : 24 < cfg3.N) :
    accAt3 (F := Ideal) V c 24 h (ix2 g f)
      = pooled (actArr (V c main_v54) (V c main_v15) (V c main_v55)) (V c main_v16) g f := by
  rw [acc_eq]
  show ∑ k ∈ Finset.range 25, _ = _
  rw [Finset.sum_range]
  unfold pooled
  rw [Cert.Proof.SumLaw.sum_blocks]
  refine Finset.sum_congr rfl fun k _ => ?_
  unfold blockTerm
  rw [dif_pos k.isLt]
  rfl

/-! ## The output array -/

/-- The whole-array function the output ends holding: entry (g, f) is the pooled sum of the arrays as the region
    finds them. -/
def whole3 (c : Dev nD) : Arr S128x64 .f32 :=
  fun i => pooled (actArr (V c main_v54) (V c main_v15) (V c main_v55)) (V c main_v16) (i 0) (i 1)

/-- The output window's block is the whole array at every point: a buffer that agrees entry by entry with a whole-array
    function is, written back, the block of that function. -/
theorem cut4_eq_read (t : Fin cfg3.N) (X : Vec Ideal S128x64 .f32) (G : Arr S128x64 .f32)
    (h : ∀ (g : Fin 128) (f : Fin 64), X (ix2 g f) = G (ix2 g f)) :
    (cfg3.win 4).cut (cfg3.grid.coords t) X = ((cfg3.win 4).blk t).view.read (Elt Ideal) G := by
  obtain ⟨-, -, -, -, -, -, -, -, e40, e41, -⟩ := index_facts3 t
  funext j
  obtain ⟨g, f, rfl⟩ : ∃ (g : Fin 128) (f : Fin 64), j = ix2 g f := ⟨j 0, j 1, eq_ix2 j⟩
  have h4 : ((cfg3.win 4).blk t).view.emb (ix2 g f) = (ix2 g f : S128x64.Idx) := by
    funext a; apply Fin.ext
    match a with
    | ⟨0, _⟩ => show win3_4.index t (0 : Fin 2) * 128 + 1 * g.val = g.val; omega
    | ⟨1, _⟩ => show win3_4.index t (1 : Fin 2) * 64 + 1 * f.val = f.val; omega
  show X (ix2 g f) = G (((cfg3.win 4).blk t).view.emb (ix2 g f))
  rw [h4]
  exact h g f

/-- WHAT THE ONE WRITING POINT WRITES BACK — the last point — is the whole-array function, for any proof data whose
    output buffer after point t holds the running sum after t. -/
theorem flushed3_eq_of {c : Dev nD} (dat : Dat τ (Elt Ideal) Unit ℕ (UR sig nD τ) ℕ cfg3 c)
    (hafter : ∀ t, dat.after 4 t = accAt3 (F := Ideal) V c t.val t.isLt) (t : Fin cfg3.N) (hf : (cfg3.win 4).flush t = true) :
    dat.flushed 4 t = ((cfg3.win 4).blk t).view.read (Elt Ideal) (whole3 V c) := by
  show (cfg3.win 4).cut (cfg3.grid.coords t) (dat.after 4 t) = _
  rw [hafter]
  have ht : t.val < 25 := (index_facts3 t).2.2.2.2.2.2.2.2.2.2
  have h24 : t.val = 24 := by have := (flush3_4 t).mp hf; omega
  refine cut4_eq_read t _ _ fun g f => ?_
  obtain ⟨n, hn⟩ := t
  change n = 24 at h24
  subst h24
  exact acc_last V c g f hn

/-- An index of the output array is in point t's block iff each coordinate is in the block's range on its axis. -/
theorem mem_block3 (t : Fin cfg3.N) (i : S128x64.Idx) :
    i ∈ ((cfg3.win 4).blk t).view.set ↔ ∀ a : Fin 2, win3_4.index t a * S128x64.size a ≤ (i a).val ∧ (i a).val < win3_4.index t a * S128x64.size a + S128x64.size a := by
  show i ∈ ((View.whole main_v56).slice (win3_4.rect t)).set ↔ _
  rw [View.set_slice_whole, Rect.mem_set_unit]
  exact Iff.rfl

/-- The last point's block is the whole output array, and the last point writes it back. -/
theorem cover3 (i : S128x64.Idx) :
    ∃ t : Fin cfg3.N, (cfg3.win 4).flush t = true ∧ i ∈ ((cfg3.win 4).blk t).view.set := by
  have hi0 : (i 0).val < 128 := idx2_lt0 i
  have hi1 : (i 1).val < 64 := idx2_lt1 i
  have hN : 24 < cfg3.N := by show _ < grid3.N; rw [N_3]; omega
  refine ⟨⟨24, hN⟩, (flush3_4 _).mpr rfl, ?_⟩
  rw [mem_block3]
  obtain ⟨-, -, -, -, -, -, -, -, e40, e41, -⟩ := index_facts3 ⟨24, hN⟩
  intro a
  match a with
  | ⟨0, _⟩ =>
    show win3_4.index ⟨24, hN⟩ (0 : Fin 2) * 128 ≤ (i 0).val ∧ (i 0).val < win3_4.index ⟨24, hN⟩ (0 : Fin 2) * 128 + 128
    rw [e40]; omega
  | ⟨1, _⟩ =>
    show win3_4.index ⟨24, hN⟩ (1 : Fin 2) * 64 ≤ (i 1).val ∧ (i 1).val < win3_4.index ⟨24, hN⟩ (1 : Fin 2) * 64 + 64
    rw [e41]; omega

/-- THE ARRAY after the region's last point, entry by entry, for any such proof data: the pooled sum of the whole arrays
    the region read. -/
theorem final3_of {c : Dev nD} (dat : Dat τ (Elt Ideal) Unit ℕ (UR sig nD τ) ℕ cfg3 c)
    (hafter : ∀ t, dat.after 4 t = accAt3 (F := Ideal) V c t.val t.isLt) (g : Fin 128) (f : Fin 64) :
    dat.arrAt 4 cfg3.N (ix2 g f) = pooled (actArr (V c main_v54) (V c main_v15) (V c main_v55)) (V c main_v16) g f := by
  rw [dat.arrAt_eq_of_cover 4 (whole3 V c) (fun t hf => flushed3_eq_of V dat hafter t hf) cover3]
  rfl

/-- THE ARRAY after the region's last point, entry by entry: the pooled sum of the whole arrays the region read. -/
theorem final3 (c : Dev nD) (g : Fin 128) (f : Fin 64) :
    (dat3 (F := Ideal) V c).arrAt 4 cfg3.N (ix2 g f)
      = pooled (actArr (V c main_v54) (V c main_v15) (V c main_v55)) (V c main_v16) g f :=
  final3_of V (dat3 (F := Ideal) V c) (after3_4 V c) g f

end Cert.KernelIdeal.Val

end
-- ==== Proof.Val.V4Pay.lean ====
/-
  REGION 4's payload read at an index, at the ideal instance (a float is an extended real, a change of float format the
  identity, a block product into a zero accumulator the plain sum of products): entry (g, o) of what the body stores
  is row g of the first block times column o of the second, plus entry o of the third block's one row.
-/
import proofs.«415797_j26783416058161_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen
open scoped BigOperators

/-! ## The block product's operand indices, axis by axis -/

/-- The left operand's row is the output's row. -/
theorem lhs_mm4_0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch by decide), dif_pos (show (0 : Fin S128x64.rank) ∈ dot_S128x64_S64x32_S128x32_1_0_0_1_n_n.lhsNonContracting by decide)]
  rfl
/-- The left operand's column is the contraction coordinate. -/
theorem lhs_mm4_1 (i : S128x32.Idx) (q : dot_S128x64_S64x32_S128x32_1_0_0_1_n_n.contr.Idx) :
    (dot_S128x64_S64x32_S128x32_1_0_0_1_n_n.lhsIdx i q 1).val = (q ⟨0, by decide⟩).val :=
  dot_S128x64_S64x32_S128x32_1_0_0_1_n_n.lhsIdx_val_of_single rfl i q
/-- The right operand's row is the contraction coordinate. -/
theorem rhs_mm4_0 (i : S128x32.Idx) (q : dot_S128x64_S64x32_S128x32_1_0_0_1_n_n.contr.Idx) :
    (dot_S128x64_S64x32_S128x32_1_0_0_1_n_n.rhsIdx i q 0).val = (q ⟨0, by decide⟩).val :=
  dot_S128x64_S64x32_S128x32_1_0_0_1_n_n.rhsIdx_val_of_single rfl i q
/-- The right operand's column is the output's column. -/
theorem rhs_mm4_1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch by decide), dif_pos (show (1 : Fin S64x32.rank) ∈ dot_S128x64_S64x32_S128x32_1_0_0_1_n_n.rhsNonContracting by decide)]
  rfl

/-! ## The block product at an index -/

/-- The [128,64] by [64,32] block product into a zero accumulator, at (g, o): the sum over the 64 contraction
    coordinates of row g of the left operand times column o of the right. -/
theorem mm4_apply {φ₁ φ₂ : FTy} (a : FVec Ideal S128x64 φ₁) (b : FVec Ideal S64x32 φ₂) (g : Fin 128) (o : Fin 32) :
    matmul dot_S128x64_S64x32_S128x32_1_0_0_1_n_n none a b (constant (F := Ideal) S128x32 .f32 0x00000000#32) (ix2 g o)
      = ∑ k : Fin 64, a (ix2 g k) * b (ix2 k o) := by
  simp only [matmul]
  rw [Ideal.matmul_constant_zero_apply, ← Equiv.sum_comp (contrEquiv1 dot_S128x64_S64x32_S128x32_1_0_0_1_n_n 64 rfl rfl).symm]
  refine Finset.sum_congr rfl fun k _ => ?_
  have hk := contrEquiv1_symm_val dot_S128x64_S64x32_S128x32_1_0_0_1_n_n 64 rfl rfl k
  have el : dot_S128x64_S64x32_S128x32_1_0_0_1_n_n.lhsIdx (ix2 g o) ((contrEquiv1 dot_S128x64_S64x32_S128x32_1_0_0_1_n_n 64 rfl rfl).symm k) = ix2 g k := funext fun ax => Fin.ext (by
    match ax with
    | ⟨0, _⟩ => exact lhs_mm4_0 _ _
    | ⟨1, _⟩ => exact (lhs_mm4_1 _ _).trans hk)
  have er : dot_S128x64_S64x32_S128x32_1_0_0_1_n_n.rhsIdx (ix2 g o) ((contrEquiv1 dot_S128x64_S64x32_S128x32_1_0_0_1_n_n 64 rfl rfl).symm k) = ix2 k o := funext fun ax => Fin.ext (by
    match ax with
    | ⟨0, _⟩ => exact (rhs_mm4_0 _ _).trans hk
    | ⟨1, _⟩ => exact rhs_mm4_1 _ _)
  rw [el, er]

/-! ## The payload at an index -/

/-- What the body stores, at (g, o): row g of the first block times column o of the second, plus entry o of the
    third block's one row. -/
theorem k4_pay1_apply (x0 : Vec Ideal S128x64 .f32) (x1 : Vec Ideal S64x32 .f32) (x2 : Vec Ideal S1x32 .f32) (g : Fin 128) (o : Fin 32) :
    k4_pay1 (F := Ideal) x0 x1 x2 (ix2 g o) = (∑ k : Fin 64, x0 (ix2 g k) * x1 (ix2 k o)) + x2 (ix2 (0 : Fin 1) o) := by
  unfold k4_pay1
  rw [addf_apply, mm4_apply, shapeCast_self, shapeCast_self, broadcastTo_1b_ab_apply]
  rfl

end Cert.KernelIdeal.Val

end
-- ==== Proof.Val.V4.lean ====
/-
  The VALUE of REGION 4 at the ideal instance: the array the pipeline leaves in the region's output window after
  the one grid point is, entry by entry, the output layer `lin` of the WHOLE arrays the region read: row g of the
  [128,64] array times column o of the [64,32] array, plus entry o of the [1,32] row.

  Every window's block at the one point is its whole array (block index 0 on both axes), so a block read at a local
  index is the array read at the same index, and the one write-back covers the output array.
-/
import proofs.«415797_j26783416058161_2_alg».proof.Proof.KI.R4
import proofs.«415797_j26783416058161_2_alg».proof.Proof.Val.Spec
import proofs.«415797_j26783416058161_2_alg».proof.Proof.Val.V4Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Cert.KernelIdeal Cert.KernelIdeal.Gen Cert.Proof.Spec
open Idealize.ShloMosaic.Pipeline (Dat Cfg Window)
open scoped BigOperators

variable (V : (c : Dev nD) → (b : Ref sig .tc) → Buf (Elt Ideal) ((c : Thread nD τ).loc b))

/-- The offsets of a whole-block access are zero on both axes. -/
theorem hz4 : (![0, 0] : Fin 2 → Nat) = fun _ => 0 := funext fun a => by fin_cases a <;> rfl

/-- The output array as one function of the three arrays the region reads, index by index. -/
def G4 (c : Dev nD) : S128x32.Idx → Elt Ideal .f32 :=
  fun i => lin (V c main_v65) (V c main_arg9) (V c main_v66) (i 0) (i 1)

/-- The payload at any index of the [128,32] block, over the index's two coordinates. -/
theorem k4_pay1_eq_lin (x0 : Vec Ideal S128x64 .f32) (x1 : Vec Ideal S64x32 .f32) (x2 : Vec Ideal S1x32 .f32) (j : S128x32.Idx) :
    k4_pay1 (F := Ideal) x0 x1 x2 j = lin x0 x1 x2 (j 0) (j 1) := by
  obtain ⟨p, q, rfl⟩ : ∃ (p : Fin 128) (q : Fin 32), j = ix2 p q := ⟨j 0, j 1, eq_ix2 j⟩
  exact k4_pay1_apply x0 x1 x2 p q

/-- The printed index maps, decided over the grid: every window's block index is 0 on both axes. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-! ## Each input block is its whole array -/

theorem iblk4_0_eq (c : Dev nD) (t : Fin cfg4.N) : (iblk4 V c 0 t : Vec Ideal S128x64 .f32) = V c main_v65 := by
  obtain ⟨e0, e1, -⟩ := idx_facts4 t
  funext y
  show V c main_v65 (((cfg4.win 0).blk t).view.emb y) = V c main_v65 y
  refine congrArg _ (funext fun a => Fin.ext ?_)
  match a with
  | ⟨0, _⟩ => show win4_0.index t (0 : Fin 2) * 128 + 1 * (y 0).val = (y 0).val; omega
  | ⟨1, _⟩ => show win4_0.index t (1 : Fin 2) * 64 + 1 * (y 1).val = (y 1).val; omega

theorem iblk4_1_eq (c : Dev nD) (t : Fin cfg4.N) : (iblk4 V c 1 t : Vec Ideal S64x32 .f32) = V c main_arg9 := by
  obtain ⟨-, -, e0, e1, -⟩ := idx_facts4 t
  funext y
  show V c main_arg9 (((cfg4.win 1).blk t).view.emb y) = V c main_arg9 y
  refine congrArg _ (funext fun a => Fin.ext ?_)
  match a with
  | ⟨0, _⟩ => show win4_1.index t (0 : Fin 2) * 64 + 1 * (y 0).val = (y 0).val; omega
  | ⟨1, _⟩ => show win4_1.index t (1 : Fin 2) * 32 + 1 * (y 1).val = (y 1).val; omega

theorem iblk4_2_eq (c : Dev nD) (t : Fin cfg4.N) : (iblk4 V c 2 t : Vec Ideal S1x32 .f32) = V c main_v66 := by
  obtain ⟨-, -, -, -, e0, e1, -⟩ := idx_facts4 t
  funext y
  show V c main_v66 (((cfg4.win 2).blk t).view.emb y) = V c main_v66 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 32 + 1 * (y 1).val = (y 1).val; omega

/-! ## What the point writes back -/

/-- What point `t` writes back is block `t` of `G4` of the arrays as the region finds them. -/
theorem flushed4_eq (c : Dev nD) (t : Fin cfg4.N) :
    (dat4 (F := Ideal) V c).flushed 3 t = ((cfg4.win 3).blk t).view.read (Elt Ideal) (G4 V c) := by
  show (cfg4.win 3).cut (cfg4.grid.coords t) ((dat4 (F := Ideal) V c).after 3 t) = _
  rw [after4_3]
  unfold out4_3
  rw [View.canon_unit_zero hz4]
  simp only [View.ld_unit_zero (S := S128x64) hz4, View.ld_unit_zero (S := S64x32) hz4, View.ld_unit_zero (S := S1x32) hz4]
  rw [iblk4_0_eq, iblk4_1_eq, iblk4_2_eq]
  obtain ⟨-, -, -, -, -, -, e0, e1⟩ := idx_facts4 t
  funext j
  show k4_pay1 (F := Ideal) (V c main_v65) (V c main_arg9) (V c main_v66) j = G4 V c (((cfg4.win 3).blk t).view.emb j)
  have he : ((cfg4.win 3).blk t).view.emb j = (j : S128x32.Idx) := by
    funext a; apply Fin.ext
    match a with
    | ⟨0, _⟩ => show win4_3.index t (0 : Fin 2) * 128 + 1 * (j 0).val = (j 0).val; omega
    | ⟨1, _⟩ => show win4_3.index t (1 : Fin 2) * 32 + 1 * (j 1).val = (j 1).val; omega
  rw [he]
  exact k4_pay1_eq_lin _ _ _ j

/-- An index of the array is in point `t`'s block iff each coordinate is in the block's range on its axis. -/
theorem mem_blk4 (t : Fin cfg4.N) (i : S128x32.Idx) :
    i ∈ ((cfg4.win 3).blk t).view.set ↔ ∀ a : Fin 2, win4_3.index t a * S128x32.size a ≤ (i a).val ∧ (i a).val < win4_3.index t a * S128x32.size a + S128x32.size a := by
  show i ∈ ((View.whole main_v67).slice (win4_3.rect t)).set ↔ _
  rw [View.set_slice_whole, Rect.mem_set_unit]
  exact Iff.rfl

/-- The one point's block covers the output array. -/
theorem cover4 (i : S128x32.Idx) : ∃ t : Fin cfg4.N, (cfg4.win 3).flush t = true ∧ i ∈ ((cfg4.win 3).blk t).view.set := by
  refine ⟨t4_0, flush4_3 t4_0, ?_⟩
  obtain ⟨-, -, -, -, -, -, e0, e1⟩ := idx_facts4 t4_0
  rw [mem_blk4]
  intro a
  have h0 : (i 0).val < 128 := (i 0).isLt
  have h1 : (i 1).val < 32 := (i 1).isLt
  match a with
  | ⟨0, _⟩ => show win4_3.index t4_0 (0 : Fin 2) * 128 ≤ (i 0).val ∧ (i 0).val < win4_3.index t4_0 (0 : Fin 2) * 128 + 128; omega
  | ⟨1, _⟩ => show win4_3.index t4_0 (1 : Fin 2) * 32 ≤ (i 1).val ∧ (i 1).val < win4_3.index t4_0 (1 : Fin 2) * 32 + 32; omega

/-! ## The array after the region -/

/-- The output array after the last point is `G4` of the arrays the region read. -/
theorem final4_arr (c : Dev nD) : (dat4 (F := Ideal) V c).arrAt 3 cfg4.N = G4 V c :=
  (dat4 (F := Ideal) V c).arrAt_eq_of_cover 3 (G4 V c) (fun t _ => flushed4_eq V c t) (cover4)

/-- Entry (g, o) of the output array after the region is the output layer of the whole arrays the region read. -/
theorem final4 (V : (c : Dev nD) → (b : Ref sig .tc) → Buf (Elt Ideal) ((c : Thread nD τ).loc b)) (c : Dev nD) (g : Fin 128) (o : Fin 32) :
    (dat4 (F := Ideal) V c).arrAt 3 cfg4.N (ix2 g o) = lin (V c main_v65) (V c main_arg9) (V c main_v66) g o := by
  rw [final4_arr V c]
  rfl

end Cert.KernelIdeal.Val

end
-- ==== Proof.Val.KChain.lean ====
/-
  The kernel program at the ideal instance, region by region, as functions of the launch arguments.

  Each region's output array, as a whole array, is its specification function of the arrays its windows read; those
  arrays are a host stretch's functions of the previous region's output and of launch arguments that nothing has
  written since. Composing the five regions with the host stretches between them gives the last region's output as
  one nest of the specification functions and the host functions over the launch arguments.
-/
import proofs.«415797_j26783416058161_2_alg».proof.Proof.KI.Fold
import proofs.«415797_j26783416058161_2_alg».proof.Proof.Val.Spec
import proofs.«415797_j26783416058161_2_alg».proof.Proof.Val.KHost
import proofs.«415797_j26783416058161_2_alg».proof.Proof.Val.KerSide
import proofs.«415797_j26783416058161_2_alg».proof.Proof.Val.V0
import proofs.«415797_j26783416058161_2_alg».proof.Proof.Val.V1
import proofs.«415797_j26783416058161_2_alg».proof.Proof.Val.V2
import proofs.«415797_j26783416058161_2_alg».proof.Proof.Val.V3
import proofs.«415797_j26783416058161_2_alg».proof.Proof.Val.V4
import Idealize.ShloMosaic.Lib.ValueIdx

set_option maxRecDepth 16384

noncomputable section

namespace Cert.KernelIdeal.Val

open Idealize.ShloMosaic Idealize.ShloMosaic.TcCoe Idealize.ShloMosaic.ValueIdx
open Cert.KernelIdeal Cert.KernelIdeal.Gen Cert.Proof.Spec

variable [Cert.KernelIdeal.Facts₀]

/-! ## A region's output as a whole array, from what its windows' arrays hold

Each lemma: if the arrays the region's windows read hold a b …, the array the region leaves is the specification
function of a b …, as a function of the index. -/

section Regions
variable (V : (c : Dev nD) → (b : Ref sig .tc) → Buf (Elt Ideal) ((c : Thread nD τ).loc b)) (c : Dev nD)

/-- Region 0: the scaled product of the rows. -/
theorem out0_of (x : Arr S100000x64 .f32) (W : Arr S64x64 .f32) (d : Arr S100000x1 .f32)
    (hx : V c main_arg0 = x) (hW : V c main_arg3 = W) (hd : V c main_v15 = d) :
    (dat0 (F := Ideal) V c).arrAt 3 cfg0.N = fun i : S100000x64.Idx => scaled x W d (i 0) (i 1) := by
  subst hx hW hd
  refine funext fun (i : S100000x64.Idx) => ?_
  obtain ⟨n, f, rfl⟩ : ∃ (n : Fin 100000) (f : Fin 64), i = ix2 n f := ⟨i 0, i 1, eq_ix2 i⟩
  exact final0 V c n f

/-- Region 1: the scaled product of the activated rows. -/
theorem out1_of (a : Arr S100000x64 .f32) (d : Arr S100000x1 .f32) (r : Arr S1x64 .f32) (W : Arr S64x64 .f32)
    (ha : V c main_v28 = a) (hd : V c main_v15 = d) (hr : V c main_v29 = r) (hW : V c main_arg5 = W) :
    (dat1 (F := Ideal) V c).arrAt 4 cfg1.N = fun i : S100000x64.Idx => scaled (actArr a d r) W d (i 0) (i 1) := by
  subst ha hd hr hW
  refine funext fun (i : S100000x64.Idx) => ?_
  obtain ⟨n, f, rfl⟩ : ∃ (n : Fin 100000) (f : Fin 64), i = ix2 n f := ⟨i 0, i 1, eq_ix2 i⟩
  exact final1 V c n f

/-- Region 2: the same over its own arrays. -/
theorem out2_of (a : Arr S100000x64 .f32) (d : Arr S100000x1 .f32) (r : Arr S1x64 .f32) (W : Arr S64x64 .f32)
    (ha : V c main_v41 = a) (hd : V c main_v15 = d) (hr : V c main_v42 = r) (hW : V c main_arg7 = W) :
    (dat2 (F := Ideal) V c).arrAt 4 cfg2.N = fun i : S100000x64.Idx => scaled (actArr a d r) W d (i 0) (i 1) := by
  subst ha hd hr hW
  refine funext fun (i : S100000x64.Idx) => ?_
  obtain ⟨n, f, rfl⟩ : ∃ (n : Fin 100000) (f : Fin 64), i = ix2 n f := ⟨i 0, i 1, eq_ix2 i⟩
  exact final2 V c n f

/-- Region 3: the sums of the activated rows over each graph. -/
theorem out3_of (a : Arr S100000x64 .f32) (d : Arr S100000x1 .f32) (r : Arr S1x64 .f32) (bc : Arr S100000x1 .i32)
    (ha : V c main_v54 = a) (hd : V c main_v15 = d) (hr : V c main_v55 = r) (hb : V c main_v16 = bc) :
    (dat3 (F := Ideal) V c).arrAt 4 cfg3.N = fun i : S128x64.Idx => pooled (actArr a d r) bc (i 0) (i 1) := by
  subst ha hd hr hb
  refine funext fun (i : S128x64.Idx) => ?_
  obtain ⟨g, f, rfl⟩ : ∃ (g : Fin 128) (f : Fin 64), i = ix2 g f := ⟨i 0, i 1, eq_ix2 i⟩
  exact final3 V c g f

/-- Region 4: the output layer. -/
theorem out4_of (p : Arr S128x64 .f32) (W : Arr S64x32 .f32) (r : Arr S1x32 .f32)
    (hp : V c main_v65 = p) (hW : V c main_arg9 = W) (hr : V c main_v66 = r) :
    (dat4 (F := Ideal) V c).arrAt 3 cfg4.N = fun i : S128x32.Idx => lin p W r (i 0) (i 1) := by
  subst hp hW hr
  refine funext fun (i : S128x32.Idx) => ?_
  obtain ⟨g, o, rfl⟩ : ∃ (g : Fin 128) (o : Fin 32), i = ix2 g o := ⟨i 0, i 1, eq_ix2 i⟩
  exact final4 V c g o

end Regions

/-! ## The five outputs along the program, from the launch memory -/

variable (m : (ℓ : Loc nD τ sig) → Buf (Elt Ideal) ℓ) (c : Dev nD)

/-- Region 0's output: the rows of x · W1, scaled. -/
theorem o4_eq : o4 m c = fun i : S100000x64.Idx =>
    scaled (m ((c : Thread nD τ).loc main_arg0)) (m ((c : Thread nD τ).loc main_arg3)) (kDinv (m ((c : Thread nD τ).loc main_arg1))) (i 0) (i 1) :=
  out0_of (U3 m) c _ _ _ (keep_3_main_arg0 m c) (keep_3_main_arg3 m c) (dinv3 m c)

/-- Region 1's output, over region 0's. -/
theorem o6_eq : o6 m c = fun i : S100000x64.Idx =>
    scaled (actArr (kAgg (o4 m c) (m ((c : Thread nD τ).loc main_arg1))) (kDinv (m ((c : Thread nD τ).loc main_arg1))) (kRow64 (m ((c : Thread nD τ).loc main_arg4))))
      (m ((c : Thread nD τ).loc main_arg5)) (kDinv (m ((c : Thread nD τ).loc main_arg1))) (i 0) (i 1) :=
  out1_of (U5 m) c _ _ _ _ (agg5 m c) (dinv5 m c) (row5 m c) (keep_5_main_arg5 m c)

/-- Region 2's output, over region 1's. -/
theorem o8_eq : o8 m c = fun i : S100000x64.Idx =>
    scaled (actArr (kAgg (o6 m c) (m ((c : Thread nD τ).loc main_arg1))) (kDinv (m ((c : Thread nD τ).loc main_arg1))) (kRow64 (m ((c : Thread nD τ).loc main_arg6))))
      (m ((c : Thread nD τ).loc main_arg7)) (kDinv (m ((c : Thread nD τ).loc main_arg1))) (i 0) (i 1) :=
  out2_of (U7 m) c _ _ _ _ (agg7 m c) (dinv7 m c) (row7 m c) (keep_7_main_arg7 m c)

/-- Region 3's output, over region 2's. -/
theorem o10_eq : o10 m c = fun i : S128x64.Idx =>
    pooled (actArr (kAgg (o8 m c) (m ((c : Thread nD τ).loc main_arg1))) (kDinv (m ((c : Thread nD τ).loc main_arg1))) (kRow64 (m ((c : Thread nD τ).loc main_arg8))))
      (kBatchCol (m ((c : Thread nD τ).loc main_arg2))) (i 0) (i 1) :=
  out3_of (U9 m) c _ _ _ _ (agg9 m c) (dinv9 m c) (row9 m c) (bcol9 m c)

/-- Region 4's output, over region 3's. -/
theorem o12_eq : o12 m c = fun i : S128x32.Idx =>
    lin (kDiv (o10 m c) (m ((c : Thread nD τ).loc main_arg2))) (m ((c : Thread nD τ).loc main_arg9)) (kRow32 (m ((c : Thread nD τ).loc main_arg10))) (i 0) (i 1) :=
  out4_of (U11 m) c _ _ _ (div11 m c) (keep_11_main_arg9 m c) (row11 m c)

end Cert.KernelIdeal.Val

end
-- ==== Proof.IndexFacts.lean ====
/-
  Index facts for the one row-gather shape and the three segment-sum scatter shapes of the host program:
  which operand element a gathered element reads, and at which operand element an update lands, as
  statements about the start index read as a signed integer. Also the negative-index wrap on a
  non-negative index and the [n] → [n, 1] column read at a row. No program run is involved.
-/
import proofs.«415797_j26783416058161_2_alg».proof.ReferenceIdeal
import Idealize.ShloMosaic.Lib.ValueIdx
import Idealize.ShloMosaic.Lib.StableHlo.Predicate
import Idealize.ShloMosaic.PureOps.Ideal

namespace Cert.Proof.IndexFacts

open Idealize.ShloMosaic Idealize.ShloMosaic.ValueIdx
open Cert.ReferenceIdeal Cert.ReferenceIdeal.Facts₀

/-! ## A scatter's landing index, for any dimension numbers -/

/-- An update lands at `i` exactly when, on every operand axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · next hh =>
      have hi := Option.some.inj h
      intro a
      rw [← hi]
      have := hh a
      simp only []
      omega
    · cases h
  · intro h
    have hh : ∀ a, 0 ≤ d.start j idx a + d.window j a ∧ d.start j idx a + d.window j a < s.size a := by
      intro a
      have := h a
      have := (i a).isLt
      omega
    rw [dif_pos hh]
    congr 1
    funext a
    apply Fin.ext
    have := h a
    simp only []
    omega

variable [Facts₀]

/-! ## The 1-D row gather -/

/-- The 1-D gather reads the start index, read signed, clamped into [0, 99999]. -/
theorem gather1_val (e : S1700000.Idx) (idx : IVec S1700000x1 32) :
    ((gather_S100000_S1700000x1_S1700000_n_0_n_n_0_1_1.operandIdx e idx) 0).val
      = min (idx (ix2 (e 0) 0)).toInt.toNat 99999 := by
  show gather_S100000_S1700000x1_S1700000_n_0_n_n_0_1_1.start e idx 0
      + gather_S100000_S1700000x1_S1700000_n_0_n_n_0_1_1.batchCoord e 0
      + gather_S100000_S1700000x1_S1700000_n_0_n_n_0_1_1.offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S1700000x1_S1700000_n_0_n_n_0_1_1.startIndexMap from
    List.mem_singleton.mpr rfl)]
  have hsi : gather_S100000_S1700000x1_S1700000_n_0_n_n_0_1_1.siIdx e
      ⟨List.idxOf (0 : Fin 1) gather_S100000_S1700000x1_S1700000_n_0_n_n_0_1_1.startIndexMap,
        List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- A start index already inside [0, 100000) is not moved by the clamp. -/
theorem gather1_of_inrange (e : S1700000.Idx) (idx : IVec S1700000x1 32) (n : Fin 100000)
    (h : (idx (ix2 (e 0) 0)).toInt = (n.val : ℤ)) :
    gather_S100000_S1700000x1_S1700000_n_0_n_n_0_1_1.operandIdx e idx = ix1 n := by
  funext a
  obtain rfl : a = 0 := Subsingleton.elim _ _
  apply Fin.ext
  rw [gather1_val, h]
  have := n.isLt
  show min ((n.val : ℤ)).toNat 99999 = n.val
  omega

/-! ## The 2-D row gather -/

/-- The 2-D gather's row: the start index, read signed, clamped into [0, 99999]. -/
theorem gather2_val0 (j : S1700000x64.Idx) (idx : IVec S1700000x1 32) :
    ((gather_S100000x64_S1700000x1_S1700000x64_1_0_n_n_0_1_164.operandIdx j idx) 0).val
      = min (idx (ix2 (j 0) 0)).toInt.toNat 99999 := by
  show gather_S100000x64_S1700000x1_S1700000x64_1_0_n_n_0_1_164.start j idx 0
      + gather_S100000x64_S1700000x1_S1700000x64_1_0_n_n_0_1_164.batchCoord j 0
      + gather_S100000x64_S1700000x1_S1700000x64_1_0_n_n_0_1_164.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x64_S1700000x1_S1700000x64_1_0_n_n_0_1_164.startIndexMap from
    List.mem_singleton.mpr rfl)]
  have hsi : gather_S100000x64_S1700000x1_S1700000x64_1_0_n_n_0_1_164.siIdx j
      ⟨List.idxOf (0 : Fin 2) gather_S100000x64_S1700000x1_S1700000x64_1_0_n_n_0_1_164.startIndexMap,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The 2-D gather's column: the result's column (the one offset axis; the start on that axis is 0). -/
theorem gather2_val1 (j : S1700000x64.Idx) (idx : IVec S1700000x1 32) :
    ((gather_S100000x64_S1700000x1_S1700000x64_1_0_n_n_0_1_164.operandIdx j idx) 1).val = (j 1).val := by
  show gather_S100000x64_S1700000x1_S1700000x64_1_0_n_n_0_1_164.start j idx 1
      + gather_S100000x64_S1700000x1_S1700000x64_1_0_n_n_0_1_164.batchCoord j 1
      + gather_S100000x64_S1700000x1_S1700000x64_1_0_n_n_0_1_164.offCoord j 1 = _
  rw [GatherDims.batchCoord_eq_zero _ _ _ List.not_mem_nil]
  unfold GatherDims.start
  rw [dif_neg (show (1 : Fin 2) ∉ gather_S100000x64_S1700000x1_S1700000x64_1_0_n_n_0_1_164.startIndexMap from
    (by decide : (1 : Fin 2) ∉ [(0 : Fin 2)]))]
  simp only [Nat.add_zero, Nat.zero_add]
  unfold GatherDims.offCoord
  rw [dif_pos (show (1 : Fin 2) ∈ gather_S100000x64_S1700000x1_S1700000x64_1_0_n_n_0_1_164.sKept from
    (by decide : (1 : Fin S100000x64.rank) ∈ S100000x64.kept ([0] ++ [])))]
  rfl

/-- The row a 2-D row gather reads is the index the 1-D gather of the same start indices reads; the
    column is kept. -/
theorem gather2_operandIdx (j : S1700000x64.Idx) (idx : IVec S1700000x1 32) :
    gather_S100000x64_S1700000x1_S1700000x64_1_0_n_n_0_1_164.operandIdx j idx
      = ix2 ((gather_S100000_S1700000x1_S1700000_n_0_n_n_0_1_1.operandIdx (ix1 (j 0)) idx) 0) (j 1) := by
  funext a
  match a with
  | ⟨0, _⟩ =>
    apply Fin.ext
    show ((gather_S100000x64_S1700000x1_S1700000x64_1_0_n_n_0_1_164.operandIdx j idx) 0).val
      = ((gather_S100000_S1700000x1_S1700000_n_0_n_n_0_1_1.operandIdx (ix1 (j 0)) idx) 0).val
    rw [gather2_val0, gather1_val]
  | ⟨1, _⟩ =>
    apply Fin.ext
    exact gather2_val1 j idx

/-! ## The scatters -/

/-- The 1-D scatter's start on the one operand axis: the scatter index of the update's position, read signed. -/
theorem scatter1_start (e : S1700000.Idx) (idx : IVec S1700000x1 32) :
    scatter_S100000_S1700000x1_S1700000_n_0_0_1.start e idx 0 = (idx (ix2 (e 0) 0)).toInt := by
  unfold ScatterDims.start
  rw [dif_pos (show (0 : Fin 1) ∈ scatter_S100000_S1700000x1_S1700000_n_0_0_1.scatterDimsToOperandDims from
    List.mem_singleton.mpr rfl)]
  have hsi : scatter_S100000_S1700000x1_S1700000_n_0_0_1.siIdx e
      ⟨List.idxOf (0 : Fin 1) scatter_S100000_S1700000x1_S1700000_n_0_0_1.scatterDimsToOperandDims,
        List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The one operand axis is an inserted axis: no window coordinate. -/
theorem scatter1_window (e : S1700000.Idx) :
    scatter_S100000_S1700000x1_S1700000_n_0_0_1.window e 0 = 0 := by
  unfold ScatterDims.window
  rw [dif_neg (show (0 : Fin 1) ∉ scatter_S100000_S1700000x1_S1700000_n_0_0_1.sKept from
    (by decide : (0 : Fin S100000.rank) ∉ S100000.kept [0]))]

/-- An update of the 1-D segment sum lands at `n` exactly when its index, read signed, is `n`. -/
theorem scatter1_lands (e : S1700000.Idx) (idx : IVec S1700000x1 32) (n : S100000.Idx) :
    scatter_S100000_S1700000x1_S1700000_n_0_0_1.resultIdx? e idx = some n
      ↔ (idx (ix2 (e 0) 0)).toInt = ((n 0).val : ℤ) := by
  rw [resultIdx?_eq_some_iff]
  constructor
  · intro h
    have := h 0
    rw [scatter1_start, scatter1_window] at this
    simpa using this
  · intro h a
    obtain rfl : a = 0 := Subsingleton.elim _ _
    rw [scatter1_start, scatter1_window]
    simpa using h

/-- The row axis' start: the scatter index of the update's row, read signed. -/
theorem scatter2_start0 (j : S1700000x64.Idx) (idx : IVec S1700000x1 32) :
    scatter_S100000x64_S1700000x1_S1700000x64_1_0_0_1.start j idx 0 = (idx (ix2 (j 0) 0)).toInt := by
  unfold ScatterDims.start
  rw [dif_pos (show (0 : Fin 2) ∈ scatter_S100000x64_S1700000x1_S1700000x64_1_0_0_1.scatterDimsToOperandDims from
    List.mem_singleton.mpr rfl)]
  have hsi : scatter_S100000x64_S1700000x1_S1700000x64_1_0_0_1.siIdx j
      ⟨List.idxOf (0 : Fin 2) scatter_S100000x64_S1700000x1_S1700000x64_1_0_0_1.scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The column axis is not a scattered axis: start 0. -/
theorem scatter2_start1 (j : S1700000x64.Idx) (idx : IVec S1700000x1 32) :
    scatter_S100000x64_S1700000x1_S1700000x64_1_0_0_1.start j idx 1 = 0 := by
  unfold ScatterDims.start
  rw [dif_neg (show (1 : Fin 2) ∉ scatter_S100000x64_S1700000x1_S1700000x64_1_0_0_1.scatterDimsToOperandDims from
    (by decide : (1 : Fin 2) ∉ [(0 : Fin 2)]))]

/-- The row axis is an inserted axis: no window coordinate. -/
theorem scatter2_window0 (j : S1700000x64.Idx) :
    scatter_S100000x64_S1700000x1_S1700000x64_1_0_0_1.window j 0 = 0 := by
  unfold ScatterDims.window
  rw [dif_neg (show (0 : Fin 2) ∉ scatter_S100000x64_S1700000x1_S1700000x64_1_0_0_1.sKept from
    (by decide : (0 : Fin S100000x64.rank) ∉ S100000x64.kept [0]))]

/-- The column axis' window coordinate is the update's column. -/
theorem scatter2_window1 (j : S1700000x64.Idx) :
    scatter_S100000x64_S1700000x1_S1700000x64_1_0_0_1.window j 1 = (j 1).val := by
  unfold ScatterDims.window
  rw [dif_pos (show (1 : Fin 2) ∈ scatter_S100000x64_S1700000x1_S1700000x64_1_0_0_1.sKept from
    (by decide : (1 : Fin S100000x64.rank) ∈ S100000x64.kept [0]))]
  rfl

/-- An update row of the 2-D segment sum lands at row `i 0`, same column, exactly when its index,
    read signed, is `i 0`. -/
theorem scatter2_lands (j : S1700000x64.Idx) (idx : IVec S1700000x1 32) (i : S100000x64.Idx) :
    scatter_S100000x64_S1700000x1_S1700000x64_1_0_0_1.resultIdx? j idx = some i
      ↔ ((idx (ix2 (j 0) 0)).toInt = ((i 0).val : ℤ) ∧ (j 1).val = (i 1).val) := by
  rw [resultIdx?_eq_some_iff]
  constructor
  · intro h
    have h0 := h 0
    have h1 := h 1
    rw [scatter2_start0, scatter2_window0] at h0
    rw [scatter2_start1, scatter2_window1] at h1
    refine ⟨by simpa using h0, ?_⟩
    have : ((j 1).val : ℤ) = ((i 1).val : ℤ) := by simpa using h1
    exact_mod_cast this
  · rintro ⟨h0, h1⟩ a
    match a with
    | ⟨0, _⟩ =>
      show scatter_S100000x64_S1700000x1_S1700000x64_1_0_0_1.start j idx 0
        + (scatter_S100000x64_S1700000x1_S1700000x64_1_0_0_1.window j 0 : ℤ) = ((i 0).val : ℤ)
      rw [scatter2_start0, scatter2_window0]
      simpa using h0
    | ⟨1, _⟩ =>
      show scatter_S100000x64_S1700000x1_S1700000x64_1_0_0_1.start j idx 1
        + (scatter_S100000x64_S1700000x1_S1700000x64_1_0_0_1.window j 1 : ℤ) = ((i 1).val : ℤ)
      rw [scatter2_start1, scatter2_window1, h1]
      simp

/-- The row axis' start: the segment id of the update's row, read signed. -/
theorem scatter3_start0 (j : S100000x64.Idx) (idx : IVec S100000x1 32) :
    scatter_S128x64_S100000x1_S100000x64_1_0_0_1.start j idx 0 = (idx (ix2 (j 0) 0)).toInt := by
  unfold ScatterDims.start
  rw [dif_pos (show (0 : Fin 2) ∈ scatter_S128x64_S100000x1_S100000x64_1_0_0_1.scatterDimsToOperandDims from
    List.mem_singleton.mpr rfl)]
  have hsi : scatter_S128x64_S100000x1_S100000x64_1_0_0_1.siIdx j
      ⟨List.idxOf (0 : Fin 2) scatter_S128x64_S100000x1_S100000x64_1_0_0_1.scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The column axis is not a scattered axis: start 0. -/
theorem scatter3_start1 (j : S100000x64.Idx) (idx : IVec S100000x1 32) :
    scatter_S128x64_S100000x1_S100000x64_1_0_0_1.start j idx 1 = 0 := by
  unfold ScatterDims.start
  rw [dif_neg (show (1 : Fin 2) ∉ scatter_S128x64_S100000x1_S100000x64_1_0_0_1.scatterDimsToOperandDims from
    (by decide : (1 : Fin 2) ∉ [(0 : Fin 2)]))]

/-- The row axis is an inserted axis: no window coordinate. -/
theorem scatter3_window0 (j : S100000x64.Idx) :
    scatter_S128x64_S100000x1_S100000x64_1_0_0_1.window j 0 = 0 := by
  unfold ScatterDims.window
  rw [dif_neg (show (0 : Fin 2) ∉ scatter_S128x64_S100000x1_S100000x64_1_0_0_1.sKept from
    (by decide : (0 : Fin S128x64.rank) ∉ S128x64.kept [0]))]

/-- The column axis' window coordinate is the update's column. -/
theorem scatter3_window1 (j : S100000x64.Idx) :
    scatter_S128x64_S100000x1_S100000x64_1_0_0_1.window j 1 = (j 1).val := by
  unfold ScatterDims.window
  rw [dif_pos (show (1 : Fin 2) ∈ scatter_S128x64_S100000x1_S100000x64_1_0_0_1.sKept from
    (by decide : (1 : Fin S128x64.rank) ∈ S128x64.kept [0]))]
  rfl

/-- A row of the pooling segment sum lands at graph `i 0`, same column, exactly when its segment id,
    read signed, is `i 0`. -/
theorem scatter3_lands (j : S100000x64.Idx) (idx : IVec S100000x1 32) (i : S128x64.Idx) :
    scatter_S128x64_S100000x1_S100000x64_1_0_0_1.resultIdx? j idx = some i
      ↔ ((idx (ix2 (j 0) 0)).toInt = ((i 0).val : ℤ) ∧ (j 1).val = (i 1).val) := by
  rw [resultIdx?_eq_some_iff]
  constructor
  · intro h
    have h0 := h 0
    have h1 := h 1
    rw [scatter3_start0, scatter3_window0] at h0
    rw [scatter3_start1, scatter3_window1] at h1
    refine ⟨by simpa using h0, ?_⟩
    have : ((j 1).val : ℤ) = ((i 1).val : ℤ) := by simpa using h1
    exact_mod_cast this
  · rintro ⟨h0, h1⟩ a
    match a with
    | ⟨0, _⟩ =>
      show scatter_S128x64_S100000x1_S100000x64_1_0_0_1.start j idx 0
        + (scatter_S128x64_S100000x1_S100000x64_1_0_0_1.window j 0 : ℤ) = ((i 0).val : ℤ)
      rw [scatter3_start0, scatter3_window0]
      simpa using h0
    | ⟨1, _⟩ =>
      show scatter_S128x64_S100000x1_S100000x64_1_0_0_1.start j idx 1
        + (scatter_S128x64_S100000x1_S100000x64_1_0_0_1.window j 1 : ℤ) = ((i 1).val : ℤ)
      rw [scatter3_start1, scatter3_window1, h1]
      simp

/-! ## The negative-index wrap and the column broadcast -/

/-- The negative-index wrap leaves a non-negative index alone. -/
theorem wrap_of_nonneg (v : IVec S1700000 32) (e : S1700000.Idx) (h : 0 ≤ (v e).toInt) :
    select (cmpi .slt v (broadcastInDim S1700000 ![] bcast_S_S1700000 (constantI S_ 32 0#32)))
           (addi v (broadcastInDim S1700000 ![] bcast_S_S1700000 (constantI S_ 32 100000#32))) v e = v e := by
  show Scalar.select (IntOp.cmpi .slt (v e) 0#32) _ (v e) = v e
  have hc : IntOp.cmpi .slt (v e) 0#32 = 0#1 := by
    have : (v e).slt 0#32 = false := by
      rw [BitVec.slt]
      simp only [decide_eq_false_iff_not, not_lt]
      simpa using h
    show BitVec.ofBool ((v e).slt 0#32) = 0#1
    rw [this]; rfl
  rw [hc]
  exact select_zero _ _

/-- The [n] → [n, 1] column reads, at row `e`, the vector at `e`. -/
theorem col_apply {α : Type} (v : S1700000.Idx → α) (e : S1700000.Idx) :
    broadcastInDim S1700000x1 ![0] bcast_S1700000_S1700000x1_0 v (ix2 (e 0) 0) = v e := by
  simp only [broadcastInDim]
  congr 1
  funext a
  obtain rfl : a = 0 := Subsingleton.elim _ _
  apply Fin.ext
  split
  · next h1 => exact absurd h1 (by decide)
  · rfl

end Cert.Proof.IndexFacts
-- ==== Proof.Val.RefSide.lean ====
/-
  The reference program's stages regrouped: its three graph-convolution layers are three applications of ONE layer
  function (a linear map, a gather along the edges' sources, the edge weights, a scatter-add to the edges' targets,
  the bias, the rectifier), followed by a tail (the pooling sum per graph, the division by the graph's size, the
  output layer). The reference recomputes the degree normalization and the edge index columns once per layer, from
  the same operations under different names: those stages are equal, by unfolding both chains.
  Generic in the float model.
-/
import proofs.«415797_j26783416058161_2_alg».proof.Proof.RefReadP

noncomputable section

namespace Cert.Proof.RefSide

open Cert.ReferenceIdeal Cert.ReferenceIdeal.Read Idealize.ShloMosaic

variable {F : FTy → Type} [FloatOps F]

/-! ## One layer, as a function of its input -/

/-- The reference's first layer with its input replaced by `hin`: the linear map `hin · W`, gathered along the
    edges' sources, times the edge weights, scatter-added to the edges' targets, plus the bias, rectified. -/
def refLayer' (hin : (⟨S100000x64, .f32⟩ : BufTy).Contents (Elt F)) (ei : (⟨S2x1600000, .i32⟩ : BufTy).Contents (Elt F)) (W : (⟨S64x64, .f32⟩ : BufTy).Contents (Elt F)) (b : (⟨S64, .f32⟩ : BufTy).Contents (Elt F)) : (⟨S100000x64, .f32⟩ : BufTy).Contents (Elt F) :=
  maximumf (addf (Host.scatterAdd scatter_S100000x64_S1700000x1_S1700000x64_1_0_0_1 (val_main_v41 (F := F)) (val_main_v42 (F := F) ei)
      (mulf (Host.gather gather_S100000x64_S1700000x1_S1700000x64_1_0_n_n_0_1_164 (Host.dotGeneral dot_S100000x64_S64x64_S100000x64_1_0_0_1_n_n none hin W) (val_main_v36 (F := F) ei)) (val_main_v39 (F := F) ei)))
    (val_main_v45 (F := F) b)) (val_main_call1_v0 (F := F))

/-- The first layer is the layer function of the program's input. -/
theorem v47_eq' (x0 : (⟨S100000x64, .f32⟩ : BufTy).Contents (Elt F)) (ei : (⟨S2x1600000, .i32⟩ : BufTy).Contents (Elt F)) (W : (⟨S64x64, .f32⟩ : BufTy).Contents (Elt F)) (b : (⟨S64, .f32⟩ : BufTy).Contents (Elt F)) : val_main_v47 (F := F) x0 ei W b = refLayer' x0 ei W b := rfl

/-! ## The degree normalization, computed three times -/

theorem dinv_2 (ei : (⟨S2x1600000, .i32⟩ : BufTy).Contents (Elt F)) : val_main_v59 (F := F) ei = val_main_v15 ei := rfl
theorem dinv_3 (ei : (⟨S2x1600000, .i32⟩ : BufTy).Contents (Elt F)) : val_main_v103 (F := F) ei = val_main_v15 ei := rfl

/-! ## The edge-only stages of layer 2 are layer 1's -/

theorem v80_eq (ei : (⟨S2x1600000, .i32⟩ : BufTy).Contents (Elt F)) : val_main_v80 (F := F) ei = val_main_v36 ei := rfl
theorem v83_eq (ei : (⟨S2x1600000, .i32⟩ : BufTy).Contents (Elt F)) : val_main_v83 (F := F) ei = val_main_v39 ei := rfl
theorem v85_eq : val_main_v85 (F := F) = val_main_v41 := rfl
theorem v86_eq (ei : (⟨S2x1600000, .i32⟩ : BufTy).Contents (Elt F)) : val_main_v86 (F := F) ei = val_main_v42 ei := rfl
theorem v89_eq (b : (⟨S64, .f32⟩ : BufTy).Contents (Elt F)) : val_main_v89 (F := F) b = val_main_v45 b := rfl
theorem call3_v0_eq : val_main_call3_v0 (F := F) = val_main_call1_v0 := rfl

/-! ## The edge-only stages of layer 3 are layer 1's -/

theorem v124_eq (ei : (⟨S2x1600000, .i32⟩ : BufTy).Contents (Elt F)) : val_main_v124 (F := F) ei = val_main_v36 ei := rfl
theorem v127_eq (ei : (⟨S2x1600000, .i32⟩ : BufTy).Contents (Elt F)) : val_main_v127 (F := F) ei = val_main_v39 ei := rfl
theorem v129_eq : val_main_v129 (F := F) = val_main_v41 := rfl
theorem v130_eq (ei : (⟨S2x1600000, .i32⟩ : BufTy).Contents (Elt F)) : val_main_v130 (F := F) ei = val_main_v42 ei := rfl
theorem v133_eq (b : (⟨S64, .f32⟩ : BufTy).Contents (Elt F)) : val_main_v133 (F := F) b = val_main_v45 b := rfl
theorem call5_v0_eq : val_main_call5_v0 (F := F) = val_main_call1_v0 := rfl

/-! ## Layers 2 and 3 are the layer function of the layer before -/

theorem v91_eq (x0 : (⟨S100000x64, .f32⟩ : BufTy).Contents (Elt F)) (ei : (⟨S2x1600000, .i32⟩ : BufTy).Contents (Elt F)) (W1 : (⟨S64x64, .f32⟩ : BufTy).Contents (Elt F)) (b1 : (⟨S64, .f32⟩ : BufTy).Contents (Elt F)) (W2 : (⟨S64x64, .f32⟩ : BufTy).Contents (Elt F)) (b2 : (⟨S64, .f32⟩ : BufTy).Contents (Elt F)) :
    val_main_v91 (F := F) x0 ei W1 b1 W2 b2 = refLayer' (val_main_v47 x0 ei W1 b1) ei W2 b2 := by
  unfold val_main_v91 val_main_v90 val_main_v87 val_main_v84 val_main_v81 val_main_v48 refLayer'
  rw [v80_eq, v83_eq, v85_eq, v86_eq, v89_eq, call3_v0_eq]

theorem v135_eq (x0 : (⟨S100000x64, .f32⟩ : BufTy).Contents (Elt F)) (ei : (⟨S2x1600000, .i32⟩ : BufTy).Contents (Elt F)) (W1 : (⟨S64x64, .f32⟩ : BufTy).Contents (Elt F)) (b1 : (⟨S64, .f32⟩ : BufTy).Contents (Elt F)) (W2 : (⟨S64x64, .f32⟩ : BufTy).Contents (Elt F)) (b2 : (⟨S64, .f32⟩ : BufTy).Contents (Elt F)) (W3 : (⟨S64x64, .f32⟩ : BufTy).Contents (Elt F)) (b3 : (⟨S64, .f32⟩ : BufTy).Contents (Elt F)) :
    val_main_v135 (F := F) x0 ei W1 b1 W2 b2 W3 b3 = refLayer' (val_main_v91 x0 ei W1 b1 W2 b2) ei W3 b3 := by
  unfold val_main_v135 val_main_v134 val_main_v131 val_main_v128 val_main_v125 val_main_v92 refLayer'
  rw [v124_eq, v127_eq, v129_eq, v130_eq, v133_eq, call5_v0_eq]

/-! ## The tail -/

/-- The pooling numerator: the last layer's rows scatter-added by graph id. -/
theorem v138_eq (x0 : (⟨S100000x64, .f32⟩ : BufTy).Contents (Elt F)) (ei : (⟨S2x1600000, .i32⟩ : BufTy).Contents (Elt F)) (bt : (⟨S100000, .i32⟩ : BufTy).Contents (Elt F)) (W1 : (⟨S64x64, .f32⟩ : BufTy).Contents (Elt F)) (b1 : (⟨S64, .f32⟩ : BufTy).Contents (Elt F)) (W2 : (⟨S64x64, .f32⟩ : BufTy).Contents (Elt F)) (b2 : (⟨S64, .f32⟩ : BufTy).Contents (Elt F)) (W3 : (⟨S64x64, .f32⟩ : BufTy).Contents (Elt F)) (b3 : (⟨S64, .f32⟩ : BufTy).Contents (Elt F)) :
    val_main_v138 (F := F) x0 ei bt W1 b1 W2 b2 W3 b3
      = Host.scatterAdd scatter_S128x64_S100000x1_S100000x64_1_0_0_1 (val_main_v136 (F := F)) (val_main_v137 (F := F) bt) (val_main_v135 x0 ei W1 b1 W2 b2 W3 b3) := rfl

/-- The pooled mean: the numerator divided by the graph sizes. -/
theorem v147_eq (x0 : (⟨S100000x64, .f32⟩ : BufTy).Contents (Elt F)) (ei : (⟨S2x1600000, .i32⟩ : BufTy).Contents (Elt F)) (bt : (⟨S100000, .i32⟩ : BufTy).Contents (Elt F)) (W1 : (⟨S64x64, .f32⟩ : BufTy).Contents (Elt F)) (b1 : (⟨S64, .f32⟩ : BufTy).Contents (Elt F)) (W2 : (⟨S64x64, .f32⟩ : BufTy).Contents (Elt F)) (b2 : (⟨S64, .f32⟩ : BufTy).Contents (Elt F)) (W3 : (⟨S64x64, .f32⟩ : BufTy).Contents (Elt F)) (b3 : (⟨S64, .f32⟩ : BufTy).Contents (Elt F)) :
    val_main_v147 (F := F) x0 ei bt W1 b1 W2 b2 W3 b3
      = Host.divf (val_main_v138 x0 ei bt W1 b1 W2 b2 W3 b3) (val_main_v146 (F := F) bt) := rfl

/-- The output layer: the pooled mean times the output weights, plus the output bias. -/
theorem v151_eq' (x0 : (⟨S100000x64, .f32⟩ : BufTy).Contents (Elt F)) (ei : (⟨S2x1600000, .i32⟩ : BufTy).Contents (Elt F)) (bt : (⟨S100000, .i32⟩ : BufTy).Contents (Elt F)) (W1 : (⟨S64x64, .f32⟩ : BufTy).Contents (Elt F)) (b1 : (⟨S64, .f32⟩ : BufTy).Contents (Elt F)) (W2 : (⟨S64x64, .f32⟩ : BufTy).Contents (Elt F)) (b2 : (⟨S64, .f32⟩ : BufTy).Contents (Elt F)) (W3 : (⟨S64x64, .f32⟩ : BufTy).Contents (Elt F)) (b3 : (⟨S64, .f32⟩ : BufTy).Contents (Elt F)) (Wl : (⟨S64x32, .f32⟩ : BufTy).Contents (Elt F)) (bl : (⟨S32, .f32⟩ : BufTy).Contents (Elt F)) :
    val_main_v151 (F := F) x0 ei bt W1 b1 W2 b2 W3 b3 Wl bl
      = addf (Host.dotGeneral dot_S128x64_S64x32_S128x32_1_0_0_1_n_n none (val_main_v147 x0 ei bt W1 b1 W2 b2 W3 b3) Wl) (val_main_v150 (F := F) bl) := rfl

end Cert.Proof.RefSide

end
-- ==== Proof.Val.Cross.lean ====
/-
  Small identities between the kernel program's host functions and the reference program's stages: the division of
  the pooled sums by the graph sizes is the same function in both programs; a vector reshaped to a column or to a
  row reads, at (n, 0) or (0, f), the vector's own entry; the kernel's inverse-square-root column is the reference's
  inverse-square-root vector reshaped.
-/
import proofs.«415797_j26783416058161_2_alg».proof.Proof.Val.KHost
import proofs.«415797_j26783416058161_2_alg».proof.Proof.RefReadP
import Idealize.ShloMosaic.Lib.ValueIdx
import Idealize.ShloMosaic.Lib.Pipeline.Value
import Idealize.ShloMosaic.Lib.ValueLayout

noncomputable section

namespace Cert.Proof.Cross

open Idealize.ShloMosaic Idealize.ShloMosaic.ValueIdx

variable {F : FTy → Type} [FloatOps F]

/-! ## A vector reshaped to a column -/

/-- An `[a]` array cast to `[a, 1]` reads, at `(i, u)`, the operand at `i`, whatever the unit coordinate `u`:
    the two indices have the same row-major position. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The kernel program's reshapes, read at an index -/

/-- The graph ids as a column, at `(n, 0)`: node `n`'s graph id. -/
theorem kBatchCol_apply [Cert.KernelIdeal.Facts₀] (bt : (⟨Cert.KernelIdeal.S100000, .i32⟩ : BufTy).Contents (Elt F)) (n : Fin 100000) :
    Cert.KernelIdeal.Val.kBatchCol (F := F) bt (ix2 n (0 : Fin 1)) = bt (ix1 n) := by
  unfold Cert.KernelIdeal.Val.kBatchCol
  exact shapeCast_a_a1_apply bt _ n 0

/-- A layer's bias as a row, at `(0, f)`: the bias's entry `f`. -/
theorem kRow64_apply [Cert.KernelIdeal.Facts₀] (b : (⟨Cert.KernelIdeal.S64, .f32⟩ : BufTy).Contents (Elt F)) (f : Fin 64) :
    Cert.KernelIdeal.Val.kRow64 (F := F) b (ix2 (0 : Fin 1) f) = b (ix1 f) := by
  unfold Cert.KernelIdeal.Val.kRow64
  exact shapeCast_a_1a_apply b _ 0 f

/-- The output layer's bias as a row, at `(0, o)`: the bias's entry `o`. -/
theorem kRow32_apply [Cert.KernelIdeal.Facts₀] (b : (⟨Cert.KernelIdeal.S32, .f32⟩ : BufTy).Contents (Elt F)) (o : Fin 32) :
    Cert.KernelIdeal.Val.kRow32 (F := F) b (ix2 (0 : Fin 1) o) = b (ix1 o) := by
  unfold Cert.KernelIdeal.Val.kRow32
  exact shapeCast_a_1a_apply b _ 0 o

/-! ## The two programs' common stages -/

/-- The kernel divides its pooled sums by the graph sizes (a sum of ones over each graph's nodes, at least one, along
    every feature): the reference's divisor is the same chain of operations on the same graph ids. -/
theorem kDiv_eq [Cert.KernelIdeal.Facts₀] [Cert.ReferenceIdeal.Facts₀] (ps : (⟨Cert.KernelIdeal.S128x64, .f32⟩ : BufTy).Contents (Elt F))
    (bt : (⟨Cert.KernelIdeal.S100000, .i32⟩ : BufTy).Contents (Elt F)) :
    Cert.KernelIdeal.Val.kDiv (F := F) ps bt = Host.divf ps (Cert.ReferenceIdeal.Read.val_main_v146 (F := F) bt) := rfl

/-- The kernel's inverse square root of the in-degree, before it is reshaped to a column, is the reference's: the same
    chain of operations (the targets with the self loops appended, a sum of ones over the edges landing on each node,
    the inverse square root where that is positive and zero elsewhere) on the same edge index. -/
theorem kv14_eq [Cert.KernelIdeal.Facts₀] [Cert.ReferenceIdeal.Facts₀] (ei : (⟨Cert.KernelIdeal.S2x1600000, .i32⟩ : BufTy).Contents (Elt F)) :
    Cert.KernelIdeal.Val.kv14 (F := F) ei = Cert.ReferenceIdeal.Read.val_main_v15 (F := F) ei := rfl

/-- The kernel's inverse-square-root column at `(n, 0)` is the reference's inverse-square-root vector at `n`. -/
theorem kDinv_apply [Cert.KernelIdeal.Facts₀] [Cert.ReferenceIdeal.Facts₀] (ei : (⟨Cert.KernelIdeal.S2x1600000, .i32⟩ : BufTy).Contents (Elt F)) (n : Fin 100000) :
    Cert.KernelIdeal.Val.kDinv (F := F) ei (ix2 n (0 : Fin 1)) = Cert.ReferenceIdeal.Read.val_main_v15 (F := F) ei (ix1 n) := by
  unfold Cert.KernelIdeal.Val.kDinv
  exact (shapeCast_a_a1_apply (Cert.KernelIdeal.Val.kv14 (F := F) ei) _ n 0).trans (congrFun (kv14_eq ei) (ix1 n))

end Cert.Proof.Cross

end
-- ==== Proof.Val.DinvReal.lean ====
/-
  The reference program's per-node normalization factor, the inverse square root of the node's degree
  where the degree is positive and zero elsewhere, is a non-negative real at the extended reals —
  whatever the degree is: below or at zero the guard answers zero, at a positive real the inverse of
  its square root, and at plus infinity the inverse square root is zero.
-/
import proofs.«415797_j26783416058161_2_alg».proof.Proof.RefReadP
import proofs.«415797_j26783416058161_2_alg».proof.Proof.SumLaw
import Idealize.ShloMosaic.Lib.ValueIdx

noncomputable section

namespace Cert.Proof.DinvReal

open Idealize.ShloMosaic Idealize.ShloMosaic.ValueIdx Cert.ReferenceIdeal Cert.ReferenceIdeal.Read
open Cert.Proof.SumLaw

/-- The guarded inverse square root of ANY extended real is a non-negative real, in the order's
    spelling: `⊥` and the reals `≤ 0` fail the guard (value `0`), a real `y > 0` gives `(√y)⁻¹`,
    and `⊤` passes the guard with inverse square root `0`. -/
theorem inv_sqrt_nonneg_real_any_cmp (x : EReal) :
    ∃ r : ℝ, 0 ≤ r ∧ (Scalar.select (Ideal.cmp .ogt x (0 : EReal)) (Ideal.rsqrt x) (0 : EReal) : EReal) = (r : EReal) := by
  induction x using EReal.rec with
  | bot => exact ⟨0, le_rfl, by simp [Scalar.select, Ideal.cmp]⟩
  | top => exact ⟨0, le_rfl, by simp [Scalar.select, Ideal.cmp]⟩
  | coe y =>
    rcases le_or_gt y 0 with hy | hy
    · refine ⟨0, le_rfl, ?_⟩
      have h0 : ¬ (0 : EReal) < (y : EReal) := by exact_mod_cast not_lt.2 hy
      simp [Scalar.select, Ideal.cmp, h0]
    · refine ⟨(Real.sqrt y)⁻¹, inv_nonneg.2 (Real.sqrt_nonneg y), ?_⟩
      have h0 : (0 : EReal) < (y : EReal) := by exact_mod_cast hy
      simp [Scalar.select, Ideal.cmp, h0, not_lt.2 hy.le, hy.ne']

/-- The same with the comparison, the inverse square root and the zero pattern as the reference
    program spells them at one element. -/
theorem inv_sqrt_nonneg_real_any (x : Ideal .f32) :
    ∃ r : ℝ, 0 ≤ r ∧
      (Scalar.select (FloatOps.cmpf (F := Ideal) .ogt x (FloatOps.ofBits (F := Ideal) .f32 0x00000000#32))
        (FloatOps.hostUnary (F := Ideal) .rsqrt x) (FloatOps.ofBits (F := Ideal) .f32 0x00000000#32) : EReal) = (r : EReal) := by
  rw [Ideal.cmpf_def, Ideal.hostUnary_rsqrt_def, Ideal.ofBits_def, Ideal.ofBits_zero_f32]
  exact inv_sqrt_nonneg_real_any_cmp x

/-- The normalization factor of a node is a non-negative real. The degree is never opened: the
    statement holds at every value of it. -/
theorem dinv_nonneg_real (ei : (⟨S2x1600000, .i32⟩ : BufTy).Contents (Elt Ideal)) (n : Fin 100000) :
    ∃ r : ℝ, 0 ≤ r ∧ Cert.ReferenceIdeal.Read.val_main_v15 (F := Ideal) ei (ix1 n) = (r : EReal) := by
  rw [val_main_v15_apply, val_main_v13_apply, val_main_v14_apply, val_main_v12_apply, val_main_cst_1_apply,
    val_main_call0_v1_apply, val_main_call0_v0_apply, val_main_cst_2_apply]
  generalize val_main_v11 (F := Ideal) ei (ix1 n) = x
  exact inv_sqrt_nonneg_real_any x

/-! The degree itself is a count (not needed for the statement above). -/

/-- The ones the degree count scatters are the extended real `1` at every update. -/
theorem ones_eq : val_main_v8 (F := Ideal) = fun _ => (1 : EReal) := by
  funext i
  rw [val_main_v8_apply, val_main_cst_apply, Ideal.ofBits_def, ofBits_one_f32]

/-- The array the degree count scatters onto is the extended real `0` at every node. -/
theorem zeros_eq : val_main_v9 (F := Ideal) = fun _ => (0 : EReal) := by
  funext i
  rw [val_main_v9_apply, val_main_cst_0_apply, Ideal.ofBits_def, Ideal.ofBits_zero_f32]

/-- The host's accumulating scatter of an all-ones update array onto an all-zeros array is a count,
    for any dimension numbers and any indices (nothing here is a concrete array). -/
theorem scatterAdd_count {s si u : Shape} {w : Nat} (d : ScatterDims s si u) (idx : IVec si w)
    (x : FVec Ideal s .f32) (upd : FVec Ideal u .f32)
    (hx : x = fun _ => (0 : EReal)) (hu : upd = fun _ => (1 : EReal)) (i : s.Idx) :
    ∃ k : ℕ, Host.scatterAdd (F := Ideal) (φ := .f32) d x idx upd i = ((k : ℝ) : EReal) := by
  subst hx hu
  exact count_is_nat d idx i

/-- A node's degree is a count: the scatter-sum of ones onto zeros at the node. -/
theorem deg_is_nat (ei : (⟨S2x1600000, .i32⟩ : BufTy).Contents (Elt Ideal)) (n : Fin 100000) :
    ∃ k : ℕ, val_main_v11 (F := Ideal) ei (ix1 n) = ((k : ℝ) : EReal) := by
  unfold val_main_v11
  exact scatterAdd_count scatter_S100000_S1700000x1_S1700000_n_0_0_1 (val_main_v10 (F := Ideal) ei)
    (val_main_v9 (F := Ideal)) (val_main_v8 (F := Ideal)) zeros_eq ones_eq (ix1 n)

end Cert.Proof.DinvReal

end
-- ==== Proof.Val.Layer.lean ====
/-
  The law that joins one layer of the two programs, at the ideal instance. With s the (wrapped, clamped)
  source of an edge and d its target, the kernel sums (x·W)[s]·c[s] over the edges landing on a node n and
  multiplies by c[n] afterwards; the reference sums (x·W)[s]·(c[s]·c[d]) over the same edges. Every edge landing
  on n has c[d] = c[n], and c[n] is a non-negative real, so it comes out of the sum. The bias and the rectifier
  are the same on both sides.
-/
import proofs.«415797_j26783416058161_2_alg».proof.Proof.Val.KHost
import proofs.«415797_j26783416058161_2_alg».proof.Proof.Val.Spec
import proofs.«415797_j26783416058161_2_alg».proof.Proof.IndexFacts
import proofs.«415797_j26783416058161_2_alg».proof.Proof.SumLaw
import proofs.«415797_j26783416058161_2_alg».proof.Proof.RefReadP
import proofs.«415797_j26783416058161_2_alg».proof.Proof.Val.RefSide
import proofs.«415797_j26783416058161_2_alg».proof.Proof.Val.Cross
import proofs.«415797_j26783416058161_2_alg».proof.Proof.Val.DinvReal

noncomputable section

namespace Cert.Proof.Layer

open Idealize.ShloMosaic Idealize.ShloMosaic.ValueIdx
open Cert.ReferenceIdeal Cert.ReferenceIdeal.Read
open Cert.KernelIdeal.Val Cert.Proof Cert.Proof.Spec Cert.Proof.IndexFacts Cert.Proof.SumLaw Cert.Proof.Cross
open scoped BigOperators

/-! ## The host's accumulating scatter at the ideal instance, for any dimension numbers -/

/-- The host's scatter with an `add` body is, at the ideal instance, the operand plus the sum of the updates
    landing on each element. -/
theorem hostScatterAdd_ideal {s si su : Shape} {φ : FTy} {w : Nat} (d : ScatterDims s si su) (x : FVec Ideal s φ)
    (idx : IVec si w) (upd : FVec Ideal su φ) :
    Host.scatterAdd d x idx upd = Ideal.hostScatterAdd d x idx upd := rfl

/-- The two forms of a layer's output at one element, over any dimension numbers, index column and updates:
    a factor that every update landing on an element shares, and that is a non-negative real, multiplies the
    sum from outside or each update inside it. -/
theorem act_core {s si su : Shape} {w : Nat} (d : ScatterDims s si su) (idx : IVec si w)
    (U qd : su.Idx → EReal) (q : s.Idx → EReal)
    (hq : ∀ j i, d.resultIdx? j idx = some i → qd j = q i)
    (hnn : ∀ i, ∃ r : ℝ, 0 ≤ r ∧ q i = (r : EReal)) (i : s.Idx) (bias : EReal) :
    max (Ideal.hostScatterAdd d (fun _ => (0 : EReal)) idx U i * q i + bias) 0
      = max (Ideal.hostScatterAdd d (fun _ => (0 : EReal)) idx (fun j => U j * qd j) i + bias) 0 := by
  rw [scatterAdd_scale d idx U qd q hq hnn i]

/-! ## The two programs' common stages (any float instance) -/

section AnyInstance
variable {F : FTy → Type} [FloatOps F] [Cert.KernelIdeal.Facts₀] [Cert.ReferenceIdeal.Facts₀]

theorem kIdxD_eq (ei : (⟨S2x1600000, .i32⟩ : BufTy).Contents (Elt F)) : kIdxD (F := F) ei = val_main_v42 (F := F) ei := rfl
theorem kIdxS_eq (ei : (⟨S2x1600000, .i32⟩ : BufTy).Contents (Elt F)) : kIdxS (F := F) ei = val_main_v36 (F := F) ei := rfl
theorem v21_eq (ei : (⟨S2x1600000, .i32⟩ : BufTy).Contents (Elt F)) : val_main_v21 (F := F) ei = val_main_v36 (F := F) ei := rfl
theorem scatter2_rec_eq : Cert.KernelIdeal.scatter_S100000x64_S1700000x1_S1700000x64_1_0_0_1 = scatter_S100000x64_S1700000x1_S1700000x64_1_0_0_1 := rfl
theorem gather2_rec_eq : Cert.KernelIdeal.gather_S100000x64_S1700000x1_S1700000x64_1_0_n_n_0_1_164 = gather_S100000x64_S1700000x1_S1700000x64_1_0_n_n_0_1_164 := rfl

end AnyInstance

section AtIdeal
variable [Cert.KernelIdeal.Facts₀] [Cert.ReferenceIdeal.Facts₀]

/-- The reference's bias, laid along every node, read at a node and feature, is the bias vector at the feature. -/
theorem v45_apply' (b : Arr S64 .f32) (n : Fin 100000) (f : Fin 64) :
    val_main_v45 (F := Ideal) b (ix2 n f) = b (ix1 f) := by
  rw [val_main_v45_apply, val_main_v44_apply]
  congr 1
  funext a
  match a with
  | ⟨0, _⟩ => rfl

/-- The left operand's index of the linear map at output `(m, c)` and contraction position `k`. -/
theorem lidx_ix2 (m : Fin 100000) (c k : Fin 64) : lidx_main_v4 (ix2 m c) k = ix2 m k := by
  funext a
  match a with
  | ⟨0, _⟩ => rfl
  | ⟨1, _⟩ => rfl

/-- The right operand's index of the linear map at output `(m, c)` and contraction position `k`. -/
theorem ridx_ix2 (m : Fin 100000) (c k : Fin 64) : ridx_main_v4 (ix2 m c) k = ix2 k c := by
  funext a
  match a with
  | ⟨0, _⟩ => rfl
  | ⟨1, _⟩ => rfl

/-- The edge an entry of the per-edge factor, laid along the features, belongs to. -/
theorem idx38_39 (j : S1700000x64.Idx) : idx_main_v38 (idx_main_v39 j) = ix1 (j 0) := by
  funext a
  match a with
  | ⟨0, _⟩ => rfl

/-- An edge whose target, read signed, is node `n` reads the target-side factor at `n`: the wrap leaves a
    non-negative index alone and the clamp leaves an index in range alone. -/
theorem dst_factor (ei : Arr S2x1600000 .i32) (e : Fin 1700000) (n : Fin 100000)
    (h : (val_main_v42 (F := Ideal) ei (ix2 e (0 : Fin 1))).toInt = (n.val : ℤ)) :
    val_main_v29 (F := Ideal) ei (ix1 e) = val_main_v15 (F := Ideal) ei (ix1 n) := by
  have h7 : (val_main_v7 (F := Ideal) ei (ix1 e)).toInt = (n.val : ℤ) := by
    rw [← h]
    exact congrArg BitVec.toInt (col_apply (val_main_v7 (F := Ideal) ei) (ix1 e)).symm
  have hw : val_main_v27 (F := Ideal) ei (ix1 e) = val_main_v7 (F := Ideal) ei (ix1 e) :=
    wrap_of_nonneg (val_main_v7 (F := Ideal) ei) (ix1 e) (by rw [h7]; exact Int.natCast_nonneg _)
  have h28 : (val_main_v28 (F := Ideal) ei (ix2 ((ix1 e : S1700000.Idx) 0) (0 : Fin 1))).toInt = (n.val : ℤ) := by
    rw [← h7, ← hw]
    exact congrArg BitVec.toInt (col_apply (val_main_v27 (F := Ideal) ei) (ix1 e))
  unfold val_main_v29 Host.gather
  rw [gather1_of_inrange (ix1 e) (val_main_v28 (F := Ideal) ei) n h28]

/-- The scaled rows the first region leaves, as the kernel's gather reads them. -/
abbrev hS (hin : Arr S100000x64 .f32) (W : Arr S64x64 .f32) (ei : Arr S2x1600000 .i32) :
    (⟨Cert.KernelIdeal.S100000x64, .bf16⟩ : BufTy).Contents (Elt Ideal) :=
  fun i => Spec.scaled hin W (kDinv (F := Ideal) ei) (i 0) (i 1)

/-- The update the kernel adds for an entry of an edge: the reference's gathered row of the linear map times
    the source-side factor of the edge. -/
theorem kUpd_apply (hin : Arr S100000x64 .f32) (W : Arr S64x64 .f32) (ei : Arr S2x1600000 .i32) (j : S1700000x64.Idx) :
    kv25 (F := Ideal) (hS hin W ei) ei j
      = val_main_v37 (F := Ideal) hin ei W j * val_main_v22 (F := Ideal) ei (ix1 (j 0)) := by
  obtain ⟨m, c, hmc⟩ : ∃ (m : Fin 100000) (c : Fin 64),
      gather_S100000x64_S1700000x1_S1700000x64_1_0_n_n_0_1_164.operandIdx j (val_main_v36 (F := Ideal) ei) = ix2 m c :=
    ⟨_, _, eq_ix2 _⟩
  have hrow : gather_S100000_S1700000x1_S1700000_n_0_n_n_0_1_1.operandIdx (ix1 (j 0)) (val_main_v21 (F := Ideal) ei) = ix1 m := by
    have h2 := gather2_operandIdx j (val_main_v36 (F := Ideal) ei)
    rw [hmc] at h2
    have h0 : m = (gather_S100000_S1700000x1_S1700000_n_0_n_n_0_1_1.operandIdx (ix1 (j 0)) (val_main_v36 (F := Ideal) ei)) 0 :=
      congrFun h2 0
    rw [v21_eq, eq_ix1 (gather_S100000_S1700000x1_S1700000_n_0_n_n_0_1_1.operandIdx (ix1 (j 0)) (val_main_v36 (F := Ideal) ei)), ← h0]
    rfl
  have hL : kv25 (F := Ideal) (hS hin W ei) ei j = hS hin W ei (ix2 m c) := by
    unfold kv25
    rw [extf_apply]
    unfold kv24 Host.gather
    rw [gather2_rec_eq, kIdxS_eq, hmc]
  have hR : val_main_v37 (F := Ideal) hin ei W j = val_main_v4 (F := Ideal) hin W (ix2 m c) := by
    unfold val_main_v37 Host.gather
    rw [hmc]
  have hQ : val_main_v22 (F := Ideal) ei (ix1 (j 0)) = val_main_v15 (F := Ideal) ei (ix1 m) := by
    unfold val_main_v22 Host.gather
    rw [hrow]
  rw [hL, hR, hQ, val_main_v4_apply]
  show (∑ k : Fin 64, hin (ix2 m k) * W (ix2 k c)) * kDinv (F := Ideal) ei (ix2 m (0 : Fin 1)) = _
  rw [kDinv_apply]
  refine congrArg (fun s : EReal => s * val_main_v15 (F := Ideal) ei (ix1 m)) (Finset.sum_congr rfl fun k _ => ?_)
  rw [lidx_ix2, ridx_ix2]

/-- The reference's update for an entry of an edge is the kernel's update times the target-side factor of the edge. -/
theorem ref_upd (hin : Arr S100000x64 .f32) (W : Arr S64x64 .f32) (ei : Arr S2x1600000 .i32) (j : S1700000x64.Idx) :
    (mulf (F := Ideal) (s := S1700000x64) (φ := .f32) (val_main_v37 (F := Ideal) hin ei W) (val_main_v39 (F := Ideal) ei) j : EReal)
      = kv25 (F := Ideal) (hS hin W ei) ei j * val_main_v29 (F := Ideal) ei (ix1 (j 0)) := by
  rw [mulf_apply, val_main_v39_apply, val_main_v38_apply, val_main_v30_apply, idx38_39, kUpd_apply, Ideal.mulf_def]
  exact (mul_assoc _ _ _).symm

/-- The zeros a layer's neighbourhood sum starts from, in the kernel program. -/
theorem kv26_eq : kv26 (F := Ideal) = fun _ => (0 : EReal) := funext fun _ => Ideal.ofBits_zero_f32
/-- The same in the reference. -/
theorem v41_eq : val_main_v41 (F := Ideal) = fun _ => (0 : EReal) := funext fun _ => Ideal.ofBits_zero_f32

/-- The kernel's neighbourhood sum of the scaled rows, as the sum of the updates landing on the element. -/
theorem kAgg_eq (hin : Arr S100000x64 .f32) (W : Arr S64x64 .f32) (ei : Arr S2x1600000 .i32) :
    kAgg (F := Ideal) (hS hin W ei) ei
      = Ideal.hostScatterAdd scatter_S100000x64_S1700000x1_S1700000x64_1_0_0_1 (fun _ => (0 : EReal)) (val_main_v42 (F := Ideal) ei) (kv25 (F := Ideal) (hS hin W ei) ei) := by
  rw [kAgg, hostScatterAdd_ideal, scatter2_rec_eq, kIdxD_eq, kv26_eq]

/-- The reference's neighbourhood sum, as the sum of the kernel's updates times the target-side factors. -/
theorem v43_eq (hin : Arr S100000x64 .f32) (W : Arr S64x64 .f32) (ei : Arr S2x1600000 .i32) :
    val_main_v43 (F := Ideal) hin ei W
      = Ideal.hostScatterAdd scatter_S100000x64_S1700000x1_S1700000x64_1_0_0_1 (fun _ => (0 : EReal)) (val_main_v42 (F := Ideal) ei)
          (fun j => kv25 (F := Ideal) (hS hin W ei) ei j * val_main_v29 (F := Ideal) ei (ix1 (j 0))) := by
  rw [val_main_v43, val_main_v40, hostScatterAdd_ideal, v41_eq, funext (ref_upd hin W ei)]

/-- Every entry of an edge landing on a node carries that node's factor as its target-side factor. -/
theorem lands_factor (ei : Arr S2x1600000 .i32) (j : S1700000x64.Idx) (i : S100000x64.Idx)
    (h : scatter_S100000x64_S1700000x1_S1700000x64_1_0_0_1.resultIdx? j (val_main_v42 (F := Ideal) ei) = some i) :
    val_main_v29 (F := Ideal) ei (ix1 (j 0)) = val_main_v15 (F := Ideal) ei (ix1 (i 0)) :=
  dst_factor ei (j 0) (i 0) ((scatter2_lands j _ i).1 h).1

/-- THE LAW JOINING ONE LAYER. The kernel multiplies by the target's factor after the neighbourhood sum, the
    reference inside it; every edge landing on a node carries that node's factor, a non-negative real, which
    comes out of the sum. -/
theorem layer_law (hin : Arr S100000x64 .f32) (ei : Arr S2x1600000 .i32) (W : Arr S64x64 .f32) (b : Arr S64 .f32)
    (n : Fin 100000) (f : Fin 64) :
    Spec.act (kAgg (F := Ideal) (fun i => Spec.scaled hin W (kDinv (F := Ideal) ei) (i 0) (i 1)) ei)
        (kDinv (F := Ideal) ei) (kRow64 (F := Ideal) b) n f
      = RefSide.refLayer' (F := Ideal) hin ei W b (ix2 n f) := by
  rw [← RefSide.v47_eq', val_main_v47_apply, val_main_v46_apply, v43_eq, v45_apply', val_main_call1_v0_apply,
    val_main_call1_cst_apply, Ideal.maximumf_def, Ideal.addf_def, Ideal.ofBits_def, Ideal.ofBits_zero_f32]
  rw [Spec.act, kAgg_eq, kDinv_apply, kRow64_apply]
  exact act_core scatter_S100000x64_S1700000x1_S1700000x64_1_0_0_1 (val_main_v42 (F := Ideal) ei) (kv25 (F := Ideal) (hS hin W ei) ei)
    (fun j => val_main_v29 (F := Ideal) ei (ix1 (j 0))) (fun i => val_main_v15 (F := Ideal) ei (ix1 (i 0)))
    (lands_factor ei) (fun i => DinvReal.dinv_nonneg_real ei (i 0)) (ix2 n f) (b (ix1 f))

end AtIdeal

end Cert.Proof.Layer

end
-- ==== Proof.Val.Pool.lean ====
/-
  The two laws, at the extended reals, between the closed forms of the last two kernel regions and the
  reference program's stages: the pooling numerator (a sum over the nodes weighted by the indicator of the
  node's graph id) is the reference's segment sum onto a zero array, and the output layer (a product with
  a weight matrix plus a bias row) is the reference's host product plus its broadcast bias.
-/
import proofs.«415797_j26783416058161_2_alg».proof.Proof.Val.Spec
import proofs.«415797_j26783416058161_2_alg».proof.Proof.SumLaw
import proofs.«415797_j26783416058161_2_alg».proof.Proof.IndexFacts
import proofs.«415797_j26783416058161_2_alg».proof.Proof.RefReadP
import Idealize.ShloMosaic.Lib.ValueIdx
import Idealize.ShloMosaic.Lib.Pipeline.Value
import Idealize.ShloMosaic.PureOps.Ideal.Laws

noncomputable section

namespace Cert.Proof.Pool

open Idealize.ShloMosaic Idealize.ShloMosaic.ValueIdx Cert.Proof.Spec Cert.ReferenceIdeal Cert.ReferenceIdeal.Read
open scoped BigOperators

variable [Cert.ReferenceIdeal.Facts₀]

/-- A 32-bit word read signed is a number below 128 exactly when it is that number's word. -/
theorem toInt_eq_iff (v : BitVec 32) (g : ℕ) (hg : g < 128) : v.toInt = (g : ℤ) ↔ v = BitVec.ofNat 32 g := by
  have hv := v.isLt
  rw [BitVec.toInt_eq_toNat_cond, ← BitVec.toNat_inj, BitVec.toNat_ofNat]
  constructor
  · intro h; split at h <;> omega
  · intro h; split <;> omega

/-- The pooling numerator is the reference's segment sum: the sum over the nodes of the indicator of
    "the node's graph id is `g`" times the node's feature is the zero row plus the sum of the rows whose
    update lands on `(g, f)`, the double sum over (node, column) collapsed on the column. -/
theorem pooled_eq (h : Arr S100000x64 .f32) (bt : Arr S100000 .i32) (btc : Arr S100000x1 .i32)
    (hbt : ∀ n : Fin 100000, btc (ix2 n (0 : Fin 1)) = bt (ix1 n)) (g : Fin 128) (f : Fin 64) :
    pooled h btc g f = Host.scatterAdd (F := Ideal) (φ := .f32) scatter_S128x64_S100000x1_S100000x64_1_0_0_1
      (val_main_v136 (F := Ideal)) (val_main_v137 (F := Ideal) bt) h (ix2 g f) := by
  have hcol : ∀ n : Fin 100000, val_main_v137 (F := Ideal) bt (ix2 n (0 : Fin 1)) = btc (ix2 n (0 : Fin 1)) := by
    intro n
    rw [val_main_v137_apply, hbt]
    congr 1
    funext a; match a with | ⟨0, _⟩ => rfl
  show pooled h btc g f = Ideal.hostScatterAdd _ _ _ _ _
  unfold Ideal.hostScatterAdd pooled
  rw [val_main_v136_apply, val_main_cst_31_apply, Ideal.ofBits_def, Ideal.ofBits_zero_f32, zero_add,
    Finset.sum_filter, sum_idx2]
  refine Finset.sum_congr rfl fun n _ => ?_
  have key : ∀ b : Fin 64,
      (scatter_S128x64_S100000x1_S100000x64_1_0_0_1.resultIdx? (ix2 n b) (val_main_v137 (F := Ideal) bt) = some (ix2 g f))
        ↔ (btc (ix2 n (0 : Fin 1)) = BitVec.ofNat 32 g.val ∧ b = f) := by
    intro b
    rw [Cert.Proof.IndexFacts.scatter3_lands]
    show ((val_main_v137 (F := Ideal) bt (ix2 n (0 : Fin 1))).toInt = (g.val : ℤ) ∧ b.val = f.val) ↔ _
    rw [hcol, toInt_eq_iff _ _ g.isLt, Fin.val_inj]
  simp only [key]
  by_cases hg : btc (ix2 n (0 : Fin 1)) = BitVec.ofNat 32 g.val
  · simp [hg]
  · simp [hg]

/-- The output layer is the reference's last two lines over any pooled array `p`: the host product at
    `(g, o)` is the sum over the contracted column of `p (g, k) · W (k, o)`, and the bias row broadcast to
    every graph reads the bias at `o`. -/
theorem lin_eq (p : Arr S128x64 .f32) (W : Arr S64x32 .f32) (b : Arr S32 .f32) (brow : Arr S1x32 .f32)
    (hb : ∀ o : Fin 32, brow (ix2 (0 : Fin 1) o) = b (ix1 o)) (g : Fin 128) (o : Fin 32) :
    lin p W brow g o = addf (F := Ideal) (φ := .f32)
      (Host.dotGeneral (F := Ideal) (φ₁ := .f32) (φ₂ := .f32) dot_S128x64_S64x32_S128x32_1_0_0_1_n_n none p W)
      (val_main_v150 (F := Ideal) b) (ix2 g o) := by
  rw [addf_apply]
  unfold lin
  refine congrArg₂ (· + ·) ?_ ?_
  · symm
    simp only [Host.dotGeneral]
    rw [Ideal.dotGeneral_apply,
      ← Equiv.sum_comp (ValueIdx.contrEquiv1 dot_S128x64_S64x32_S128x32_1_0_0_1_n_n 64 rfl rfl).symm]
    refine Finset.sum_congr rfl fun k _ => ?_
    have hk := ValueIdx.contrEquiv1_symm_val dot_S128x64_S64x32_S128x32_1_0_0_1_n_n 64 rfl rfl k
    have el : dot_S128x64_S64x32_S128x32_1_0_0_1_n_n.lhsIdx (ix2 g o)
        ((ValueIdx.contrEquiv1 dot_S128x64_S64x32_S128x32_1_0_0_1_n_n 64 rfl rfl).symm k) = ix2 g k :=
      funext fun a => Fin.ext (by
        match a with
        | ⟨0, _⟩ => exact lhs_main_v148_0 _ _
        | ⟨1, _⟩ => exact (lhs_main_v148_1 _ _).trans hk)
    have er : dot_S128x64_S64x32_S128x32_1_0_0_1_n_n.rhsIdx (ix2 g o)
        ((ValueIdx.contrEquiv1 dot_S128x64_S64x32_S128x32_1_0_0_1_n_n 64 rfl rfl).symm k) = ix2 k o :=
      funext fun a => Fin.ext (by
        match a with
        | ⟨0, _⟩ => exact (rhs_main_v148_0 _ _).trans hk
        | ⟨1, _⟩ => exact rhs_main_v148_1 _ _)
    rw [el, er]
  · rw [val_main_v150_apply, val_main_v149_apply, hb]
    congr 1
    funext a; match a with | ⟨0, _⟩ => rfl

end Cert.Proof.Pool

end
-- ==== Proof.Val.KVal.lean ====
/-
  THE CHAIN: at the ideal instance the kernel program's result array is the reference program's final stage of the
  launch arguments.

  The kernel side is a nest: three times (scale the rows of h · W by the inverse square root of the degree, sum over
  the incoming edges, scale again, add the bias, rectify), then sum the rows over each graph, divide by the graph's
  size, and apply the output layer. Each "scale, sum, scale, add, rectify" is the reference's layer function (the layer
  law); the sum over a graph weighted by the indicator of its id is the reference's segment sum; the division and the
  output layer are the reference's own last stages read at an index.
-/
import proofs.«415797_j26783416058161_2_alg».proof.Proof.Val.KChain
import proofs.«415797_j26783416058161_2_alg».proof.Proof.Val.Layer
import proofs.«415797_j26783416058161_2_alg».proof.Proof.Val.RefSide
import proofs.«415797_j26783416058161_2_alg».proof.Proof.Val.Pool
import proofs.«415797_j26783416058161_2_alg».proof.Proof.Val.Cross
import proofs.«415797_j26783416058161_2_alg».proof.Proof.RefReadP
import Idealize.ShloMosaic.Lib.ValueIdx

set_option maxRecDepth 16384

noncomputable section

namespace Cert.KernelIdeal.Val

open Idealize.ShloMosaic Idealize.ShloMosaic.TcCoe Idealize.ShloMosaic.ValueIdx
open Cert.KernelIdeal Cert.KernelIdeal.Gen Cert.Proof.Spec

variable [Cert.KernelIdeal.Facts₀]

/-! ## The kernel side in closed form, for any layer function that satisfies the layer law -/

section Closed

variable (L : Arr S100000x64 .f32 → Arr S2x1600000 .i32 → Arr S64x64 .f32 → Arr S64 .f32 → Arr S100000x64 .f32)
  (hL : ∀ (hin : Arr S100000x64 .f32) (ei : Arr S2x1600000 .i32) (W : Arr S64x64 .f32) (b : Arr S64 .f32) (n : Fin 100000) (f : Fin 64),
    act (kAgg (F := Ideal) (fun i => scaled hin W (kDinv ei) (i 0) (i 1)) ei) (kDinv ei) (kRow64 b) n f = L hin ei W b (ix2 n f))

include hL in
/-- The layer law as an equation of arrays: the activated neighbourhood sums of the scaled rows of hin · W are the
    layer function of hin. -/
theorem layer_arr (hin : Arr S100000x64 .f32) (ei : Arr S2x1600000 .i32) (W : Arr S64x64 .f32) (b : Arr S64 .f32) :
    actArr (kAgg (F := Ideal) (fun i => scaled hin W (kDinv ei) (i 0) (i 1)) ei) (kDinv ei) (kRow64 b) = L hin ei W b := by
  refine funext fun (i : S100000x64.Idx) => ?_
  obtain ⟨n, f, rfl⟩ : ∃ (n : Fin 100000) (f : Fin 64), i = ix2 n f := ⟨i 0, i 1, eq_ix2 i⟩
  exact hL hin ei W b n f

include hL in
/-- The five regions' outputs composed: the last one is the output layer of the graph means of the third layer. -/
theorem closed_form (x : Arr S100000x64 .f32) (ei : Arr S2x1600000 .i32) (bt : Arr S100000 .i32)
    (W1 : Arr S64x64 .f32) (b1 : Arr S64 .f32) (W2 : Arr S64x64 .f32) (b2 : Arr S64 .f32) (W3 : Arr S64x64 .f32) (b3 : Arr S64 .f32)
    (Wl : Arr S64x32 .f32) (bl : Arr S32 .f32)
    (a4 a6 a8 : Arr S100000x64 .bf16) (a10 : Arr S128x64 .f32) (a12 : Arr S128x32 .f32)
    (h4 : a4 = fun i : S100000x64.Idx => scaled x W1 (kDinv ei) (i 0) (i 1))
    (h6 : a6 = fun i : S100000x64.Idx => scaled (actArr (kAgg a4 ei) (kDinv ei) (kRow64 b1)) W2 (kDinv ei) (i 0) (i 1))
    (h8 : a8 = fun i : S100000x64.Idx => scaled (actArr (kAgg a6 ei) (kDinv ei) (kRow64 b2)) W3 (kDinv ei) (i 0) (i 1))
    (h10 : a10 = fun i : S128x64.Idx => pooled (actArr (kAgg a8 ei) (kDinv ei) (kRow64 b3)) (kBatchCol bt) (i 0) (i 1))
    (h12 : a12 = fun i : S128x32.Idx => lin (kDiv a10 bt) Wl (kRow32 bl) (i 0) (i 1)) :
    a12 = fun i : S128x32.Idx =>
      lin (kDiv (fun j : S128x64.Idx => pooled (L (L (L x ei W1 b1) ei W2 b2) ei W3 b3) (kBatchCol bt) (j 0) (j 1)) bt) Wl (kRow32 bl) (i 0) (i 1) := by
  subst h4
  rw [layer_arr L hL x ei W1 b1] at h6
  subst h6
  rw [layer_arr L hL (L x ei W1 b1) ei W2 b2] at h8
  subst h8
  rw [layer_arr L hL (L (L x ei W1 b1) ei W2 b2) ei W3 b3] at h10
  subst h10
  exact h12

end Closed

/-! ## The closed form is the reference's final stage -/

section Ref

variable [Cert.ReferenceIdeal.Facts₀]

/-- The graph sums of the third layer are the reference's segment sum; divided by the graph sizes they are its mean;
    the output layer of the mean is its final stage. -/
theorem ref_form (x : Arr S100000x64 .f32) (ei : Arr S2x1600000 .i32) (bt : Arr S100000 .i32)
    (W1 : Arr S64x64 .f32) (b1 : Arr S64 .f32) (W2 : Arr S64x64 .f32) (b2 : Arr S64 .f32) (W3 : Arr S64x64 .f32) (b3 : Arr S64 .f32)
    (Wl : Arr S64x32 .f32) (bl : Arr S32 .f32) :
    (fun i : S128x32.Idx =>
      lin (kDiv (fun j : S128x64.Idx => pooled (Cert.Proof.RefSide.refLayer' (F := Ideal) (Cert.Proof.RefSide.refLayer' (F := Ideal) (Cert.Proof.RefSide.refLayer' (F := Ideal) x ei W1 b1) ei W2 b2) ei W3 b3)
        (kBatchCol bt) (j 0) (j 1)) bt) Wl (kRow32 bl) (i 0) (i 1))
      = Cert.ReferenceIdeal.Read.val_main_v151 (F := Ideal) x ei bt W1 b1 W2 b2 W3 b3 Wl bl := by
  -- the three layers are the reference's stage 135
  have h135 : Cert.Proof.RefSide.refLayer' (F := Ideal) (Cert.Proof.RefSide.refLayer' (F := Ideal) (Cert.Proof.RefSide.refLayer' (F := Ideal) x ei W1 b1) ei W2 b2) ei W3 b3
      = Cert.ReferenceIdeal.Read.val_main_v135 (F := Ideal) x ei W1 b1 W2 b2 W3 b3 := by
    rw [Cert.Proof.RefSide.v135_eq, Cert.Proof.RefSide.v91_eq, Cert.Proof.RefSide.v47_eq']
  -- the graph sums are its stage 138
  have h138 : (fun j : S128x64.Idx => pooled (Cert.Proof.RefSide.refLayer' (F := Ideal) (Cert.Proof.RefSide.refLayer' (F := Ideal) (Cert.Proof.RefSide.refLayer' (F := Ideal) x ei W1 b1) ei W2 b2) ei W3 b3)
        (kBatchCol bt) (j 0) (j 1))
      = Cert.ReferenceIdeal.Read.val_main_v138 (F := Ideal) x ei bt W1 b1 W2 b2 W3 b3 := by
    refine funext fun (j : S128x64.Idx) => ?_
    obtain ⟨g, f, rfl⟩ : ∃ (g : Fin 128) (f : Fin 64), j = ix2 g f := ⟨j 0, j 1, eq_ix2 j⟩
    rw [Cert.Proof.RefSide.v138_eq, ← h135]
    exact Cert.Proof.Pool.pooled_eq _ bt (kBatchCol bt) (Cert.Proof.Cross.kBatchCol_apply bt) g f
  -- the means are its stage 147
  have h147 : kDiv (Cert.ReferenceIdeal.Read.val_main_v138 (F := Ideal) x ei bt W1 b1 W2 b2 W3 b3) bt
      = Cert.ReferenceIdeal.Read.val_main_v147 (F := Ideal) x ei bt W1 b1 W2 b2 W3 b3 := by
    rw [Cert.Proof.Cross.kDiv_eq, Cert.Proof.RefSide.v147_eq]
  rw [h138, h147]
  refine funext fun (i : S128x32.Idx) => ?_
  obtain ⟨g, o, rfl⟩ : ∃ (g : Fin 128) (o : Fin 32), i = ix2 g o := ⟨i 0, i 1, eq_ix2 i⟩
  rw [Cert.Proof.RefSide.v151_eq']
  exact Cert.Proof.Pool.lin_eq _ Wl bl (kRow32 bl) (Cert.Proof.Cross.kRow32_apply bl) g o

/-- THE KERNEL PROGRAM'S RESULT, at the ideal instance, is the reference's final stage of the launch arguments. -/
theorem kernel_value (m : (ℓ : Loc nD τ sig) → Buf (Elt Ideal) ℓ) (c : Dev nD) :
    W12 (F := Ideal) m c main_v67
      = Cert.ReferenceIdeal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W12_out]
  exact (closed_form (Cert.Proof.RefSide.refLayer' (F := Ideal)) Cert.Proof.Layer.layer_law _ _ _ _ _ _ _ _ _ _ _ _ _ _ _ _
    (o4_eq m c) (o6_eq m c) (o8_eq m c) (o10_eq m c) (o12_eq m c)).trans (ref_form _ _ _ _ _ _ _ _ _ _ _)

end Ref

end Cert.KernelIdeal.Val

end
-- ==== Proof.lean ====
/-
  A three-layer graph convolution, mean-pooled per graph and followed by a linear layer, as five kernel regions among
  host operations, against the plain formulation.

  Both programs compute, for node features `x`, edges `(s, d)` (with a self-loop at every node) and the degree
  normalization `dinv = deg^(-1/2)` (`0` where the in-degree is `0`), three times
      `h ↦ max(Σ over edges into n of (h·W)[s] · dinv[s] · dinv[n] + b, 0)`,
  then, per graph `g`, the sum of the rows whose graph id is `g` divided by `max(count, 1)`, then `· Wl + bl`.
  They differ in where the normalization is applied: the reference multiplies every edge's message by
  `dinv[s] · dinv[d]` before the scatter-add; the kernel scales a node's row by `dinv` before the gather and the
  aggregated row by `dinv` after the scatter-add. Every edge that lands on node `n` has `d = n`, and `dinv[n]` is a
  NON-NEGATIVE REAL (the inverse square root of a count), so it comes out of the sum over the landing edges: on the
  extended reals multiplication by a non-negative real distributes over any sum, infinite terms included, so the law
  needs no finiteness of the inputs. The pooling is, on the kernel's side, a product with the indicator `[batch n = g]`
  accumulated over 25 row blocks, and on the reference's side the scatter-add's filtered sum. A change of float format is
  the identity at the ideal instance, and a matrix product into a zero accumulator is the plain sum of products.

  The frames: each region's body run at a symbolic grid point gives the pipeline's proof data (for the pooling region with
  its accumulator carried in the invariant); the regions are chained through the host stretches by the conditional frame;
  the reference's frame is its run with the result dropped. The ideal pass rewrote nothing, so `preserves` is `True`.
-/
import proofs.«415797_j26783416058161_2_alg».proof.Defs
import proofs.«415797_j26783416058161_2_alg».proof.Proof.Gen.Kernel
import proofs.«415797_j26783416058161_2_alg».proof.Proof.Gen.KernelIdeal
import proofs.«415797_j26783416058161_2_alg».proof.Proof.Gen.ReferenceIdeal
import proofs.«415797_j26783416058161_2_alg».proof.Proof.Gen.Pre_finite_inputs
import proofs.«415797_j26783416058161_2_alg».proof.Proof.K.Frame
import proofs.«415797_j26783416058161_2_alg».proof.Proof.KI.Run
import proofs.«415797_j26783416058161_2_alg».proof.Proof.Val.KVal
import proofs.«415797_j26783416058161_2_alg».proof.Proof.RefReadP
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories agreeing on the arguments, both programs end with the same result array: the
    kernel's is the reference's final stage of the launch arguments (`kernel_value`), and the reference's run ends at
    that stage of its own arguments, which are the kernel's. -/
theorem algebraic : Cert.algebraic_KernelIdeal_ReferenceIdeal := by
  intro m ρ m' ρ' _ hagree
  refine ⟨fun c => Cert.KernelIdeal.Gen.W12 m c Cert.KernelIdeal.main_v67, Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v151_eq, h0, h1, h2, h3, h4, h5, h6, h7, h8, h9, h10]
  exact (Cert.KernelIdeal.Val.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
